-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x16 : Shape := ⟨2, ![1000, 16]⟩
abbrev S4096x16 : Shape := ⟨2, ![4096, 16]⟩
abbrev S1000 : Shape := ⟨1, ![1000]⟩
abbrev S4096x1 : Shape := ⟨2, ![4096, 1]⟩
abbrev S_ : Shape := ⟨0, ![]⟩
abbrev S1x1000 : Shape := ⟨2, ![1, 1000]⟩
abbrev S4096x1000 : Shape := ⟨2, ![4096, 1000]⟩

class Facts : Prop where
  bcast_S_S1000x16 : S_.BroadcastsInDim S1000x16 (![] : Fin 0 → Fin S1000x16.rank)
  reducesTo_S1000x16_S_d0_1 : S1000x16.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S1000 : S_.BroadcastsInDim S1000 (![] : Fin 0 → Fin S1000.rank)
  reducesTo_S1000_S_d0 : S1000.ReducesTo [0] S_
  bcast_S_S4096x1 : S_.BroadcastsInDim S4096x1 (![] : Fin 0 → Fin S4096x1.rank)
  reducesTo_S4096x1_S_d0_1 : S4096x1.ReducesTo [0, 1] S_
  bcast_S1000_S1x1000_1 : S1000.BroadcastsInDim S1x1000 (![1] : Fin 1 → Fin S1x1000.rank)
  bcast_S4096x1_S4096x1000_0_1 : S4096x1.BroadcastsInDim S4096x1000 (![0, 1] : Fin 2 → Fin S4096x1000.rank)
  bcast_S1x1000_S4096x1000_0_1 : S1x1000.BroadcastsInDim S4096x1000 (![0, 1] : Fin 2 → Fin S4096x1000.rank)
  bcast_S_S1x1000 : S_.BroadcastsInDim S1x1000 (![] : Fin 0 → Fin S1x1000.rank)
  reducesTo_S4096x1000_S_d0_1 : S4096x1000.ReducesTo [0, 1] S_

variable [Facts]

def fn_part2 {F : FTy → Type} [FloatOps F] (main_v24 : IVec S_ 1) (main_v34 : IVec S4096x1000 1) (main_c_10 : IVec S_ 1) : IVec S_ 1 :=
  let main_v35 : IVec S_ 1 := (fun x v => Host.reduce IntOp.andi x v reducesTo_S4096x1000_S_d0_1 h_S_) main_v34 main_c_10
  let main_v36 : IVec S_ 1 := andi main_v24 main_v35
  main_v36

def fn_part1 {F : FTy → Type} [FloatOps F] (main_arg2 : FVec F S1000 .f32) (main_arg3 : IVec S4096x1 32) (main_v13 : IVec S_ 1) (main_v15 : IVec S4096x1 1) (main_c_5 : IVec S_ 32) : IVec S_ 1 :=
  let main_v16 : IVec S4096x1 32 := broadcastInDim S4096x1 ![] bcast_S_S4096x1 main_c_5
  let main_v17 : IVec S4096x1 1 := cmpi .slt main_arg3 main_v16
  let main_v18 : IVec S4096x1 1 := andi main_v15 main_v17
  let main_c_6 : IVec S_ 1 := constantI S_ 1 1#1
  let main_v19 : IVec S_ 1 := (fun x v => Host.reduce IntOp.andi x v reducesTo_S4096x1_S_d0_1 h_S_) main_v18 main_c_6
  let main_v20 : IVec S_ 1 := andi main_v13 main_v19
  let main_cst_7 : FVec F S_ .f32 := constant S_ .f32 0x00000000#32
  let main_v21 : FVec F S1000 .f32 := broadcastInDim S1000 ![] bcast_S_S1000 main_cst_7
  let main_v22 : IVec S1000 1 := cmpf .oge main_arg2 main_v21
  let main_c_8 : IVec S_ 1 := constantI S_ 1 1#1
  let main_v23 : IVec S_ 1 := (fun x v => Host.reduce IntOp.andi x v reducesTo_S1000_S_d0 h_S_) main_v22 main_c_8
  let main_v24 : IVec S_ 1 := andi main_v20 main_v23
  let main_v25 : IVec S1000 32 := iotaInDim S1000 32 0
  let main_v26 : IVec S1x1000 32 := broadcastInDim S1x1000 ![1] bcast_S1000_S1x1000_1 main_v25
  let main_v27 : IVec S4096x1000 32 := broadcastInDim S4096x1000 ![0, 1] bcast_S4096x1_S4096x1000_0_1 main_arg3
  let main_v28 : IVec S4096x1000 32 := broadcastInDim S4096x1000 ![0, 1] bcast_S1x1000_S4096x1000_0_1 main_v26
  let main_v29 : IVec S4096x1000 1 := cmpi .ne main_v27 main_v28
  let main_v30 : FVec F S1x1000 .f32 := broadcastInDim S1x1000 ![1] bcast_S1000_S1x1000_1 main_arg2
  let main_cst_9 : FVec F S_ .f32 := constant S_ .f32 0x00000000#32
  let main_v31 : FVec F S1x1000 .f32 := broadcastInDim S1x1000 ![] bcast_S_S1x1000 main_cst_9
  let main_v32 : IVec S1x1000 1 := cmpf .ogt main_v30 main_v31
  let main_v33 : IVec S4096x1000 1 := broadcastInDim S4096x1000 ![0, 1] bcast_S1x1000_S4096x1000_0_1 main_v32
  let main_v34 : IVec S4096x1000 1 := ori main_v29 main_v33
  let main_c_10 : IVec S_ 1 := constantI S_ 1 1#1
  fn_part2 (F := F) main_v24 main_v34 main_c_10

def fn {F : FTy → Type} [FloatOps F] (main_arg0 : FVec F S1000x16 .f32) (main_arg1 : FVec F S4096x16 .f32) (main_arg2 : FVec F S1000 .f32) (main_arg3 : IVec S4096x1 32) : IVec S_ 1 :=
  let main_v0 : FVec F S1000x16 .f32 := Host.absf main_arg0
  let main_cst : FVec F S_ .f32 := constant S_ .f32 0x7F800000#32
  let main_v1 : FVec F S1000x16 .f32 := broadcastInDim S1000x16 ![] bcast_S_S1000x16 main_cst
  let main_v2 : IVec S1000x16 1 := cmpf .olt main_v0 main_v1
  let main_c : IVec S_ 1 := constantI S_ 1 1#1
  let main_v3 : IVec S_ 1 := (fun x v => Host.reduce IntOp.andi x v reducesTo_S1000x16_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_c_4 : IVec S_ 32 := constantI S_ 32 0#32
  let main_v14 : IVec S4096x1 32 := broadcastInDim S4096x1 ![] bcast_S_S4096x1 main_c_4
  let main_v15 : IVec S4096x1 1 := cmpi .sge main_arg3 main_v14
  let main_c_5 : IVec S_ 32 := constantI S_ 32 1000#32
  fn_part1 (F := F) main_arg2 main_arg3 main_v13 main_v15 main_c_5
-- ==== Kernel.lean ====
abbrev S1000x16 : Shape := ⟨2, ![1000, 16]⟩
abbrev S4096x16 : Shape := ⟨2, ![4096, 16]⟩
abbrev S1000 : Shape := ⟨1, ![1000]⟩
abbrev S4096x1 : Shape := ⟨2, ![4096, 1]⟩
abbrev S_ : Shape := ⟨0, ![]⟩
abbrev S1024x16 : Shape := ⟨2, ![1024, 16]⟩
abbrev S1024 : Shape := ⟨1, ![1024]⟩
abbrev S1x1024 : Shape := ⟨2, ![1, 1024]⟩
abbrev S1x1x1x1024 : Shape := ⟨4, ![1, 1, 1, 1024]⟩
abbrev S8x1x1x1024 : Shape := ⟨4, ![8, 1, 1, 1024]⟩
abbrev S8x1024 : Shape := ⟨2, ![8, 1024]⟩
abbrev S512x16 : Shape := ⟨2, ![512, 16]⟩
abbrev S512x1 : Shape := ⟨2, ![512, 1]⟩
abbrev S4096x1024 : Shape := ⟨2, ![4096, 1024]⟩
abbrev S1x4096 : Shape := ⟨2, ![1, 4096]⟩
abbrev S1x1x1024 : Shape := ⟨3, ![1, 1, 1024]⟩
abbrev S1 : Shape := ⟨1, ![1]⟩
abbrev S1x1x1 : Shape := ⟨3, ![1, 1, 1]⟩
abbrev S512x1024 : Shape := ⟨2, ![512, 1024]⟩
abbrev S512 : Shape := ⟨1, ![512]⟩

abbrev nBuf : Space → Nat
  | .hbm => 15
  | .vmem => 11
  | .smem => 0
  | _ => 0

abbrev bufTy : (tb : Table) → Fin (tcTables nBuf tb) → BufTy
  | .hbm, ⟨0, _⟩ => ⟨S1000x16, .f32⟩
  | .hbm, ⟨1, _⟩ => ⟨S4096x16, .f32⟩
  | .hbm, ⟨2, _⟩ => ⟨S1000, .f32⟩
  | .hbm, ⟨3, _⟩ => ⟨S4096x1, .i32⟩
  | .hbm, ⟨4, _⟩ => ⟨S_, .i32⟩
  | .hbm, ⟨5, _⟩ => ⟨S_, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1x1x1x1024, .f32⟩
  | .hbm, ⟨12, _⟩ => ⟨S8x1x1x1024, .f32⟩
  | .hbm, ⟨13, _⟩ => ⟨S8x1024, .f32⟩
  | .hbm, ⟨14, _⟩ => ⟨S4096x1, .f32⟩
  | .local _ .vmem, ⟨0, _⟩ => ⟨S512x16, .f32⟩
  | .local _ .vmem, ⟨1, _⟩ => ⟨S512x16, .f32⟩
  | .local _ .vmem, ⟨2, _⟩ => ⟨S1024x16, .f32⟩
  | .local _ .vmem, ⟨3, _⟩ => ⟨S4096x1, .i32⟩
  | .local _ .vmem, ⟨4, _⟩ => ⟨S512x1, .i32⟩
  | .local _ .vmem, ⟨5, _⟩ => ⟨S512x1, .i32⟩
  | .local _ .vmem, ⟨6, _⟩ => ⟨S8x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S1x1024, .f32⟩
  | _, _ => ⟨S1000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_c_0 : Ref sig .tc := ⟨.hbm, 7, rfl⟩
abbrev main_call0_call1_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S1000x16_S1024x16_0240_000 : S1000x16.Pads (![0, 0] : Fin 2 → Nat) ![24, 0] ![0, 0] S1024x16
  h_S_ : 0 < S_.numel
  pads_S1000_S1024_0240 : S1000.Pads (![0] : Fin 1 → Nat) ![24] ![0] S1024
  bcast_S1024_S1x1024_1 : S1024.BroadcastsInDim S1x1024 (![1] : Fin 1 → Fin S1x1024.rank)
  shapeCasts_S1x1024_S1x1x1x1024 : S1x1024.ShapeCasts S1x1x1x1024
  bcast_S1x1x1x1024_S8x1x1x1024_0_1_2_3 : S1x1x1x1024.BroadcastsInDim S8x1x1x1024 (![0, 1, 2, 3] : Fin 4 → Fin S8x1x1x1024.rank)
  shapeCasts_S8x1x1x1024_S8x1024 : S8x1x1x1024.ShapeCasts S8x1024
  inb_S4096x1_S4096x1_0_0 : ∀ a, (![0, 0] : Fin 2 → Nat) a + S4096x1.size a ≤ S4096x1.size a
  h_S4096x1 : 0 < S4096x1.numel
  iota_S4096x1024_d1_w32 : S4096x1024.Iotas .tc 32 [1]
  broadcasts_S4096x1_S4096x1024 : S4096x1.Broadcasts S4096x1024
  natLt_1_32 : 1 < 32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S8x1024_S1x1024_0_0 : ∀ a, (![0, 0] : Fin 2 → Nat) a + S1x1024.size a ≤ S8x1024.size a
  shapeCasts_S1x1024_S1x1x1024 : S1x1024.ShapeCasts S1x1x1024
  reduces_S1x1x1024_S1 : S1x1x1024.Reduces [1, 2] S1
  shapeCasts_S1_S1x1x1 : S1.ShapeCasts S1x1x1
  inpos_S1x1x1_p0_0_0 : ∀ a, (![0, 0, 0] : Fin 3 → Nat) a < S1x1x1.size a
  inb_S512x16_S512x16_0_0 : ∀ a, (![0, 0] : Fin 2 → Nat) a + S512x16.size a ≤ S512x16.size a
  h_S512x16 : 0 < S512x16.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  inb_S512x1_S512x1_0_0 : ∀ a, (![0, 0] : Fin 2 → Nat) a + S512x1.size a ≤ S512x1.size a
  h_S512x1 : 0 < S512x1.numel
  iota_S512x1024_d1_w32 : S512x1024.Iotas .tc 32 [1]
  dot_S1x4096_S4096x1024_S1x1024_1_0_0_1_n_n_wf : DotDims.WF S1x4096 S4096x1024 S1x1024 [1] [0] [0] [1] [] []
  dot_S512x16_S1024x16_S512x1024_1_1_0_0_n_n_wf : DotDims.WF S512x16 S1024x16 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S4096x16.size a
  hwx0_0 : ∀ i : grid0.Coords, EltTy.bits .f32 = 32 ∨ (Rect.block (s := S4096x16) S512x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S1024x16.size a
  hwx0_1 : ∀ i : grid0.Coords, EltTy.bits .f32 = 32 ∨ (Rect.block (s := S1024x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S4096x1.size a
  hwx0_2 : ∀ i : grid0.Coords, EltTy.bits .i32 = 32 ∨ (Rect.block (s := S4096x1) S4096x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .i32 = 32 ∨ (Rect.block (s := S4096x1) S512x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x1024.size a
  hwx0_4 : ∀ i : grid0.Coords, EltTy.bits .f32 = 32 ∨ (Rect.block (s := S8x1024) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)

variable [Facts₀]

def dot_S1x4096_S4096x1024_S1x1024_1_0_0_1_n_n : DotDims S1x4096 S4096x1024 S1x1024 where
  lhsContracting := [1]
  rhsContracting := [0]
  lhsNonContracting := [0]
  rhsNonContracting := [1]
  lhsBatch := []
  rhsBatch := []
  wf := dot_S1x4096_S4096x1024_S1x1024_1_0_0_1_n_n_wf
def dot_S512x16_S1024x16_S512x1024_1_1_0_0_n_n : DotDims S512x16 S1024x16 S512x1024 where
  lhsContracting := [1]
  rhsContracting := [1]
  lhsNonContracting := [0]
  rhsNonContracting := [0]
  lhsBatch := []
  rhsBatch := []
  wf := dot_S512x16_S1024x16_S512x1024_1_1_0_0_n_n_wf

abbrev win0_0 : Pipeline.Window sig grid0 :=
  Pipeline.Window.ofSpec (Memref.whole main_arg1) S512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S8x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000x16 : Shape := ⟨2, ![1000, 16]⟩
abbrev S4096x16 : Shape := ⟨2, ![4096, 16]⟩
abbrev S1000 : Shape := ⟨1, ![1000]⟩
abbrev S4096x1 : Shape := ⟨2, ![4096, 1]⟩
abbrev S_ : Shape := ⟨0, ![]⟩
abbrev S4096 : Shape := ⟨1, ![4096]⟩
abbrev S1 : Shape := ⟨1, ![1]⟩
abbrev S1x1 : Shape := ⟨2, ![1, 1]⟩
abbrev S16x4096 : Shape := ⟨2, ![16, 4096]⟩
abbrev S4096x4096 : Shape := ⟨2, ![4096, 4096]⟩
abbrev S1x4096 : Shape := ⟨2, ![1, 4096]⟩

abbrev nBuf : Space → Nat
  | .hbm => 90
  | .vmem => 0
  | .smem => 0
  | _ => 0

abbrev bufTy : (tb : Table) → Fin (tcTables nBuf tb) → BufTy
  | .hbm, ⟨0, _⟩ => ⟨S1000x16, .f32⟩
  | .hbm, ⟨1, _⟩ => ⟨S4096x16, .f32⟩
  | .hbm, ⟨2, _⟩ => ⟨S1000, .f32⟩
  | .hbm, ⟨3, _⟩ => ⟨S4096x1, .i32⟩
  | .hbm, ⟨4, _⟩ => ⟨S_, .f32⟩
  | .hbm, ⟨5, _⟩ => ⟨S4096x16, .f32⟩
  | .hbm, ⟨6, _⟩ => ⟨S4096x16, .f32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S1, .i32⟩
  | .hbm, ⟨17, _⟩ => ⟨S_, .i32⟩
  | .hbm, ⟨18, _⟩ => ⟨S4096x1, .i32⟩
  | .hbm, ⟨19, _⟩ => ⟨S4096x1, .i1⟩
  | .hbm, ⟨20, _⟩ => ⟨S1x1, .i32⟩
  | .hbm, ⟨21, _⟩ => ⟨S4096x1, .i32⟩
  | .hbm, ⟨22, _⟩ => ⟨S4096x1, .i1⟩
  | .hbm, ⟨23, _⟩ => ⟨S4096x1, .i1⟩
  | .hbm, ⟨24, _⟩ => ⟨S_, .i1⟩
  | .hbm, ⟨25, _⟩ => ⟨S4096, .i1⟩
  | .hbm, ⟨26, _⟩ => ⟨S4096x16, .f32⟩
  | .hbm, ⟨27, _⟩ => ⟨S4096x16, .i1⟩
  | .hbm, ⟨28, _⟩ => ⟨S_, .f32⟩
  | .hbm, ⟨29, _⟩ => ⟨S4096x16, .f32⟩
  | .hbm, ⟨30, _⟩ => ⟨S4096x16, .f32⟩
  | .hbm, ⟨31, _⟩ => ⟨S16x4096, .f32⟩
  | .hbm, ⟨32, _⟩ => ⟨S4096x4096, .f32⟩
  | .hbm, ⟨33, _⟩ => ⟨S_, .f32⟩
  | .hbm, ⟨34, _⟩ => ⟨S_, .f32⟩
  | .hbm, ⟨35, _⟩ => ⟨S1000, .f32⟩
  | .hbm, ⟨36, _⟩ => ⟨S1000, .f32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S1, .i32⟩
  | .hbm, ⟨46, _⟩ => ⟨S_, .i32⟩
  | .hbm, ⟨47, _⟩ => ⟨S4096x1, .i32⟩
  | .hbm, ⟨48, _⟩ => ⟨S4096x1, .i1⟩
  | .hbm, ⟨49, _⟩ => ⟨S1x1, .i32⟩
  | .hbm, ⟨50, _⟩ => ⟨S4096x1, .i32⟩
  | .hbm, ⟨51, _⟩ => ⟨S4096x1, .i1⟩
  | .hbm, ⟨52, _⟩ => ⟨S4096x1, .i1⟩
  | .hbm, ⟨53, _⟩ => ⟨S_, .i1⟩
  | .hbm, ⟨54, _⟩ => ⟨S4096, .i1⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S1x4096, .f32⟩
  | .hbm, ⟨61, _⟩ => ⟨S4096x4096, .f32⟩
  | .hbm, ⟨62, _⟩ => ⟨S4096x4096, .f32⟩
  | .hbm, ⟨63, _⟩ => ⟨S4096x4096, .i32⟩
  | .hbm, ⟨64, _⟩ => ⟨S4096x4096, .i32⟩
  | .hbm, ⟨65, _⟩ => ⟨S_, .i32⟩
  | .hbm, ⟨66, _⟩ => ⟨S4096x4096, .i32⟩
  | .hbm, ⟨67, _⟩ => ⟨S4096x4096, .i32⟩
  | .hbm, ⟨68, _⟩ => ⟨S4096x4096, .i1⟩
  | .hbm, ⟨69, _⟩ => ⟨S4096x4096, .f32⟩
  | .hbm, ⟨70, _⟩ => ⟨S_, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S4096x1, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S_, .f32⟩
  | .hbm, ⟨87, _⟩ => ⟨S4096, .f32⟩
  | .hbm, ⟨88, _⟩ => ⟨S4096, .f32⟩
  | .hbm, ⟨89, _⟩ => ⟨S4096x1, .f32⟩
  | _, _ => ⟨S1000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_call2_cst : Ref sig .tc := ⟨.hbm, 70, rfl⟩
abbrev main_call2_v0 : Ref sig .tc := ⟨.hbm, 71, rfl⟩
abbrev main_call2_cst_0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_cst_1 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_v20 : Ref sig .tc := ⟨.hbm, 84, rfl⟩
abbrev main_v21 : Ref sig .tc := ⟨.hbm, 85, rfl⟩
abbrev main_cst_1 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩

abbrev nD : Nat := 1
abbrev τ : Topo := Topo.v7x

variable {F : FTy → Type} [FloatOps F]

class Facts₀ : Prop where
  bcast_S_S4096x16 : S_.BroadcastsInDim S4096x16 (![] : Fin 0 → Fin S4096x16.rank)
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x16_0 : S4096.BroadcastsInDim S4096x16 (![0] : Fin 1 → Fin S4096x16.rank)
  transposes_S4096x16_S16x4096_1_0 : S4096x16.Transposes [1, 0] S16x4096
  reducesTo_S1000_S_d0 : S1000.ReducesTo [0] S_
  bcast_S_S1000 : S_.BroadcastsInDim S1000 (![] : Fin 0 → Fin S1000.rank)
  shapeCasts_S4096_S1x4096 : S4096.ShapeCasts S1x4096
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  bcast_S4096x1_S4096x4096_0_1 : S4096x1.BroadcastsInDim S4096x4096 (![0, 1] : Fin 2 → Fin S4096x4096.rank)
  gather_S1000x16_S4096x1_S4096x16_1_0_n_n_0_1_116_wf : GatherDims.WF S1000x16 S4096x1 S4096x16 [1] [0] [] [0] [] 1 ![1, 16]
  dot_S4096x16_S16x4096_S4096x4096_1_0_0_1_n_n_wf : DotDims.WF S4096x16 S16x4096 S4096x4096 [1] [0] [0] [1] [] []
  gather_S1000_S4096x1_S4096_n_0_n_n_0_1_1_wf : GatherDims.WF S1000 S4096x1 S4096 [] [0] [] [0] [] 1 ![1]

variable [Facts₀]

def gather_S1000x16_S4096x1_S4096x16_1_0_n_n_0_1_116 : GatherDims S1000x16 S4096x1 S4096x16 where
  offsetDims := [1]
  collapsedSliceDims := [0]
  operandBatchingDims := []
  startIndicesBatchingDims := []
  startIndexMap := [0]
  indexVectorDim := 1
  sliceSizes := ![1, 16]
  wf := gather_S1000x16_S4096x1_S4096x16_1_0_n_n_0_1_116_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def gather_S1000_S4096x1_S4096_n_0_n_n_0_1_1 : GatherDims S1000 S4096x1 S4096 where
  offsetDims := []
  collapsedSliceDims := [0]
  operandBatchingDims := []
  startIndicesBatchingDims := []
  startIndexMap := [0]
  indexVectorDim := 1
  sliceSizes := ![1]
  wf := gather_S1000_S4096x1_S4096_n_0_n_n_0_1_1_wf

class Facts : Prop extends Facts₀ where

variable [Facts]
-- ==== Proof.BShared.lean ====
/-
  What the two runs of the kernel body and the launch share: the buffers' contents when the region is entered (the
  launch memory after the host operations that pad the embedding table and the counts and tile the counts eight
  times), each window's block at a grid point, the staging memrefs the pipeline passes at a point, the two scratch
  rows, and the body's one condition — "this is the first grid point" — in closed form.
-/
import proofs.«139335_g11544872092195_cont_week2b_396_3_alg».proof.Proof.Gen.Kernel.Launch
import proofs.«139335_g11544872092195_cont_week2b_396_3_alg».proof.Proof.Gen.Kernel.Skeleton
import proofs.«139335_g11544872092195_cont_week2b_396_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the ten host operations before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's condition -/

/-- The body's one branch condition, from the grid coordinate: the coordinate is zero. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- No window is ever idle. -/
theorem liveAt (w : Fin cfg0.W) : ∀ t : Fin cfg0.N, cfg0.idle w (grid0.coords t) = false := by
  revert w; decide +kernel

/-! ## The memrefs the body is called with -/

abbrev ms0_0 (t : Fin cfg0.N) : Memref sig .tc .vmem S512x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The two scratch rows: the per-item column counts and the per-item log-frequencies, kept from the first point on. -/
abbrev scM0 : Memref sig .tc .vmem S1x1024 .f32 := Memref.whole cc0_scratch0
abbrev scM1 : Memref sig .tc .vmem S1x1024 .f32 := Memref.whole cc0_scratch1
abbrev VS0 : View sig .tc .vmem S1x1024 .f32 := scM0.view
abbrev VS1 : View sig .tc .vmem S1x1024 .f32 := scM1.view
/-- One staging buffer of the output window, through which its contents are stated. -/
abbrev VO5 : View sig .tc .vmem S512x1 .f32 := (Memref.whole cc0_stg5_0 : Memref sig .tc .vmem S512x1 .f32).view

/-- The scoped buffers that are no staging buffer are the two scratch rows, each owned at some contents. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

end Cert.Kernel.Hand

end
-- ==== Proof.BRunA.lean ====
/-
  The body at the first grid point, run whole: the branch that builds the per-item column counts and log-frequencies
  is taken, both scratch rows are stored, read back, and the block of losses is stored. What each of the three written
  buffers ends with is found by the run, as the list of the pieces stored into it.
-/
import proofs.«139335_g11544872092195_cont_week2b_396_3_alg».proof.Proof.BShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the condition holds: on whole memrefs, the five inputs at their contents, the output buffer and
    the two scratch rows at anything, the body runs to the continuation holding the inputs as they were and each of
    the other three with its pieces written. -/
noncomputable def kernelRunA (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i)
    (x0 : Vec F S512x16 .f32) (x1 : Vec F S1024x16 .f32) (x2 : Vec F S4096x1 .i32) (x3 : Vec F S512x1 .i32) (x4 : Vec F S8x1024 .f32) :
    Σ' (L5 : List (View.Piece (Elt F) S512x1 .f32)), Σ' (LS0 : List (View.Piece (Elt F) S1x1024 .f32)), { LS1 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__sampled_softmax_body i arg1 harg1 arg2 harg2 arg3 harg3 arg4 harg4 arg5 harg5 arg6 harg6 arg7 harg7 arg8 harg8) K } := by
  refine ⟨?_, ?_, ?_, fun E K => ?run⟩
  case run =>
    simp only [cc0__sampled_softmax_body_eq_skeleton]; unfold cc0__sampled_softmax_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HS0]
    · iexists _; iexact HS0
    iexists _; iexact HS1

end Cert.Kernel.Hand

end
-- ==== Proof.BRunB.lean ====
/-
  The body at a later grid point, run whole: the branch is not taken, the two scratch rows are read as the first point
  left them, and the block of losses is stored. What the output buffer ends with is found by the run.
-/
import proofs.«139335_g11544872092195_cont_week2b_396_3_alg».proof.Proof.BShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the condition fails: on whole memrefs, the five inputs at their contents, the two scratch rows at
    the contents `xs0`, `xs1` carried from the point before, the output buffer at anything, the body runs to the
    continuation holding inputs and scratch rows as they were and the output buffer with its pieces written. -/
noncomputable def kernelRunB (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : ¬cond0 i)
    (x0 : Vec F S512x16 .f32) (x1 : Vec F S1024x16 .f32) (x2 : Vec F S4096x1 .i32) (x3 : Vec F S512x1 .i32) (x4 : Vec F S8x1024 .f32) (xs0 : Vec F S1x1024 .f32) (xs1 : Vec F S1x1024 .f32) :
    { L5 : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs0 ∗ owns (c : Thread nD τ) arg8 fullShare xs1) -∗ K ⟨⟩))
          ⊢ wp frame (wpE (defs₀ (F := F)) Variants.none c none) E (cc0__sampled_softmax_body i arg1 harg1 arg2 harg2 arg3 harg3 arg4 harg4 arg5 harg5 arg6 harg6 arg7 harg7 arg8 harg8) K } := by
  refine ⟨?_, fun E K => ?run⟩
  case run =>
    simp only [cc0__sampled_softmax_body_eq_skeleton]; unfold cc0__sampled_softmax_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0; obtain rfl := harg8.eq_unread hfs1
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HS0]
    · iexists _; isplitr; · ipureintro; exact harg7.read_unread _
      iexact HS0
    iexists _; isplitr; · ipureintro; exact harg8.read_unread _
    iexact HS1

end Cert.Kernel.Hand

end
-- ==== Proof.BData.lean ====
/-
  The kernel's frame and its run, for any float instance.

  At the first grid point the body builds, from the whole column of item ids and the counts, two rows it keeps in
  scratch memory — how many batch columns carry each item, and each item's log-frequency — and every point then
  computes its block of 512 losses from its block of user vectors, the padded embedding table, the two rows and its
  block of item ids. The proof data name what each point leaves: the inputs' staging buffers at their blocks, the
  output's at the block of losses, the scratch rows at what the first point stored. The item ids reach the body
  through two windows on one array (the whole column, and the point's block of it), so the array's share is dealt
  between the two windows, a half each.
-/
import proofs.«139335_g11544872092195_cont_week2b_396_3_alg».proof.Proof.BRunA
import proofs.«139335_g11544872092195_cont_week2b_396_3_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs found, read back -/

theorem coverA_5 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) (y : S512x1.Idx) :
    ∃ pc ∈ (kernelRunA c i arg1 harg1 arg2 harg2 arg3 harg3 arg4 harg4 arg5 harg5 arg6 harg6 arg7 harg7 arg8 harg8 hc x0 x1 x2 x3 x4).1, y ∈ pc.1.set :=
  View.cover_of_tiledL (kernelRunA c i arg1 harg1 arg2 harg2 arg3 harg3 arg4 harg4 arg5 harg5 arg6 harg6 arg7 harg7 arg8 harg8 hc x0 x1 x2 x3 x4).1 S512x1.size (by sl_kernel_rfl) y
theorem scoverA_0 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) (y : S1x1024.Idx) :
    ∃ pc ∈ (kernelRunA c i arg1 harg1 arg2 harg2 arg3 harg3 arg4 harg4 arg5 harg5 arg6 harg6 arg7 harg7 arg8 harg8 hc x0 x1 x2 x3 x4).2.1, y ∈ pc.1.set :=
  View.cover_of_tiledL (kernelRunA c i arg1 harg1 arg2 harg2 arg3 harg3 arg4 harg4 arg5 harg5 arg6 harg6 arg7 harg7 arg8 harg8 hc x0 x1 x2 x3 x4).2.1 S1x1024.size (by sl_kernel_rfl) y
theorem scoverA_1 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) (y : S1x1024.Idx) :
    ∃ pc ∈ (kernelRunA c i arg1 harg1 arg2 harg2 arg3 harg3 arg4 harg4 arg5 harg5 arg6 harg6 arg7 harg7 arg8 harg8 hc x0 x1 x2 x3 x4).2.2.1, y ∈ pc.1.set :=
  View.cover_of_tiledL (kernelRunA c i arg1 harg1 arg2 harg2 arg3 harg3 arg4 harg4 arg5 harg5 arg6 harg6 arg7 harg7 arg8 harg8 hc x0 x1 x2 x3 x4).2.2.1 S1x1024.size (by sl_kernel_rfl) y
theorem coverB_5 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : ¬cond0 i) (x0 : Vec F S512x16 .f32) (x1 : Vec F S1024x16 .f32) (x2 : Vec F S4096x1 .i32) (x3 : Vec F S512x1 .i32) (x4 : Vec F S8x1024 .f32) (xs0 : Vec F S1x1024 .f32) (xs1 : Vec F S1x1024 .f32) (y : S512x1.Idx) :
    ∃ pc ∈ (kernelRunB c i arg1 harg1 arg2 harg2 arg3 harg3 arg4 harg4 arg5 harg5 arg6 harg6 arg7 harg7 arg8 harg8 hc x0 x1 x2 x3 x4 xs0 xs1).1, y ∈ pc.1.set :=
  View.cover_of_tiledL (kernelRunB c i arg1 harg1 arg2 harg2 arg3 harg3 arg4 harg4 arg5 harg5 arg6 harg6 arg7 harg7 arg8 harg8 hc x0 x1 x2 x3 x4 xs0 xs1).1 S512x1.size (by sl_kernel_rfl) y

/-- What the first point leaves in the output's staging buffer, in the first scratch row, in the second. -/
def outA_5 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) : Vec F S512x1 .f32 :=
  VO5.read (Elt F) (VO5.writes (Elt F) VO5.junk (kernelRunA c i arg1 harg1 arg2 harg2 arg3 harg3 arg4 harg4 arg5 harg5 arg6 harg6 arg7 harg7 arg8 harg8 hc x0 x1 x2 x3 x4).1)
def soutA_0 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) : Vec F S1x1024 .f32 :=
  VS0.read (Elt F) (VS0.writes (Elt F) VS0.junk (kernelRunA c i arg1 harg1 arg2 harg2 arg3 harg3 arg4 harg4 arg5 harg5 arg6 harg6 arg7 harg7 arg8 harg8 hc x0 x1 x2 x3 x4).2.1)
def soutA_1 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) : Vec F S1x1024 .f32 :=
  VS1.read (Elt F) (VS1.writes (Elt F) VS1.junk (kernelRunA c i arg1 harg1 arg2 harg2 arg3 harg3 arg4 harg4 arg5 harg5 arg6 harg6 arg7 harg7 arg8 harg8 hc x0 x1 x2 x3 x4).2.2.1)
/-- What a later point leaves in the output's staging buffer. -/
def outB_5 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : ¬cond0 i) (x0 : Vec F S512x16 .f32) (x1 : Vec F S1024x16 .f32) (x2 : Vec F S4096x1 .i32) (x3 : Vec F S512x1 .i32) (x4 : Vec F S8x1024 .f32) (xs0 : Vec F S1x1024 .f32) (xs1 : Vec F S1x1024 .f32) : Vec F S512x1 .f32 :=
  VO5.read (Elt F) (VO5.writes (Elt F) VO5.junk (kernelRunB c i arg1 harg1 arg2 harg2 arg3 harg3 arg4 harg4 arg5 harg5 arg6 harg6 arg7 harg7 arg8 harg8 hc x0 x1 x2 x3 x4 xs0 xs1).1)

/-! ## Point by point -/

/-- After the body at position `n`: the output's staging buffer, the first scratch row, the second. The first point
    stores all three; a later point stores the output's and leaves the rows as it found them. -/
def outsAt (c : Dev nD) : (n : ℕ) → n < cfg0.N → Vec F S512x1 .f32 × Vec F S1x1024 .f32 × Vec F S1x1024 .f32
  | 0, hn => (outA_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      soutA_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      soutA_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩))
  | n + 1, hn => (outB_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => Nat.succ_ne_zero n ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
        (outsAt c n (Nat.lt_of_succ_lt hn)).2.1 (outsAt c n (Nat.lt_of_succ_lt hn)).2.2,
      (outsAt c n (Nat.lt_of_succ_lt hn)).2.1, (outsAt c n (Nat.lt_of_succ_lt hn)).2.2)

theorem outsAt_A (c : Dev nD) (t : Fin cfg0.N) (h0 : t.val = 0) :
    outsAt m c t.val t.isLt = (outA_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcond0 t).mpr h0) (iblk m c 0 t) (iblk m c 1 t) (iblk m c 2 t) (iblk m c 3 t) (iblk m c 4 t),
      soutA_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcond0 t).mpr h0) (iblk m c 0 t) (iblk m c 1 t) (iblk m c 2 t) (iblk m c 3 t) (iblk m c 4 t),
      soutA_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcond0 t).mpr h0) (iblk m c 0 t) (iblk m c 1 t) (iblk m c 2 t) (iblk m c 3 t) (iblk m c 4 t)) := by
  obtain ⟨n, hn⟩ := t
  cases n with
  | zero => exact rfl
  | succ n => exact absurd h0 (Nat.succ_ne_zero n)

theorem outsAt_B (c : Dev nD) (t : Fin cfg0.N) (h0 : ¬t.val = 0) :
    outsAt m c t.val t.isLt = (outB_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => h0 ((hcond0 t).mp h)) (iblk m c 0 t) (iblk m c 1 t) (iblk m c 2 t) (iblk m c 3 t) (iblk m c 4 t)
        (outsAt m c (t.val - 1) (Nat.lt_of_le_of_lt (Nat.sub_le _ _) t.isLt)).2.1 (outsAt m c (t.val - 1) (Nat.lt_of_le_of_lt (Nat.sub_le _ _) t.isLt)).2.2,
      (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact absurd rfl h0
  | succ n => exact rfl

/-- The invariant before position `n`: before the first point the two scratch rows at anything; afterwards at what
    the point before left in them. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare ((outsAt m c n hn).2.1) ∗ owns (c : Thread nD τ) scM1 fullShare ((outsAt m c n hn).2.2))

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl
theorem PhiS_succ (c : Dev nD) (n : ℕ) (hn : n < cfg0.N) :
    PhiS m c (n + 1) hn = iprop(owns (c : Thread nD τ) scM0 fullShare ((outsAt m c n hn).2.1) ∗ owns (c : Thread nD τ) scM1 fullShare ((outsAt m c n hn).2.2)) := rfl
theorem PhiS_pos (c : Dev nD) (n : ℕ) (h : n ≤ cfg0.N) (hz : n ≠ 0) :
    PhiS m c n h = iprop(owns (c : Thread nD τ) scM0 fullShare ((outsAt m c (n - 1) (by omega)).2.1) ∗ owns (c : Thread nD τ) scM1 fullShare ((outsAt m c (n - 1) (by omega)).2.2)) := by
  cases n with
  | zero => exact absurd rfl hz
  | succ n => rfl

/-! ## The proof data -/

/-- The pipeline's proof data on core `c`: the arrays as the region finds them; after the body each input's buffer
    at its block and the output's at the block of losses; the invariant the scratch rows; the item-id array's share a
    half to each of its two windows, every other array's whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t.val t.isLt).1 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

end Cert.Kernel.Hand

end
-- ==== Proof.BBody.lean ====
/-
  The body obligation at every grid point, and the launch.

  The first point hands the body its scratch rows at anything and takes them back at what it stored; a later point
  hands them at what the point before left and takes them back unchanged. The launch deals the item-id array's full
  share into the two halves its two windows hold, and reads every array back after the last point.
-/
import proofs.«139335_g11544872092195_cont_week2b_396_3_alg».proof.Proof.BData
import Idealize.ShloMosaic.Lib.Pipeline.Launch
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt 0 t], after0_0]
  rw [show (dats m 0 c).leavesExact 1 t = owns (c : Thread nD τ) (ms0_1 t) fullShare ((dats m 0 c).after 1 t) from by
    unfold Dat.leavesExact; rw [liveAt 1 t], after0_1]
  rw [show (dats m 0 c).leavesExact 2 t = owns (c : Thread nD τ) (ms0_2 t) fullShare ((dats m 0 c).after 2 t) from by
    unfold Dat.leavesExact; rw [liveAt 2 t], after0_2]
  rw [show (dats m 0 c).leavesExact 3 t = owns (c : Thread nD τ) (ms0_3 t) fullShare ((dats m 0 c).after 3 t) from by
    unfold Dat.leavesExact; rw [liveAt 3 t], after0_3]
  rw [show (dats m 0 c).leavesExact 4 t = owns (c : Thread nD τ) (ms0_4 t) fullShare ((dats m 0 c).after 4 t) from by
    unfold Dat.leavesExact; rw [liveAt 4 t], after0_4]
  rw [show (dats m 0 c).leavesExact 5 t = owns (c : Thread nD τ) (ms0_5 t) fullShare ((dats m 0 c).after 5 t) from by
    unfold Dat.leavesExact; rw [liveAt 5 t], after0_5]
  by_cases hz : t.val = 0
  · rw [outsAt_A m c t hz]
    unfold outA_5 soutA_0 soutA_1; (try dsimp only)
    rw [PhiS_castSucc m c t, PhiS_zero m c _ _ hz]
    iintro ⟨⟨HS0, HS1⟩, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ _ _ _ _ ((hcond0 t).mpr hz) (iblk m c 0 t) (iblk m c 1 t) (iblk m c 2 t) (iblk m c 3 t) (iblk m c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, ⟨%es0, HS0⟩, ⟨%es1, HS1⟩⟩
    isplitl [HS0 HS1]
    · isplitl [HS0]
      · unfold owns; iexists _; isplitr
        swap; · iexact HS0
        ipureintro; exact View.read_writes_of_cover _ _ _ _ _ (scoverA_0 c _ _ _ _ _ _ _ _ _ _ _ _ _ _ _ _ _ _ _ _ _ _ _)
      · unfold owns; iexists _; isplitr
        swap; · iexact HS1
        ipureintro; exact View.read_writes_of_cover _ _ _ _ _ (scoverA_1 c _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA_5 c _ _ _ _ _ _ _ _ _ _ _ _ _ _ _ _ _ _ _ _ _ _ _)
  · rw [outsAt_B m c t hz]
    unfold outB_5; (try dsimp only)
    rw [PhiS_castSucc m c t, PhiS_pos m c _ _ hz]
    iintro ⟨⟨HS0, HS1⟩, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ _ _ _ _ (fun h => hz ((hcond0 t).mp h)) (iblk m c 0 t) (iblk m c 1 t) (iblk m c 2 t) (iblk m c 3 t) (iblk m c 4 t) _ _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB_5 c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BHost.lean ====
/-
  What the kernel's region finds in its arrays, on the extended reals. The four arguments are as launched: no host
  operation writes one. The padded embedding table is the table on its first 1000 rows and zero on the 24 rows after
  them; the tiled counts are, in each of the eight rows, the counts on the first 1000 columns and zero on the 24 after.
-/
import proofs.«139335_g11544872092195_cont_week2b_396_3_alg».proof.Proof.BShared
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section AnyFloat

variable {F : FTy → Type} [FloatOps F] (m : (ℓ : Loc nD τ sig) → Buf (Elt F) ℓ) (c : Dev nD)

/-- No host operation before the region writes argument 0: the region finds it as launched, whatever the float values. -/
theorem V_arg0_gen : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-- No host operation before the region writes argument 1: the region finds it as launched, whatever the float values. -/
theorem V_arg1_gen : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-- No host operation before the region writes argument 2: the region finds it as launched, whatever the float values. -/
theorem V_arg2_gen : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-- No host operation before the region writes argument 3: the region finds it as launched, whatever the float values. -/
theorem V_arg3_gen : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

end AnyFloat

variable (m : (ℓ : Loc nD τ sig) → Buf (Elt Ideal) ℓ) (c : Dev nD)

/-- Argument 0 on the extended reals: as launched. -/
theorem V_arg0 : V (F := Ideal) m c main_arg0 = m ((c : Thread nD τ).loc main_arg0) := V_arg0_gen m c

/-- Argument 1 on the extended reals: as launched. -/
theorem V_arg1 : V (F := Ideal) m c main_arg1 = m ((c : Thread nD τ).loc main_arg1) := V_arg1_gen m c

/-- Argument 2 on the extended reals: as launched. -/
theorem V_arg2 : V (F := Ideal) m c main_arg2 = m ((c : Thread nD τ).loc main_arg2) := V_arg2_gen m c

/-- Argument 3 on the extended reals: as launched. -/
theorem V_arg3 : V (F := Ideal) m c main_arg3 = m ((c : Thread nD τ).loc main_arg3) := V_arg3_gen m c

/-- The converted integer zero is the real zero. -/
theorem padval_zero (i : S_.Idx) : (sitofp (F := Ideal) .f32 (constantI S_ 32 0#32) : S_.Idx → EReal) i = 0 :=
  sitofp_zero

/-- A [1000 × 16] table padded with 24 rows after it, read at row `k`, column `d`: the table's entry where `k < 1000`,
    the padding value on the 24 rows after. -/
theorem pad_rows_apply (x : S1000x16.Idx → EReal) (v : S_.Idx → EReal) (k : Fin 1024) (d : Fin 16) :
    pad S1024x16 ![0, 0] ![24, 0] ![0, 0] x v pads_S1000x16_S1024x16_0240_000 h_S_ (ix2 k d)
      = if h : k.val < 1000 then x (ix2 ⟨k.val, h⟩ d) else v ix0 := by
  by_cases h : k.val < 1000
  · rw [dif_pos h]
    exact pad_apply_of_inside _ _ _ x v _ _ (ix2 k d) (ix2 ⟨k.val, h⟩ d) (fun a => match a with
      | ⟨0, _⟩ => by show k.val = 0 + k.val * (0 + 1); omega
      | ⟨1, _⟩ => by show d.val = 0 + d.val * (0 + 1); omega)
  · rw [dif_neg h]
    refine (pad_apply_of_not_inside _ _ _ x v _ _ (ix2 k d) ⟨0, by decide⟩ ?_).trans (congrArg v (eq_ix0 _))
    show ¬ (0 ≤ k.val ∧ (k.val - 0) % (0 + 1) = 0 ∧ (k.val - 0) / (0 + 1) < 1000)
    omega

/-- A vector of 1000 entries padded with 24 after it, read at `k`. -/
theorem pad_vec_apply (x : S1000.Idx → EReal) (v : S_.Idx → EReal) (k : Fin 1024) :
    pad S1024 ![0] ![24] ![0] x v pads_S1000_S1024_0240 h_S_ (ix1 k)
      = if h : k.val < 1000 then x (ix1 ⟨k.val, h⟩) else v ix0 := by
  by_cases h : k.val < 1000
  · rw [dif_pos h]
    exact pad_apply_of_inside _ _ _ x v _ _ (ix1 k) (ix1 ⟨k.val, h⟩) (fun a => match a with
      | ⟨0, _⟩ => by show k.val = 0 + k.val * (0 + 1); omega)
  · rw [dif_neg h]
    refine (pad_apply_of_not_inside _ _ _ x v _ _ (ix1 k) ⟨0, by decide⟩ ?_).trans (congrArg v (eq_ix0 _))
    show ¬ (0 ≤ k.val ∧ (k.val - 0) % (0 + 1) = 0 ∧ (k.val - 0) / (0 + 1) < 1000)
    omega

/-- The 1024-vector laid as a [1 × 1024] row, reshaped to [1 × 1 × 1 × 1024], copied eight times along the leading axis and
    reshaped to [8 × 1024], read at row `r`, column `k`: the vector at `k`, in every row. -/
theorem tile_apply (P : S1024.Idx → EReal) (r : Fin 8) (k : Fin 1024) :
    shapeCast S8x1024 (broadcastInDim S8x1x1x1024 ![0, 1, 2, 3] bcast_S1x1x1x1024_S8x1x1x1024_0_1_2_3
      (shapeCast S1x1x1x1024 (broadcastInDim S1x1024 ![1] bcast_S1024_S1x1024_1 P) shapeCasts_S1x1024_S1x1x1x1024))
      shapeCasts_S8x1x1x1024_S8x1024 (ix2 r k) = P (ix1 k) := by
  refine (shapeCast_apply _ _ (ix2 r k) (ix4 r (0 : Fin 1) (0 : Fin 1) k) ?_).trans ?_
  · rw [Shape.rowMajor_val_four, Shape.rowMajor_val_two]
    show ((r.val * 1 + 0) * 1 + 0) * 1024 + k.val = r.val * 1024 + k.val
    omega
  refine (broadcastInDim_apply _ _ _ (ix4 r (0 : Fin 1) (0 : Fin 1) k) (ix4 (0 : Fin 1) (0 : Fin 1) (0 : Fin 1) k)
    (fun a => match a with | ⟨0, _⟩ => rfl | ⟨1, _⟩ => rfl | ⟨2, _⟩ => rfl | ⟨3, _⟩ => rfl)).trans ?_
  refine (shapeCast_apply _ _ (ix4 (0 : Fin 1) (0 : Fin 1) (0 : Fin 1) k) (ix2 (0 : Fin 1) k) ?_).trans ?_
  · rw [Shape.rowMajor_val_four, Shape.rowMajor_val_two]
    show 0 * 1024 + k.val = ((0 * 1 + 0) * 1 + 0) * 1024 + k.val
    omega
  exact broadcastInDim_apply _ _ _ (ix2 (0 : Fin 1) k) (ix1 k) (fun a => match a with | ⟨0, _⟩ => rfl)

theorem V_epad (k : Fin 1024) (d : Fin 16) :
    (V (F := Ideal) m c main_call0_v0 : S1024x16.Idx → EReal) (ix2 k d)
      = if h : k.val < 1000 then (m ((c : Thread nD τ).loc main_arg0) : S1000x16.Idx → EReal) (ix2 ⟨k.val, h⟩ d) else (0 : EReal) := by
  have e : (V (F := Ideal) m c main_call0_v0 : S1024x16.Idx → EReal)
      = pad S1024x16 ![0, 0] ![24, 0] ![0, 0] (m ((c : Thread nD τ).loc main_arg0) : S1000x16.Idx → EReal)
          (sitofp (F := Ideal) .f32 (constantI S_ 32 0#32)) pads_S1000x16_S1024x16_0240_000 h_S_ := by
    dsimp only [V, hostOps0]; after_results; rfl
  rw [e, pad_rows_apply]
  by_cases h : k.val < 1000
  · rw [dif_pos h, dif_pos h]
  · rw [dif_neg h, dif_neg h]; exact padval_zero _

theorem V_cnt2d (r : Fin 8) (k : Fin 1024) :
    (V (F := Ideal) m c main_call0_v5 : S8x1024.Idx → EReal) (ix2 r k)
      = if h : k.val < 1000 then (m ((c : Thread nD τ).loc main_arg2) : S1000.Idx → EReal) (ix1 ⟨k.val, h⟩) else (0 : EReal) := by
  have e : (V (F := Ideal) m c main_call0_v5 : S8x1024.Idx → EReal)
      = shapeCast S8x1024 (broadcastInDim S8x1x1x1024 ![0, 1, 2, 3] bcast_S1x1x1x1024_S8x1x1x1024_0_1_2_3
          (shapeCast S1x1x1x1024 (broadcastInDim S1x1024 ![1] bcast_S1024_S1x1024_1
            (pad S1024 ![0] ![24] ![0] (m ((c : Thread nD τ).loc main_arg2) : S1000.Idx → EReal)
              (sitofp (F := Ideal) .f32 (constantI S_ 32 0#32)) pads_S1000_S1024_0240 h_S_))
            shapeCasts_S1x1024_S1x1x1x1024)) shapeCasts_S8x1x1x1024_S8x1024 := by
    dsimp only [V, hostOps0]; after_results; rfl
  rw [e, tile_apply, pad_vec_apply]
  by_cases h : k.val < 1000
  · rw [dif_pos h, dif_pos h]
  · rw [dif_neg h, dif_neg h]; exact padval_zero _

end Cert.Kernel.Hand

end
-- ==== Proof.BLaunch.lean ====
/-
  The launch: the item-id array's full share dealt to its two windows a half each, the region run from the scratch
  rows at anything, and every array read back after the last point; then the frame — the four argument arrays end as
  they began.
-/
import proofs.«139335_g11544872092195_cont_week2b_396_3_alg».proof.Proof.BBody
import proofs.«139335_g11544872092195_cont_week2b_396_3_alg».proof.Proof.BHost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five buffers behind the six windows' arrays, each whole at the full share, are the proof data's arrays at entry:
    the item-id array's share split in two for the two windows on it. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  unfold Pipeline.arrBufs Dat.arrays
  rw [bigSep_W0]
  rw [bigSep_eq_bigSepL_of_eq [main_arg1, main_call0_v0, main_arg3, main_call0_v5, main_v0] (by decide) (by decide)]
  simp only [bigSepL_cons_cons, bigSepL_singleton]
  rw [(arr_whole0 0).set_eq_univ, (arr_whole0 1).set_eq_univ, (arr_whole0 2).set_eq_univ, (arr_whole0 4).set_eq_univ, (arr_whole0 5).set_eq_univ]
  show iprop((((c.tc : Thread nD τ).loc main_arg1) ↦{fullShare} V m c main_arg1) ∗ (((c.tc : Thread nD τ).loc main_call0_v0) ↦{fullShare} V m c main_call0_v0)
    ∗ (((c.tc : Thread nD τ).loc main_arg3) ↦{fullShare} V m c main_arg3)
    ∗ (((c.tc : Thread nD τ).loc main_call0_v5) ↦{fullShare} V m c main_call0_v5) ∗ (((c.tc : Thread nD τ).loc main_v0) ↦{fullShare} V m c main_v0))
    ⊢ iprop((((c.tc : Thread nD τ).loc main_arg1) ↦{fullShare} V m c main_arg1) ∗ (((c.tc : Thread nD τ).loc main_call0_v0) ↦{fullShare} V m c main_call0_v0)
    ∗ (((c.tc : Thread nD τ).loc main_arg3) ↦{fullShare.left} V m c main_arg3) ∗ (((c.tc : Thread nD τ).loc main_arg3) ↦{fullShare.right} V m c main_arg3)
    ∗ (((c.tc : Thread nD τ).loc main_call0_v5) ↦{fullShare} V m c main_call0_v5) ∗ (((c.tc : Thread nD τ).loc main_v0) ↦{fullShare} V m c main_v0))
  have h3 : ((((c.tc : Thread nD τ).loc main_arg3) ↦{fullShare} V m c main_arg3 : sProp 𝕄))
      ⊢ iprop((((c.tc : Thread nD τ).loc main_arg3) ↦{fullShare.left} V m c main_arg3) ∗ (((c.tc : Thread nD τ).loc main_arg3) ↦{fullShare.right} V m c main_arg3)) :=
    (pointsTo_share (PosShare.mem_left_op_right fullShare)).1
  iintro ⟨H1, Hv0, H3, Hv5, Ho⟩
  ihave H3' := h3 $$ H3
  icases H3' with ⟨H3l, H3r⟩
  isplitl [H1]; · iexact H1
  isplitl [Hv0]; · iexact Hv0
  isplitl [H3l]; · iexact H3l
  isplitl [H3r]; · iexact H3r
  isplitl [Hv5]; · iexact Hv5
  iexact Ho

/-- Before the first point the invariant is the two scratch rows at anything, which is what the launch hands over; -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl, scopedRest_owns]
  iintro ⟨-, H⟩; iexact H

/-- after the last point it gives them back, their contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), scopedRest_owns]
  iintro ⟨H0, H1⟩
  isplitr; · iempintro
  isplitl [H0]
  · iexists _; iexact H0
  iexists _; iexact H1

/-- At the compiled mesh, for any values, from any memory with zero counters: every weakly fair execution of @main
    terminates, every array of the pipeline ends at what the proof data compute, and every other unscoped buffer at
    what the region found in it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME, at any float instance: the program runs to the end, nothing faulting, and its four argument arrays end
    as they began — the user vectors and the item ids are arrays of input windows, which the pipeline never writes;
    the embedding table and the counts are read by the host operations only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (by decide)).trans (V_arg0_gen m c),
     ((h c).1 0).trans (((dats m 0 c).arrAt_in 0 rfl _).trans ((A_eq m c 0).trans (V_arg1_gen m c))),
     ((h c).2 main_arg2 (by decide)).trans (V_arg2_gen m c),
     ((h c).1 2).trans (((dats m 0 c).arrAt_in 2 rfl _).trans ((A_eq m c 2).trans (V_arg3_gen m c)))⟩) (run_main m ρ)

/-- The run with the result named: the result array ends at what the proof data compute for the output window after
    the last write-back, the four argument arrays as they began. -/
theorem run_value : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 5,
     ((h c).2 main_arg0 (by decide)).trans (V_arg0_gen m c),
     ((h c).1 0).trans (((dats m 0 c).arrAt_in 0 rfl _).trans ((A_eq m c 0).trans (V_arg1_gen m c))),
     ((h c).2 main_arg2 (by decide)).trans (V_arg2_gen m c),
     ((h c).1 2).trans (((dats m 0 c).arrAt_in 2 rfl _).trans ((A_eq m c 2).trans (V_arg3_gen m c)))⟩) (run_main m ρ)

end Cert.Kernel.Hand

end
-- ==== Proof.KShared.lean ====
/-
  What the two runs of the kernel body and the launch share: the buffers' contents when the region is entered (the
  launch memory after the host operations that pad the embedding table and the counts and tile the counts eight
  times), each window's block at a grid point, the staging memrefs the pipeline passes at a point, the two scratch
  rows, and the body's one condition — "this is the first grid point" — in closed form.
-/
import proofs.«139335_g11544872092195_cont_week2b_396_3_alg».proof.Proof.Gen.KernelIdeal.Launch
import proofs.«139335_g11544872092195_cont_week2b_396_3_alg».proof.Proof.Gen.KernelIdeal.Skeleton
import proofs.«139335_g11544872092195_cont_week2b_396_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the ten host operations before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's condition -/

/-- The body's one branch condition, from the grid coordinate: the coordinate is zero. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- No window is ever idle. -/
theorem liveAt (w : Fin cfg0.W) : ∀ t : Fin cfg0.N, cfg0.idle w (grid0.coords t) = false := by
  revert w; decide +kernel

/-! ## The memrefs the body is called with -/

abbrev ms0_0 (t : Fin cfg0.N) : Memref sig .tc .vmem S512x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The two scratch rows: the per-item column counts and the per-item log-frequencies, kept from the first point on. -/
abbrev scM0 : Memref sig .tc .vmem S1x1024 .f32 := Memref.whole cc0_scratch0
abbrev scM1 : Memref sig .tc .vmem S1x1024 .f32 := Memref.whole cc0_scratch1
abbrev VS0 : View sig .tc .vmem S1x1024 .f32 := scM0.view
abbrev VS1 : View sig .tc .vmem S1x1024 .f32 := scM1.view
/-- One staging buffer of the output window, through which its contents are stated. -/
abbrev VO5 : View sig .tc .vmem S512x1 .f32 := (Memref.whole cc0_stg5_0 : Memref sig .tc .vmem S512x1 .f32).view

/-- The scoped buffers that are no staging buffer are the two scratch rows, each owned at some contents. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

end Cert.KernelIdeal.Hand

end
-- ==== Proof.KRunA.lean ====
/-
  The body at the first grid point, run whole: the branch that builds the per-item column counts and log-frequencies
  is taken, both scratch rows are stored, read back, and the block of losses is stored. What each of the three written
  buffers ends with is found by the run, as the list of the pieces stored into it.
-/
import proofs.«139335_g11544872092195_cont_week2b_396_3_alg».proof.Proof.KShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the condition holds: on whole memrefs, the five inputs at their contents, the output buffer and
    the two scratch rows at anything, the body runs to the continuation holding the inputs as they were and each of
    the other three with its pieces written. -/
noncomputable def kernelRunA (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i)
    (x0 : Vec F S512x16 .f32) (x1 : Vec F S1024x16 .f32) (x2 : Vec F S4096x1 .i32) (x3 : Vec F S512x1 .i32) (x4 : Vec F S8x1024 .f32) :
    Σ' (L5 : List (View.Piece (Elt F) S512x1 .f32)), Σ' (LS0 : List (View.Piece (Elt F) S1x1024 .f32)), { LS1 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__sampled_softmax_body i arg1 harg1 arg2 harg2 arg3 harg3 arg4 harg4 arg5 harg5 arg6 harg6 arg7 harg7 arg8 harg8) K } := by
  refine ⟨?_, ?_, ?_, fun E K => ?run⟩
  case run =>
    simp only [cc0__sampled_softmax_body_eq_skeleton]; unfold cc0__sampled_softmax_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HS0]
    · iexists _; iexact HS0
    iexists _; iexact HS1

end Cert.KernelIdeal.Hand

end
-- ==== Proof.KRunB.lean ====
/-
  The body at a later grid point, run whole: the branch is not taken, the two scratch rows are read as the first point
  left them, and the block of losses is stored. What the output buffer ends with is found by the run.
-/
import proofs.«139335_g11544872092195_cont_week2b_396_3_alg».proof.Proof.KShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the condition fails: on whole memrefs, the five inputs at their contents, the two scratch rows at
    the contents `xs0`, `xs1` carried from the point before, the output buffer at anything, the body runs to the
    continuation holding inputs and scratch rows as they were and the output buffer with its pieces written. -/
noncomputable def kernelRunB (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : ¬cond0 i)
    (x0 : Vec F S512x16 .f32) (x1 : Vec F S1024x16 .f32) (x2 : Vec F S4096x1 .i32) (x3 : Vec F S512x1 .i32) (x4 : Vec F S8x1024 .f32) (xs0 : Vec F S1x1024 .f32) (xs1 : Vec F S1x1024 .f32) :
    { L5 : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs0 ∗ owns (c : Thread nD τ) arg8 fullShare xs1) -∗ K ⟨⟩))
          ⊢ wp frame (wpE (defs₀ (F := F)) Variants.none c none) E (cc0__sampled_softmax_body i arg1 harg1 arg2 harg2 arg3 harg3 arg4 harg4 arg5 harg5 arg6 harg6 arg7 harg7 arg8 harg8) K } := by
  refine ⟨?_, fun E K => ?run⟩
  case run =>
    simp only [cc0__sampled_softmax_body_eq_skeleton]; unfold cc0__sampled_softmax_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0; obtain rfl := harg8.eq_unread hfs1
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HS0]
    · iexists _; isplitr; · ipureintro; exact harg7.read_unread _
      iexact HS0
    iexists _; isplitr; · ipureintro; exact harg8.read_unread _
    iexact HS1

end Cert.KernelIdeal.Hand

end
-- ==== Proof.KData.lean ====
/-
  The kernel's frame and its run, for any float instance.

  At the first grid point the body builds, from the whole column of item ids and the counts, two rows it keeps in
  scratch memory — how many batch columns carry each item, and each item's log-frequency — and every point then
  computes its block of 512 losses from its block of user vectors, the padded embedding table, the two rows and its
  block of item ids. The proof data name what each point leaves: the inputs' staging buffers at their blocks, the
  output's at the block of losses, the scratch rows at what the first point stored. The item ids reach the body
  through two windows on one array (the whole column, and the point's block of it), so the array's share is dealt
  between the two windows, a half each.
-/
import proofs.«139335_g11544872092195_cont_week2b_396_3_alg».proof.Proof.KRunA
import proofs.«139335_g11544872092195_cont_week2b_396_3_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs found, read back -/

theorem coverA_5 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) (y : S512x1.Idx) :
    ∃ pc ∈ (kernelRunA c i arg1 harg1 arg2 harg2 arg3 harg3 arg4 harg4 arg5 harg5 arg6 harg6 arg7 harg7 arg8 harg8 hc x0 x1 x2 x3 x4).1, y ∈ pc.1.set :=
  View.cover_of_tiledL (kernelRunA c i arg1 harg1 arg2 harg2 arg3 harg3 arg4 harg4 arg5 harg5 arg6 harg6 arg7 harg7 arg8 harg8 hc x0 x1 x2 x3 x4).1 S512x1.size (by sl_kernel_rfl) y
theorem scoverA_0 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) (y : S1x1024.Idx) :
    ∃ pc ∈ (kernelRunA c i arg1 harg1 arg2 harg2 arg3 harg3 arg4 harg4 arg5 harg5 arg6 harg6 arg7 harg7 arg8 harg8 hc x0 x1 x2 x3 x4).2.1, y ∈ pc.1.set :=
  View.cover_of_tiledL (kernelRunA c i arg1 harg1 arg2 harg2 arg3 harg3 arg4 harg4 arg5 harg5 arg6 harg6 arg7 harg7 arg8 harg8 hc x0 x1 x2 x3 x4).2.1 S1x1024.size (by sl_kernel_rfl) y
theorem scoverA_1 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) (y : S1x1024.Idx) :
    ∃ pc ∈ (kernelRunA c i arg1 harg1 arg2 harg2 arg3 harg3 arg4 harg4 arg5 harg5 arg6 harg6 arg7 harg7 arg8 harg8 hc x0 x1 x2 x3 x4).2.2.1, y ∈ pc.1.set :=
  View.cover_of_tiledL (kernelRunA c i arg1 harg1 arg2 harg2 arg3 harg3 arg4 harg4 arg5 harg5 arg6 harg6 arg7 harg7 arg8 harg8 hc x0 x1 x2 x3 x4).2.2.1 S1x1024.size (by sl_kernel_rfl) y
theorem coverB_5 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : ¬cond0 i) (x0 : Vec F S512x16 .f32) (x1 : Vec F S1024x16 .f32) (x2 : Vec F S4096x1 .i32) (x3 : Vec F S512x1 .i32) (x4 : Vec F S8x1024 .f32) (xs0 : Vec F S1x1024 .f32) (xs1 : Vec F S1x1024 .f32) (y : S512x1.Idx) :
    ∃ pc ∈ (kernelRunB c i arg1 harg1 arg2 harg2 arg3 harg3 arg4 harg4 arg5 harg5 arg6 harg6 arg7 harg7 arg8 harg8 hc x0 x1 x2 x3 x4 xs0 xs1).1, y ∈ pc.1.set :=
  View.cover_of_tiledL (kernelRunB c i arg1 harg1 arg2 harg2 arg3 harg3 arg4 harg4 arg5 harg5 arg6 harg6 arg7 harg7 arg8 harg8 hc x0 x1 x2 x3 x4 xs0 xs1).1 S512x1.size (by sl_kernel_rfl) y

/-- What the first point leaves in the output's staging buffer, in the first scratch row, in the second. -/
def outA_5 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) : Vec F S512x1 .f32 :=
  VO5.read (Elt F) (VO5.writes (Elt F) VO5.junk (kernelRunA c i arg1 harg1 arg2 harg2 arg3 harg3 arg4 harg4 arg5 harg5 arg6 harg6 arg7 harg7 arg8 harg8 hc x0 x1 x2 x3 x4).1)
def soutA_0 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) : Vec F S1x1024 .f32 :=
  VS0.read (Elt F) (VS0.writes (Elt F) VS0.junk (kernelRunA c i arg1 harg1 arg2 harg2 arg3 harg3 arg4 harg4 arg5 harg5 arg6 harg6 arg7 harg7 arg8 harg8 hc x0 x1 x2 x3 x4).2.1)
def soutA_1 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) : Vec F S1x1024 .f32 :=
  VS1.read (Elt F) (VS1.writes (Elt F) VS1.junk (kernelRunA c i arg1 harg1 arg2 harg2 arg3 harg3 arg4 harg4 arg5 harg5 arg6 harg6 arg7 harg7 arg8 harg8 hc x0 x1 x2 x3 x4).2.2.1)
/-- What a later point leaves in the output's staging buffer. -/
def outB_5 (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : ¬cond0 i) (x0 : Vec F S512x16 .f32) (x1 : Vec F S1024x16 .f32) (x2 : Vec F S4096x1 .i32) (x3 : Vec F S512x1 .i32) (x4 : Vec F S8x1024 .f32) (xs0 : Vec F S1x1024 .f32) (xs1 : Vec F S1x1024 .f32) : Vec F S512x1 .f32 :=
  VO5.read (Elt F) (VO5.writes (Elt F) VO5.junk (kernelRunB c i arg1 harg1 arg2 harg2 arg3 harg3 arg4 harg4 arg5 harg5 arg6 harg6 arg7 harg7 arg8 harg8 hc x0 x1 x2 x3 x4 xs0 xs1).1)

/-! ## Point by point -/

/-- After the body at position `n`: the output's staging buffer, the first scratch row, the second. The first point
    stores all three; a later point stores the output's and leaves the rows as it found them. -/
def outsAt (c : Dev nD) : (n : ℕ) → n < cfg0.N → Vec F S512x1 .f32 × Vec F S1x1024 .f32 × Vec F S1x1024 .f32
  | 0, hn => (outA_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      soutA_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      soutA_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩))
  | n + 1, hn => (outB_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => Nat.succ_ne_zero n ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
        (outsAt c n (Nat.lt_of_succ_lt hn)).2.1 (outsAt c n (Nat.lt_of_succ_lt hn)).2.2,
      (outsAt c n (Nat.lt_of_succ_lt hn)).2.1, (outsAt c n (Nat.lt_of_succ_lt hn)).2.2)

theorem outsAt_A (c : Dev nD) (t : Fin cfg0.N) (h0 : t.val = 0) :
    outsAt m c t.val t.isLt = (outA_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcond0 t).mpr h0) (iblk m c 0 t) (iblk m c 1 t) (iblk m c 2 t) (iblk m c 3 t) (iblk m c 4 t),
      soutA_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcond0 t).mpr h0) (iblk m c 0 t) (iblk m c 1 t) (iblk m c 2 t) (iblk m c 3 t) (iblk m c 4 t),
      soutA_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcond0 t).mpr h0) (iblk m c 0 t) (iblk m c 1 t) (iblk m c 2 t) (iblk m c 3 t) (iblk m c 4 t)) := by
  obtain ⟨n, hn⟩ := t
  cases n with
  | zero => exact rfl
  | succ n => exact absurd h0 (Nat.succ_ne_zero n)

theorem outsAt_B (c : Dev nD) (t : Fin cfg0.N) (h0 : ¬t.val = 0) :
    outsAt m c t.val t.isLt = (outB_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => h0 ((hcond0 t).mp h)) (iblk m c 0 t) (iblk m c 1 t) (iblk m c 2 t) (iblk m c 3 t) (iblk m c 4 t)
        (outsAt m c (t.val - 1) (Nat.lt_of_le_of_lt (Nat.sub_le _ _) t.isLt)).2.1 (outsAt m c (t.val - 1) (Nat.lt_of_le_of_lt (Nat.sub_le _ _) t.isLt)).2.2,
      (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact absurd rfl h0
  | succ n => exact rfl

/-- The invariant before position `n`: before the first point the two scratch rows at anything; afterwards at what
    the point before left in them. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare ((outsAt m c n hn).2.1) ∗ owns (c : Thread nD τ) scM1 fullShare ((outsAt m c n hn).2.2))

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl
theorem PhiS_succ (c : Dev nD) (n : ℕ) (hn : n < cfg0.N) :
    PhiS m c (n + 1) hn = iprop(owns (c : Thread nD τ) scM0 fullShare ((outsAt m c n hn).2.1) ∗ owns (c : Thread nD τ) scM1 fullShare ((outsAt m c n hn).2.2)) := rfl
theorem PhiS_pos (c : Dev nD) (n : ℕ) (h : n ≤ cfg0.N) (hz : n ≠ 0) :
    PhiS m c n h = iprop(owns (c : Thread nD τ) scM0 fullShare ((outsAt m c (n - 1) (by omega)).2.1) ∗ owns (c : Thread nD τ) scM1 fullShare ((outsAt m c (n - 1) (by omega)).2.2)) := by
  cases n with
  | zero => exact absurd rfl hz
  | succ n => rfl

/-! ## The proof data -/

/-- The pipeline's proof data on core `c`: the arrays as the region finds them; after the body each input's buffer
    at its block and the output's at the block of losses; the invariant the scratch rows; the item-id array's share a
    half to each of its two windows, every other array's whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t.val t.isLt).1 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

end Cert.KernelIdeal.Hand

end
-- ==== Proof.KBody.lean ====
/-
  The body obligation at every grid point, and the launch.

  The first point hands the body its scratch rows at anything and takes them back at what it stored; a later point
  hands them at what the point before left and takes them back unchanged. The launch deals the item-id array's full
  share into the two halves its two windows hold, and reads every array back after the last point.
-/
import proofs.«139335_g11544872092195_cont_week2b_396_3_alg».proof.Proof.KData
import Idealize.ShloMosaic.Lib.Pipeline.Launch
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt 0 t], after0_0]
  rw [show (dats m 0 c).leavesExact 1 t = owns (c : Thread nD τ) (ms0_1 t) fullShare ((dats m 0 c).after 1 t) from by
    unfold Dat.leavesExact; rw [liveAt 1 t], after0_1]
  rw [show (dats m 0 c).leavesExact 2 t = owns (c : Thread nD τ) (ms0_2 t) fullShare ((dats m 0 c).after 2 t) from by
    unfold Dat.leavesExact; rw [liveAt 2 t], after0_2]
  rw [show (dats m 0 c).leavesExact 3 t = owns (c : Thread nD τ) (ms0_3 t) fullShare ((dats m 0 c).after 3 t) from by
    unfold Dat.leavesExact; rw [liveAt 3 t], after0_3]
  rw [show (dats m 0 c).leavesExact 4 t = owns (c : Thread nD τ) (ms0_4 t) fullShare ((dats m 0 c).after 4 t) from by
    unfold Dat.leavesExact; rw [liveAt 4 t], after0_4]
  rw [show (dats m 0 c).leavesExact 5 t = owns (c : Thread nD τ) (ms0_5 t) fullShare ((dats m 0 c).after 5 t) from by
    unfold Dat.leavesExact; rw [liveAt 5 t], after0_5]
  by_cases hz : t.val = 0
  · rw [outsAt_A m c t hz]
    unfold outA_5 soutA_0 soutA_1; (try dsimp only)
    rw [PhiS_castSucc m c t, PhiS_zero m c _ _ hz]
    iintro ⟨⟨HS0, HS1⟩, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ _ _ _ _ ((hcond0 t).mpr hz) (iblk m c 0 t) (iblk m c 1 t) (iblk m c 2 t) (iblk m c 3 t) (iblk m c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, ⟨%es0, HS0⟩, ⟨%es1, HS1⟩⟩
    isplitl [HS0 HS1]
    · isplitl [HS0]
      · unfold owns; iexists _; isplitr
        swap; · iexact HS0
        ipureintro; exact View.read_writes_of_cover _ _ _ _ _ (scoverA_0 c _ _ _ _ _ _ _ _ _ _ _ _ _ _ _ _ _ _ _ _ _ _ _)
      · unfold owns; iexists _; isplitr
        swap; · iexact HS1
        ipureintro; exact View.read_writes_of_cover _ _ _ _ _ (scoverA_1 c _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA_5 c _ _ _ _ _ _ _ _ _ _ _ _ _ _ _ _ _ _ _ _ _ _ _)
  · rw [outsAt_B m c t hz]
    unfold outB_5; (try dsimp only)
    rw [PhiS_castSucc m c t, PhiS_pos m c _ _ hz]
    iintro ⟨⟨HS0, HS1⟩, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ _ _ _ _ (fun h => hz ((hcond0 t).mp h)) (iblk m c 0 t) (iblk m c 1 t) (iblk m c 2 t) (iblk m c 3 t) (iblk m c 4 t) _ _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB_5 c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KHost.lean ====
/-
  What the kernel's region finds in its arrays, on the extended reals. The four arguments are as launched: no host
  operation writes one. The padded embedding table is the table on its first 1000 rows and zero on the 24 rows after
  them; the tiled counts are, in each of the eight rows, the counts on the first 1000 columns and zero on the 24 after.
-/
import proofs.«139335_g11544872092195_cont_week2b_396_3_alg».proof.Proof.KShared
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section AnyFloat

variable {F : FTy → Type} [FloatOps F] (m : (ℓ : Loc nD τ sig) → Buf (Elt F) ℓ) (c : Dev nD)

/-- No host operation before the region writes argument 0: the region finds it as launched, whatever the float values. -/
theorem V_arg0_gen : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-- No host operation before the region writes argument 1: the region finds it as launched, whatever the float values. -/
theorem V_arg1_gen : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-- No host operation before the region writes argument 2: the region finds it as launched, whatever the float values. -/
theorem V_arg2_gen : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-- No host operation before the region writes argument 3: the region finds it as launched, whatever the float values. -/
theorem V_arg3_gen : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

end AnyFloat

variable (m : (ℓ : Loc nD τ sig) → Buf (Elt Ideal) ℓ) (c : Dev nD)

/-- Argument 0 on the extended reals: as launched. -/
theorem V_arg0 : V (F := Ideal) m c main_arg0 = m ((c : Thread nD τ).loc main_arg0) := V_arg0_gen m c

/-- Argument 1 on the extended reals: as launched. -/
theorem V_arg1 : V (F := Ideal) m c main_arg1 = m ((c : Thread nD τ).loc main_arg1) := V_arg1_gen m c

/-- Argument 2 on the extended reals: as launched. -/
theorem V_arg2 : V (F := Ideal) m c main_arg2 = m ((c : Thread nD τ).loc main_arg2) := V_arg2_gen m c

/-- Argument 3 on the extended reals: as launched. -/
theorem V_arg3 : V (F := Ideal) m c main_arg3 = m ((c : Thread nD τ).loc main_arg3) := V_arg3_gen m c

/-- The converted integer zero is the real zero. -/
theorem padval_zero (i : S_.Idx) : (sitofp (F := Ideal) .f32 (constantI S_ 32 0#32) : S_.Idx → EReal) i = 0 :=
  sitofp_zero

/-- A [1000 × 16] table padded with 24 rows after it, read at row `k`, column `d`: the table's entry where `k < 1000`,
    the padding value on the 24 rows after. -/
theorem pad_rows_apply (x : S1000x16.Idx → EReal) (v : S_.Idx → EReal) (k : Fin 1024) (d : Fin 16) :
    pad S1024x16 ![0, 0] ![24, 0] ![0, 0] x v pads_S1000x16_S1024x16_0240_000 h_S_ (ix2 k d)
      = if h : k.val < 1000 then x (ix2 ⟨k.val, h⟩ d) else v ix0 := by
  by_cases h : k.val < 1000
  · rw [dif_pos h]
    exact pad_apply_of_inside _ _ _ x v _ _ (ix2 k d) (ix2 ⟨k.val, h⟩ d) (fun a => match a with
      | ⟨0, _⟩ => by show k.val = 0 + k.val * (0 + 1); omega
      | ⟨1, _⟩ => by show d.val = 0 + d.val * (0 + 1); omega)
  · rw [dif_neg h]
    refine (pad_apply_of_not_inside _ _ _ x v _ _ (ix2 k d) ⟨0, by decide⟩ ?_).trans (congrArg v (eq_ix0 _))
    show ¬ (0 ≤ k.val ∧ (k.val - 0) % (0 + 1) = 0 ∧ (k.val - 0) / (0 + 1) < 1000)
    omega

/-- A vector of 1000 entries padded with 24 after it, read at `k`. -/
theorem pad_vec_apply (x : S1000.Idx → EReal) (v : S_.Idx → EReal) (k : Fin 1024) :
    pad S1024 ![0] ![24] ![0] x v pads_S1000_S1024_0240 h_S_ (ix1 k)
      = if h : k.val < 1000 then x (ix1 ⟨k.val, h⟩) else v ix0 := by
  by_cases h : k.val < 1000
  · rw [dif_pos h]
    exact pad_apply_of_inside _ _ _ x v _ _ (ix1 k) (ix1 ⟨k.val, h⟩) (fun a => match a with
      | ⟨0, _⟩ => by show k.val = 0 + k.val * (0 + 1); omega)
  · rw [dif_neg h]
    refine (pad_apply_of_not_inside _ _ _ x v _ _ (ix1 k) ⟨0, by decide⟩ ?_).trans (congrArg v (eq_ix0 _))
    show ¬ (0 ≤ k.val ∧ (k.val - 0) % (0 + 1) = 0 ∧ (k.val - 0) / (0 + 1) < 1000)
    omega

/-- The 1024-vector laid as a [1 × 1024] row, reshaped to [1 × 1 × 1 × 1024], copied eight times along the leading axis and
    reshaped to [8 × 1024], read at row `r`, column `k`: the vector at `k`, in every row. -/
theorem tile_apply (P : S1024.Idx → EReal) (r : Fin 8) (k : Fin 1024) :
    shapeCast S8x1024 (broadcastInDim S8x1x1x1024 ![0, 1, 2, 3] bcast_S1x1x1x1024_S8x1x1x1024_0_1_2_3
      (shapeCast S1x1x1x1024 (broadcastInDim S1x1024 ![1] bcast_S1024_S1x1024_1 P) shapeCasts_S1x1024_S1x1x1x1024))
      shapeCasts_S8x1x1x1024_S8x1024 (ix2 r k) = P (ix1 k) := by
  refine (shapeCast_apply _ _ (ix2 r k) (ix4 r (0 : Fin 1) (0 : Fin 1) k) ?_).trans ?_
  · rw [Shape.rowMajor_val_four, Shape.rowMajor_val_two]
    show ((r.val * 1 + 0) * 1 + 0) * 1024 + k.val = r.val * 1024 + k.val
    omega
  refine (broadcastInDim_apply _ _ _ (ix4 r (0 : Fin 1) (0 : Fin 1) k) (ix4 (0 : Fin 1) (0 : Fin 1) (0 : Fin 1) k)
    (fun a => match a with | ⟨0, _⟩ => rfl | ⟨1, _⟩ => rfl | ⟨2, _⟩ => rfl | ⟨3, _⟩ => rfl)).trans ?_
  refine (shapeCast_apply _ _ (ix4 (0 : Fin 1) (0 : Fin 1) (0 : Fin 1) k) (ix2 (0 : Fin 1) k) ?_).trans ?_
  · rw [Shape.rowMajor_val_four, Shape.rowMajor_val_two]
    show 0 * 1024 + k.val = ((0 * 1 + 0) * 1 + 0) * 1024 + k.val
    omega
  exact broadcastInDim_apply _ _ _ (ix2 (0 : Fin 1) k) (ix1 k) (fun a => match a with | ⟨0, _⟩ => rfl)

theorem V_epad (k : Fin 1024) (d : Fin 16) :
    (V (F := Ideal) m c main_call0_v0 : S1024x16.Idx → EReal) (ix2 k d)
      = if h : k.val < 1000 then (m ((c : Thread nD τ).loc main_arg0) : S1000x16.Idx → EReal) (ix2 ⟨k.val, h⟩ d) else (0 : EReal) := by
  have e : (V (F := Ideal) m c main_call0_v0 : S1024x16.Idx → EReal)
      = pad S1024x16 ![0, 0] ![24, 0] ![0, 0] (m ((c : Thread nD τ).loc main_arg0) : S1000x16.Idx → EReal)
          (sitofp (F := Ideal) .f32 (constantI S_ 32 0#32)) pads_S1000x16_S1024x16_0240_000 h_S_ := by
    dsimp only [V, hostOps0]; after_results; rfl
  rw [e, pad_rows_apply]
  by_cases h : k.val < 1000
  · rw [dif_pos h, dif_pos h]
  · rw [dif_neg h, dif_neg h]; exact padval_zero _

theorem V_cnt2d (r : Fin 8) (k : Fin 1024) :
    (V (F := Ideal) m c main_call0_v5 : S8x1024.Idx → EReal) (ix2 r k)
      = if h : k.val < 1000 then (m ((c : Thread nD τ).loc main_arg2) : S1000.Idx → EReal) (ix1 ⟨k.val, h⟩) else (0 : EReal) := by
  have e : (V (F := Ideal) m c main_call0_v5 : S8x1024.Idx → EReal)
      = shapeCast S8x1024 (broadcastInDim S8x1x1x1024 ![0, 1, 2, 3] bcast_S1x1x1x1024_S8x1x1x1024_0_1_2_3
          (shapeCast S1x1x1x1024 (broadcastInDim S1x1024 ![1] bcast_S1024_S1x1024_1
            (pad S1024 ![0] ![24] ![0] (m ((c : Thread nD τ).loc main_arg2) : S1000.Idx → EReal)
              (sitofp (F := Ideal) .f32 (constantI S_ 32 0#32)) pads_S1000_S1024_0240 h_S_))
            shapeCasts_S1x1024_S1x1x1x1024)) shapeCasts_S8x1x1x1024_S8x1024 := by
    dsimp only [V, hostOps0]; after_results; rfl
  rw [e, tile_apply, pad_vec_apply]
  by_cases h : k.val < 1000
  · rw [dif_pos h, dif_pos h]
  · rw [dif_neg h, dif_neg h]; exact padval_zero _

end Cert.KernelIdeal.Hand

end
-- ==== Proof.KLaunch.lean ====
/-
  The launch: the item-id array's full share dealt to its two windows a half each, the region run from the scratch
  rows at anything, and every array read back after the last point; then the frame — the four argument arrays end as
  they began.
-/
import proofs.«139335_g11544872092195_cont_week2b_396_3_alg».proof.Proof.KBody
import proofs.«139335_g11544872092195_cont_week2b_396_3_alg».proof.Proof.KHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five buffers behind the six windows' arrays, each whole at the full share, are the proof data's arrays at entry:
    the item-id array's share split in two for the two windows on it. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  unfold Pipeline.arrBufs Dat.arrays
  rw [bigSep_W0]
  rw [bigSep_eq_bigSepL_of_eq [main_arg1, main_call0_v0, main_arg3, main_call0_v5, main_v0] (by decide) (by decide)]
  simp only [bigSepL_cons_cons, bigSepL_singleton]
  rw [(arr_whole0 0).set_eq_univ, (arr_whole0 1).set_eq_univ, (arr_whole0 2).set_eq_univ, (arr_whole0 4).set_eq_univ, (arr_whole0 5).set_eq_univ]
  show iprop((((c.tc : Thread nD τ).loc main_arg1) ↦{fullShare} V m c main_arg1) ∗ (((c.tc : Thread nD τ).loc main_call0_v0) ↦{fullShare} V m c main_call0_v0)
    ∗ (((c.tc : Thread nD τ).loc main_arg3) ↦{fullShare} V m c main_arg3)
    ∗ (((c.tc : Thread nD τ).loc main_call0_v5) ↦{fullShare} V m c main_call0_v5) ∗ (((c.tc : Thread nD τ).loc main_v0) ↦{fullShare} V m c main_v0))
    ⊢ iprop((((c.tc : Thread nD τ).loc main_arg1) ↦{fullShare} V m c main_arg1) ∗ (((c.tc : Thread nD τ).loc main_call0_v0) ↦{fullShare} V m c main_call0_v0)
    ∗ (((c.tc : Thread nD τ).loc main_arg3) ↦{fullShare.left} V m c main_arg3) ∗ (((c.tc : Thread nD τ).loc main_arg3) ↦{fullShare.right} V m c main_arg3)
    ∗ (((c.tc : Thread nD τ).loc main_call0_v5) ↦{fullShare} V m c main_call0_v5) ∗ (((c.tc : Thread nD τ).loc main_v0) ↦{fullShare} V m c main_v0))
  have h3 : ((((c.tc : Thread nD τ).loc main_arg3) ↦{fullShare} V m c main_arg3 : sProp 𝕄))
      ⊢ iprop((((c.tc : Thread nD τ).loc main_arg3) ↦{fullShare.left} V m c main_arg3) ∗ (((c.tc : Thread nD τ).loc main_arg3) ↦{fullShare.right} V m c main_arg3)) :=
    (pointsTo_share (PosShare.mem_left_op_right fullShare)).1
  iintro ⟨H1, Hv0, H3, Hv5, Ho⟩
  ihave H3' := h3 $$ H3
  icases H3' with ⟨H3l, H3r⟩
  isplitl [H1]; · iexact H1
  isplitl [Hv0]; · iexact Hv0
  isplitl [H3l]; · iexact H3l
  isplitl [H3r]; · iexact H3r
  isplitl [Hv5]; · iexact Hv5
  iexact Ho

/-- Before the first point the invariant is the two scratch rows at anything, which is what the launch hands over; -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl, scopedRest_owns]
  iintro ⟨-, H⟩; iexact H

/-- after the last point it gives them back, their contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), scopedRest_owns]
  iintro ⟨H0, H1⟩
  isplitr; · iempintro
  isplitl [H0]
  · iexists _; iexact H0
  iexists _; iexact H1

/-- At the compiled mesh, for any values, from any memory with zero counters: every weakly fair execution of @main
    terminates, every array of the pipeline ends at what the proof data compute, and every other unscoped buffer at
    what the region found in it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME, at any float instance: the program runs to the end, nothing faulting, and its four argument arrays end
    as they began — the user vectors and the item ids are arrays of input windows, which the pipeline never writes;
    the embedding table and the counts are read by the host operations only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (by decide)).trans (V_arg0_gen m c),
     ((h c).1 0).trans (((dats m 0 c).arrAt_in 0 rfl _).trans ((A_eq m c 0).trans (V_arg1_gen m c))),
     ((h c).2 main_arg2 (by decide)).trans (V_arg2_gen m c),
     ((h c).1 2).trans (((dats m 0 c).arrAt_in 2 rfl _).trans ((A_eq m c 2).trans (V_arg3_gen m c)))⟩) (run_main m ρ)

/-- The run with the result named: the result array ends at what the proof data compute for the output window after
    the last write-back, the four argument arrays as they began. -/
theorem run_value : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 5,
     ((h c).2 main_arg0 (by decide)).trans (V_arg0_gen m c),
     ((h c).1 0).trans (((dats m 0 c).arrAt_in 0 rfl _).trans ((A_eq m c 0).trans (V_arg1_gen m c))),
     ((h c).2 main_arg2 (by decide)).trans (V_arg2_gen m c),
     ((h c).1 2).trans (((dats m 0 c).arrAt_in 2 rfl _).trans ((A_eq m c 2).trans (V_arg3_gen m c)))⟩) (run_main m ρ)

end Cert.KernelIdeal.Hand

end
-- ==== Proof.Spec.lean ====
/-
  The common value of the two programs, and the domain on which they agree.

  For a batch of 4096 (user, item) pairs with item ids `idx j < 1000`, user vectors `u j`, item vectors `e k` and
  item counts `cnt k ≥ 0` (positive at every sampled item), the logit of row `i` against column `j` is
  `u i · e (idx j) − log (cnt (idx j) / Σ cnt)`, and the loss of row `i` is
  `log (Σ_j exp (logit i j)) − logit i i`: the negated log-softmax on the diagonal.
-/
import Idealize.ShloMosaic.PureOps.Ideal
import Idealize.ShloMosaic.Lib.ValueIdx

noncomputable section

namespace Cert.SoftmaxSpec

open Idealize.ShloMosaic Idealize.ShloMosaic.ValueIdx

/-- The item-embedding table, the user vectors, the item counts and the item ids, as the programs receive them. -/
abbrev EArr := (⟨2, ![1000, 16]⟩ : Shape).Idx → EReal
abbrev UArr := (⟨2, ![4096, 16]⟩ : Shape).Idx → EReal
abbrev CArr := (⟨1, ![1000]⟩ : Shape).Idx → EReal
abbrev IArr := (⟨2, ![4096, 1]⟩ : Shape).Idx → BitVec 32

/-- The domain: every float entry a real number, every item id below 1000 (as an unsigned word, hence also
    non-negative as a signed one), every count non-negative, and the count of every sampled item positive. -/
structure Dom (E : EArr) (U : UArr) (C : CArr) (I : IArr) : Prop where
  e_real : ∀ i, ∃ r : ℝ, E i = (r : EReal)
  u_real : ∀ i, ∃ r : ℝ, U i = (r : EReal)
  c_real : ∀ i, ∃ r : ℝ, C i = (r : EReal)
  idx_lt : ∀ j : Fin 4096, (I (ix2 j 0)).toNat < 1000
  c_nonneg : ∀ k, 0 ≤ C k
  c_pos : ∀ (j : Fin 4096) (k : Fin 1000), (I (ix2 j 0)).toNat = k.val → 0 < C (ix1 k)

/-- The item of batch position `j` (reduced mod 1000 so that it is total; on the domain it is the id itself). -/
def item (I : IArr) (j : Fin 4096) : Fin 1000 := ⟨(I (ix2 j 0)).toNat % 1000, Nat.mod_lt _ (by decide)⟩

/-- The total count. -/
def total (C : CArr) : ℝ := ∑ k : Fin 1000, (C (ix1 k)).toReal

/-- Row `i`'s score against item `k`, log-frequency corrected. -/
def score (E : EArr) (U : UArr) (C : CArr) (i : Fin 4096) (k : Fin 1000) : ℝ :=
  (∑ d : Fin 16, (U (ix2 i d)).toReal * (E (ix2 k d)).toReal) - Real.log ((C (ix1 k)).toReal / total C)

/-- The loss of row `i`: the log of the sum over the batch's columns of the exponentiated scores, less the row's own. -/
def loss (E : EArr) (U : UArr) (C : CArr) (I : IArr) (i : Fin 4096) : EReal :=
  ((Real.log (∑ j : Fin 4096, Real.exp (score E U C i (item I j))) - score E U C i (item I i) : ℝ) : EReal)

end Cert.SoftmaxSpec

end
-- ==== Proof.PreFacts.lean ====
/-
  The printed precondition, read: where it evaluates to true the four argument arrays lie in the domain of
  `Cert.SoftmaxSpec.Dom`.
-/
import proofs.«139335_g11544872092195_cont_week2b_396_3_alg».proof.Pre_finite_inputs
import proofs.«139335_g11544872092195_cont_week2b_396_3_alg».proof.Proof.Spec
import Idealize.ShloMosaic.PureOps.Ideal
import Idealize.ShloMosaic.PureOps.Ideal.Laws
import Idealize.ShloMosaic.Lib.ReduceAll
import Idealize.ShloMosaic.Lib.StableHlo.Predicate

noncomputable section

namespace Cert.SoftmaxSpec

open Idealize.ShloMosaic Idealize.ShloMosaic.ValueIdx

/-- `|x| < +∞` read on the extended reals: `x` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- A 32-bit word whose signed value lies in `[0, 1000)` has unsigned value below 1000. -/
theorem toNat_lt_of_signed (a : BitVec 32) (h1 : IntOp.cmpi .sge a 0#32 = 1#1) (h2 : IntOp.cmpi .slt a 1000#32 = 1#1) :
    a.toNat < 1000 := by
  simp only [IntOp.cmpi, StableHlo.Predicate.ofBool_eq_one_iff, BitVec.sle, BitVec.slt, decide_eq_true_eq] at h1 h2
  have e0 : (0#32 : BitVec 32).toInt = 0 := by decide
  have e1 : (1000#32 : BitVec 32).toInt = 1000 := by decide
  rw [e0] at h1; rw [e1] at h2
  rw [BitVec.toInt_eq_toNat_cond] at h1 h2
  have := a.isLt
  split_ifs at h1 h2 <;> omega

/-- `x ≥ 0` against the zero pattern, read on the extended reals. -/
theorem nonneg_of_oge (x : EReal) (h : Ideal.cmp .oge x (Ideal.ofBits .f32 0x00000000#32) = 1#1) : 0 ≤ x := by
  rw [Ideal.ofBits_zero_f32] at h
  simpa only [Ideal.cmp, StableHlo.Predicate.ofBool_eq_one_iff, decide_eq_true_eq] using h

/-- `x > 0` against the zero pattern, read on the extended reals. -/
theorem pos_of_ogt (x : EReal) (h : Ideal.cmp .ogt x (Ideal.ofBits .f32 0x00000000#32) = 1#1) : 0 < x := by
  rw [Ideal.ofBits_zero_f32] at h
  simpa only [Ideal.cmp, StableHlo.Predicate.ofBool_eq_one_iff, decide_eq_true_eq] using h

/-- The column index `(p, 0)`, the rank-1 index `k`, written with the coordinate constructors. -/
theorem ixP_eq_ix2 {n : Nat} (p : Fin n) : StableHlo.Predicate.ixP p = ix2 p (0 : Fin 1) := by
  funext d; match d with | ⟨0, _⟩ => rfl | ⟨1, _⟩ => rfl

theorem ofFin_eq_ix1 {n : Nat} (k : Fin n) : Shape.Idx.ofFin k = ix1 k := by
  funext d; match d with | ⟨0, _⟩ => exact Fin.ext rfl

theorem dom_of_pre [Cert.Pre_finite_inputs.Facts] (E : EArr) (U : UArr) (C : CArr) (I : IArr)
    (h : Cert.Pre_finite_inputs.fn (F := Ideal) E U C I = fun _ => 1#1) : Dom E U C I := by
  haveI : Subsingleton Cert.Pre_finite_inputs.S_.Idx := ⟨fun a b => funext fun d => d.elim0⟩
  have h0 := congrFun h ValueIdx.ix0
  simp only [Cert.Pre_finite_inputs.fn, Cert.Pre_finite_inputs.fn_part1, Cert.Pre_finite_inputs.fn_part2] at h0
  -- the six conjuncts
  obtain ⟨h5, hP⟩ := IntOp.andi_eq_one.1 h0
  obtain ⟨h4, hN⟩ := IntOp.andi_eq_one.1 h5
  obtain ⟨h3, hI⟩ := IntOp.andi_eq_one.1 h4
  obtain ⟨h2, hC⟩ := IntOp.andi_eq_one.1 h3
  obtain ⟨hE, hU⟩ := IntOp.andi_eq_one.1 h2
  -- each reduction by `and` over all axes holds at every element
  have hE' := Host.reduce_andi_all _ _ _ _ _ hE
  have hU' := Host.reduce_andi_all _ _ _ _ _ hU
  have hC' := Host.reduce_andi_all _ _ _ _ _ hC
  have hI' := Host.reduce_andi_all _ _ _ _ _ hI
  have hN' := Host.reduce_andi_all _ _ _ _ _ hN
  have hP' := Host.reduce_andi_all _ _ _ _ _ hP
  refine ⟨fun i => real_of_abs_lt_top _ (hE' i), fun i => real_of_abs_lt_top _ (hU' i),
    fun i => real_of_abs_lt_top _ (hC' i), fun j => ?_, fun k => nonneg_of_oge _ (hN' k), fun j k hjk => ?_⟩
  · obtain ⟨a, b⟩ := IntOp.andi_eq_one.1 (hI' (ix2 j 0))
    exact toNat_lt_of_signed _ a b
  · have hw : I (ix2 j 0) = BitVec.ofNat 32 k.val := by
      apply BitVec.eq_of_toNat_eq
      rw [hjk, BitVec.toNat_ofNat]
      have := k.isLt
      omega
    rcases IntOp.ori_eq_one.1 (hP' (StableHlo.Predicate.ij j k)) with hne | hgt
    · exfalso
      simp only [cmpi] at hne
      rw [StableHlo.Predicate.bcast_of_col, StableHlo.Predicate.bcast_cols, StableHlo.Predicate.iota_apply,
        ixP_eq_ix2, hw] at hne
      simp [IntOp.cmpi] at hne
    · rw [StableHlo.Predicate.bcast_of_row] at hgt
      simp only [cmpf] at hgt
      rw [StableHlo.Predicate.bcast_row1, ofFin_eq_ix1] at hgt
      exact pos_of_ogt _ hgt

end Cert.SoftmaxSpec

end
-- ==== Proof.RefTerm.lean ====
/-
  The reference program's result as a pure term of its four argument arrays.

  Each definition below is one printed operation (or a small group of them) of the program, applied to the values
  of the operations it reads, at the ideal instance: a float is an extended real and every operation its textbook one.
  The item ids are wrapped and range-tested, the item vectors and the item frequencies gathered by id, the logits
  a contraction over the sixteen coordinates less the log-frequency, and the result the negated diagonal of the
  row-wise log-softmax.
-/
import proofs.«139335_g11544872092195_cont_week2b_396_3_alg».proof.ReferenceIdeal
import Idealize.ShloMosaic.PureOps.Ideal

noncomputable section

namespace Cert.ReferenceIdeal.Hand

open Idealize.ShloMosaic Cert.ReferenceIdeal
open Cert.ReferenceIdeal.Facts₀

variable [Cert.ReferenceIdeal.Facts]

/-! ## The user vectors and the ids -/

/-- %1: the user vectors divided by the constant one. -/
def st_v1 (U : FVec Ideal S4096x16 .f32) : FVec Ideal S4096x16 .f32 :=
  Host.divf U (broadcastInDim S4096x16 ![] bcast_S_S4096x16 (constant (F := Ideal) S_ .f32 0x3F800000#32))

/-- %2: the ids as a vector. -/
def st_v2 (I : IVec S4096x1 32) : IVec S4096 32 :=
  shapeCast S4096 I shapeCasts_S4096x1_S4096

/-! ## The index path of a take along axis 0 of a table of 1000 rows -/

/-- A take's %1: which ids are negative. -/
def tk_v1 (idx : IVec S4096 32) : IVec S4096 1 :=
  cmpi .slt idx (broadcastInDim S4096 ![] bcast_S_S4096 (constantI S_ 32 0#32))

/-- A take's %3: the ids plus 1000. -/
def tk_v3 (idx : IVec S4096 32) : IVec S4096 32 :=
  addi idx (broadcastInDim S4096 ![] bcast_S_S4096 (constantI S_ 32 1000#32))

/-- A take's %4: the ids, the negative ones wrapped. -/
def tk_v4 (idx : IVec S4096 32) : IVec S4096 32 :=
  select (tk_v1 idx) (tk_v3 idx) idx

/-- A take's %5: the wrapped ids as a column of index vectors. -/
def tk_v5 (idx : IVec S4096 32) : IVec S4096x1 32 :=
  broadcastInDim S4096x1 ![0] bcast_S4096_S4096x1_0 (tk_v4 idx)

/-- A take's %7: which wrapped ids are at least 0. -/
def tk_v7 (idx : IVec S4096 32) : IVec S4096x1 1 :=
  cmpi .sge (tk_v5 idx) (broadcastInDim S4096x1 ![] bcast_S_S4096x1 (constantI S_ 32 0#32))

/-- A take's %9: the last row, 999, at every position. -/
def tk_v9 : IVec S4096x1 32 :=
  broadcastInDim S4096x1 ![0, 1] bcast_S1x1_S4096x1_0_1
    (broadcastInDim S1x1 ![1] bcast_S1_S1x1_1 (constantI S1 32 999#32))

/-- A take's %10: which wrapped ids are at most 999. -/
def tk_v10 (idx : IVec S4096 32) : IVec S4096x1 1 :=
  cmpi .sle (tk_v5 idx) tk_v9

/-- A take's %11: which wrapped ids are in range. -/
def tk_v11 (idx : IVec S4096 32) : IVec S4096x1 1 :=
  andi (tk_v7 idx) (tk_v10 idx)

/-- A take's %12: the range test folded over the index vector's one coordinate. -/
def tk_v12 (idx : IVec S4096 32) : IVec S4096 1 :=
  Host.reduce IntOp.andi (tk_v11 idx) (constantI S_ 1 1#1) reducesTo_S4096x1_S4096_d1 h_S_

/-! ## The gathered item vectors -/

/-- The take's %13: the rows of the table at the wrapped ids. -/
def tkE_v13 (E : FVec Ideal S1000x16 .f32) (idx : IVec S4096 32) : FVec Ideal S4096x16 .f32 :=
  Host.gather gather_S1000x16_S4096x1_S4096x16_1_0_n_n_0_1_116 E (tk_v5 idx)

/-- The take's %14: the range test at every coordinate of a row. -/
def tkE_v14 (idx : IVec S4096 32) : IVec S4096x16 1 :=
  broadcastInDim S4096x16 ![0] bcast_S4096_S4096x16_0 (tk_v12 idx)

/-- The take's %15: the fill for an id out of range. -/
def tkE_v15 : FVec Ideal S4096x16 .f32 :=
  broadcastInDim S4096x16 ![] bcast_S_S4096x16 (constant (F := Ideal) S_ .f32 0x7FC00000#32)

/-- The take's result: the gathered rows where the id is in range, the fill elsewhere. -/
def tkE (E : FVec Ideal S1000x16 .f32) (idx : IVec S4096 32) : FVec Ideal S4096x16 .f32 :=
  select (tkE_v14 idx) (tkE_v13 E idx) tkE_v15

/-- %3: the item vectors of the batch. -/
def st_v3 (E : FVec Ideal S1000x16 .f32) (I : IVec S4096x1 32) : FVec Ideal S4096x16 .f32 :=
  tkE E (st_v2 I)

/-- %4: the item vectors transposed. -/
def st_v4 (E : FVec Ideal S1000x16 .f32) (I : IVec S4096x1 32) : FVec Ideal S16x4096 .f32 :=
  transpose S16x4096 [1, 0] (st_v3 E I) transposes_S4096x16_S16x4096_1_0

/-- %5: every user vector against every item vector of the batch. -/
def st_v5 (E : FVec Ideal S1000x16 .f32) (U : FVec Ideal S4096x16 .f32) (I : IVec S4096x1 32) :
    FVec Ideal S4096x4096 .f32 :=
  Host.dotGeneral dot_S4096x16_S16x4096_S4096x4096_1_0_0_1_n_n none (st_v1 U) (st_v4 E I)

/-! ## The item frequencies -/

/-- %6: the total count. -/
def st_v6 (C : FVec Ideal S1000 .f32) : FVec Ideal S_ .f32 :=
  Host.reduceAdd C (constant (F := Ideal) S_ .f32 0x00000000#32) reducesTo_S1000_S_d0 h_S_

/-- %8: each count over the total. -/
def st_v8 (C : FVec Ideal S1000 .f32) : FVec Ideal S1000 .f32 :=
  Host.divf C (broadcastInDim S1000 ![] bcast_S_S1000 (st_v6 C))

/-- The second take's %13: the entries of a vector at the wrapped ids. -/
def tkQ_v13 (Q : FVec Ideal S1000 .f32) (idx : IVec S4096 32) : FVec Ideal S4096 .f32 :=
  Host.gather gather_S1000_S4096x1_S4096_n_0_n_n_0_1_1 Q (tk_v5 idx)

/-- The second take's %14: the fill for an id out of range. -/
def tkQ_v14 : FVec Ideal S4096 .f32 :=
  broadcastInDim S4096 ![] bcast_S_S4096 (constant (F := Ideal) S_ .f32 0x7FC00000#32)

/-- The second take's result. -/
def tkQ (Q : FVec Ideal S1000 .f32) (idx : IVec S4096 32) : FVec Ideal S4096 .f32 :=
  select (tk_v12 idx) (tkQ_v13 Q idx) tkQ_v14

/-- %9: the frequencies of the batch's items. -/
def st_v9 (C : FVec Ideal S1000 .f32) (I : IVec S4096x1 32) : FVec Ideal S4096 .f32 :=
  tkQ (st_v8 C) (st_v2 I)

/-- %10: their logarithms. -/
def st_v10 (C : FVec Ideal S1000 .f32) (I : IVec S4096x1 32) : FVec Ideal S4096 .f32 :=
  Host.log (st_v9 C I)

/-- %12: the log-frequencies as a row, at every row. -/
def st_v12 (C : FVec Ideal S1000 .f32) (I : IVec S4096x1 32) : FVec Ideal S4096x4096 .f32 :=
  broadcastInDim S4096x4096 ![0, 1] bcast_S1x4096_S4096x4096_0_1
    (shapeCast S1x4096 (st_v10 C I) shapeCasts_S4096_S1x4096)

/-- %13: the logits. -/
def st_v13 (E : FVec Ideal S1000x16 .f32) (U : FVec Ideal S4096x16 .f32) (C : FVec Ideal S1000 .f32)
    (I : IVec S4096x1 32) : FVec Ideal S4096x4096 .f32 :=
  subf (st_v5 E U I) (st_v12 C I)

/-! ## The identity matrix -/

/-- %17: the row number (plus a zero). -/
def st_v17 : IVec S4096x4096 32 :=
  addi (iotaInDim S4096x4096 32 0) (broadcastInDim S4096x4096 ![] bcast_S_S4096x4096 (constantI S_ 32 0#32))

/-- %18: whether the row number is the column number. -/
def st_v18 : IVec S4096x4096 1 :=
  cmpi .eq st_v17 (iotaInDim S4096x4096 32 1)

/-- %19: the identity matrix. -/
def st_v19 : FVec Ideal S4096x4096 .f32 :=
  uitofp .f32 st_v18

/-! ## The row-wise log-softmax -/

/-- The log-softmax's %2: each row's maximum (against minus infinity). -/
def ls_v2 (x : FVec Ideal S4096x4096 .f32) : FVec Ideal S4096 .f32 :=
  maximumf (broadcastInDim S4096 ![] bcast_S_S4096 (constant (F := Ideal) S_ .f32 0xFF800000#32))
    (Host.reduce FloatOps.maximumf x (constant (F := Ideal) S_ .f32 0xFF800000#32) reducesTo_S4096x4096_S4096_d1 h_S_)

/-- The log-softmax's %4: the row maxima at every column. -/
def ls_v4 (x : FVec Ideal S4096x4096 .f32) : FVec Ideal S4096x4096 .f32 :=
  broadcastInDim S4096x4096 ![0, 1] bcast_S4096x1_S4096x4096_0_1
    (broadcastInDim S4096x1 ![0] bcast_S4096_S4096x1_0 (ls_v2 x))

/-- The log-softmax's %5: the entries less their row's maximum. -/
def ls_v5 (x : FVec Ideal S4096x4096 .f32) : FVec Ideal S4096x4096 .f32 :=
  subf x (ls_v4 x)

/-- The log-softmax's %7: each row's sum of exponentials. -/
def ls_v7 (x : FVec Ideal S4096x4096 .f32) : FVec Ideal S4096 .f32 :=
  Host.reduceAdd (Host.exp (ls_v5 x)) (constant (F := Ideal) S_ .f32 0x00000000#32) reducesTo_S4096x4096_S4096_d1 h_S_

/-- The log-softmax's %10: the logs of the row sums at every column. -/
def ls_v10 (x : FVec Ideal S4096x4096 .f32) : FVec Ideal S4096x4096 .f32 :=
  broadcastInDim S4096x4096 ![0, 1] bcast_S4096x1_S4096x4096_0_1
    (Host.log (broadcastInDim S4096x1 ![0] bcast_S4096_S4096x1_0 (ls_v7 x)))

/-- The log-softmax's result. -/
def ls (x : FVec Ideal S4096x4096 .f32) : FVec Ideal S4096x4096 .f32 :=
  subf (ls_v5 x) (ls_v10 x)

/-- %20: the log-softmax of the logits. -/
def st_v20 (E : FVec Ideal S1000x16 .f32) (U : FVec Ideal S4096x16 .f32) (C : FVec Ideal S1000 .f32)
    (I : IVec S4096x1 32) : FVec Ideal S4096x4096 .f32 :=
  ls (st_v13 E U C I)

/-! ## The diagonal, negated -/

/-- %22: each row's sum of the identity matrix times the log-softmax. -/
def st_v22 (E : FVec Ideal S1000x16 .f32) (U : FVec Ideal S4096x16 .f32) (C : FVec Ideal S1000 .f32)
    (I : IVec S4096x1 32) : FVec Ideal S4096 .f32 :=
  Host.reduceAdd (mulf st_v19 (st_v20 E U C I)) (constant (F := Ideal) S_ .f32 0x00000000#32)
    reducesTo_S4096x4096_S4096_d1 h_S_

/-- %24, the program's result: the negated row sums as a column. -/
def result (E : FVec Ideal S1000x16 .f32) (U : FVec Ideal S4096x16 .f32) (C : FVec Ideal S1000 .f32)
    (I : IVec S4096x1 32) : FVec Ideal S4096x1 .f32 :=
  broadcastInDim S4096x1 ![0] bcast_S4096_S4096x1_0 (Host.negf (st_v22 E U C I))

end Cert.ReferenceIdeal.Hand

end
-- ==== Proof.LseMath.lean ====
/-
  Log-sum-exp over a batch whose columns repeat by item.

  For scores `a k` of items `k` and a batch `idx : J → K`, the sum over the batch's columns of `exp (a (idx j))` is the sum
  over the items of `exp (a k)` weighted by the number of columns that carry item `k`; a log-sum-exp does not depend on
  the shift it is computed with; and the negated log-softmax read on the diagonal is the log-sum-exp less the row's
  own score.
-/
import Mathlib.Analysis.SpecialFunctions.Log.Basic

noncomputable section

namespace Cert.SoftmaxSpec.Lse

open Finset

variable {J K : Type} [Fintype J] [Fintype K] [DecidableEq J] [DecidableEq K]

/-- How many batch columns carry item `k`. -/
def count (idx : J → K) (k : K) : ℝ := ((Finset.univ.filter fun j => idx j = k).card : ℝ)

/-- A sum over the batch's columns of a function of the column's item, regrouped by item. -/
theorem sum_comp_eq_sum_count_mul (idx : J → K) (f : K → ℝ) :
    ∑ j, f (idx j) = ∑ k, count idx k * f k := by
  rw [← Finset.sum_fiberwise (s := Finset.univ) (g := idx) (f := fun j => f (idx j))]
  refine Finset.sum_congr rfl fun k _ => ?_
  have hconst : ∀ j ∈ Finset.univ.filter (fun j => idx j = k), f (idx j) = f k := by
    intro j hj
    rw [(Finset.mem_filter.mp hj).2]
  rw [Finset.sum_congr rfl hconst, Finset.sum_const, nsmul_eq_mul]
  rfl

/-- A log-sum-exp over a nonempty batch does not depend on the shift it is computed with. -/
theorem shift_add_log_sum_exp_sub (idx : J → K) (a : K → ℝ) (m : ℝ) (i : J) :
    m + Real.log (∑ j, Real.exp (a (idx j) - m)) = Real.log (∑ j, Real.exp (a (idx j))) := by
  have hpos : 0 < ∑ j, Real.exp (a (idx j)) :=
    Finset.sum_pos (fun j _ => Real.exp_pos _) ⟨i, Finset.mem_univ i⟩
  have h : ∑ j, Real.exp (a (idx j) - m) = Real.exp (-m) * ∑ j, Real.exp (a (idx j)) := by
    rw [Finset.mul_sum]
    refine Finset.sum_congr rfl fun j _ => ?_
    rw [← Real.exp_add]
    congr 1
    ring
  rw [h, Real.log_mul (Real.exp_pos _).ne' hpos.ne', Real.log_exp]
  ring

/-- The count-weighted, shifted form: the shift `m` cancels, the weights regroup the columns, and the one-hot sum picks
    the row's own score. -/
theorem kernel_form (idx : J → K) (a : K → ℝ) (c : K → ℝ) (hc : ∀ k, c k = count idx k) (m : ℝ) (i : J) :
    (m + Real.log (∑ k, c k * Real.exp (a k - m))) - (∑ k, a k * (if idx i = k then (1 : ℝ) else 0))
      = Real.log (∑ j, Real.exp (a (idx j))) - a (idx i) := by
  have h1 : ∑ k, c k * Real.exp (a k - m) = ∑ j, Real.exp (a (idx j) - m) := by
    rw [sum_comp_eq_sum_count_mul idx (fun k => Real.exp (a k - m))]
    exact Finset.sum_congr rfl fun k _ => by rw [hc k]
  have h2 : ∑ k, a k * (if idx i = k then (1 : ℝ) else 0) = a (idx i) := by
    simp
  rw [h1, h2, shift_add_log_sum_exp_sub idx a m i]

/-- The log-softmax form: minus the diagonal entry of `(x − M) − log Σ exp (x − M)`. -/
theorem ref_form (idx : J → K) (a : K → ℝ) (M : ℝ) (i : J) :
    -(∑ j, (if i = j then (1 : ℝ) else 0) * ((a (idx j) - M) - Real.log (∑ j', Real.exp (a (idx j') - M))))
      = Real.log (∑ j, Real.exp (a (idx j))) - a (idx i) := by
  have h2 : ∑ j, (if i = j then (1 : ℝ) else 0)
        * ((a (idx j) - M) - Real.log (∑ j', Real.exp (a (idx j') - M)))
      = (a (idx i) - M) - Real.log (∑ j', Real.exp (a (idx j') - M)) := by
    simp
  rw [h2, ← shift_add_log_sum_exp_sub idx a M i]
  ring

end Cert.SoftmaxSpec.Lse

end
-- ==== Proof.RefPoint.lean ====
/-
  The reference program's result read at an index, on the domain.

  Every stage of the result term is read at an index: the layout operations move coordinates, the take's tests
  pass for an id below 1000 and its gather reads the row the id names, the contraction is a sum over the sixteen
  coordinates, the sums are sums of real numbers, and the row-wise log-softmax read on the diagonal and negated is
  the log-sum-exp of the row's scores less the row's own score.
-/
import proofs.«139335_g11544872092195_cont_week2b_396_3_alg».proof.Proof.RefTerm
import proofs.«139335_g11544872092195_cont_week2b_396_3_alg».proof.Proof.Spec
import proofs.«139335_g11544872092195_cont_week2b_396_3_alg».proof.Proof.LseMath
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.IdealHost
import Idealize.ShloMosaic.Lib.StableHlo.Predicate

noncomputable section

namespace Cert.ReferenceIdeal.Hand

open Idealize.ShloMosaic Idealize.ShloMosaic.ValueIdx Cert.ReferenceIdeal
open Cert.ReferenceIdeal.Facts₀

section Stages

variable [Cert.ReferenceIdeal.Facts]

/-! ## Layout operations of the program read at an index -/

theorem col_to_vec_apply {α : Type} (X : S4096x1.Idx → α) (h : S4096x1.ShapeCasts S4096) (j : Fin 4096) :
    shapeCast S4096 X h (ix1 j) = X (ix2 j 0) :=
  shapeCast_apply X h _ _ (by
    rw [Shape.rowMajor_val_two, Shape.rowMajor_val_one]
    show j.val * 1 + 0 = j.val
    omega)

theorem vec_to_col_apply {α : Type} (X : S4096.Idx → α) (h : S4096.BroadcastsInDim S4096x1 ![0]) (j : Fin 4096) (u : Fin 1) :
    broadcastInDim S4096x1 ![0] h X (ix2 j u) = X (ix1 j) :=
  broadcastInDim_apply _ h X _ _ (fun a => match a with
    | ⟨0, _⟩ => (if_neg (show ¬ ((4096 : ℕ) = 1) by omega)).symm)

theorem vec_to_rows_apply {α : Type} (X : S4096.Idx → α) (h : S4096.BroadcastsInDim S4096x16 ![0]) (j : Fin 4096) (d : Fin 16) :
    broadcastInDim S4096x16 ![0] h X (ix2 j d) = X (ix1 j) :=
  broadcastInDim_apply _ h X _ _ (fun a => match a with
    | ⟨0, _⟩ => (if_neg (show ¬ ((4096 : ℕ) = 1) by omega)).symm)

theorem col_to_rect_apply {α : Type} (X : S4096x1.Idx → α) (h : S4096x1.BroadcastsInDim S4096x4096 ![0, 1])
    (i j : Fin 4096) : broadcastInDim S4096x4096 ![0, 1] h X (ix2 i j) = X (ix2 i 0) :=
  broadcastInDim_apply _ h X _ _ (fun a => match a with
    | ⟨0, _⟩ => (if_neg (show ¬ ((4096 : ℕ) = 1) by omega)).symm
    | ⟨1, _⟩ => (if_pos (show (1 : ℕ) = 1 from rfl)).symm)

theorem row_to_rect_apply {α : Type} (X : S1x4096.Idx → α) (h : S1x4096.BroadcastsInDim S4096x4096 ![0, 1])
    (i j : Fin 4096) : broadcastInDim S4096x4096 ![0, 1] h X (ix2 i j) = X (ix2 0 j) :=
  broadcastInDim_apply _ h X _ _ (fun a => match a with
    | ⟨0, _⟩ => (if_pos (show (1 : ℕ) = 1 from rfl)).symm
    | ⟨1, _⟩ => (if_neg (show ¬ ((4096 : ℕ) = 1) by omega)).symm)

theorem one_to_col_apply {α : Type} (X : S1.Idx → α) (h1 : S1.BroadcastsInDim S1x1 ![1])
    (h2 : S1x1.BroadcastsInDim S4096x1 ![0, 1]) (i : S4096x1.Idx) :
    broadcastInDim S4096x1 ![0, 1] h2 (broadcastInDim S1x1 ![1] h1 X) i = X (ix1 0) := by
  rw [broadcastInDim_apply _ h2 _ i (ix2 0 0) (fun a => match a with
    | ⟨0, _⟩ => (if_pos (show (1 : ℕ) = 1 from rfl)).symm
    | ⟨1, _⟩ => (if_pos (show (1 : ℕ) = 1 from rfl)).symm)]
  exact broadcastInDim_apply _ h1 X _ _ (fun a => match a with
    | ⟨0, _⟩ => (if_pos (show (1 : ℕ) = 1 from rfl)).symm)

/-! ## Words below 1000 against the take's tests -/

open StableHlo.Predicate in
theorem word_slt_zero {w : BitVec 32} (h : w.toNat < 1000) : IntOp.cmpi .slt w 0#32 = 0#1 := by
  apply eq_zero_of_ne_one
  intro e
  have := (slt_iff_toNat (a := w) (b := 0#32) (by omega) (by decide)).mp e
  simp at this

open StableHlo.Predicate in
theorem word_sge_zero {w : BitVec 32} (h : w.toNat < 1000) : IntOp.cmpi .sge w 0#32 = 1#1 :=
  (sge_iff_toNat (a := w) (b := 0#32) (by omega) (by decide)).mpr (by simp)

open StableHlo.Predicate in
theorem word_sle_last {w : BitVec 32} (h : w.toNat < 1000) : IntOp.cmpi .sle w 999#32 = 1#1 :=
  (sle_iff_toNat (a := w) (b := 999#32) (by omega) (by decide)).mpr (by show w.toNat ≤ 999; omega)

open StableHlo.Predicate in
theorem word_clamp {w : BitVec 32} (h : w.toNat < 1000) : min w.toInt.toNat 999 = w.toNat := by
  rw [toInt_eq_toNat_of_lt (by omega)]
  simp; omega

/-! ## The gathers read at an index -/

section Gather
variable {α : Type}

local notation "DE" => gather_S1000x16_S4096x1_S4096x16_1_0_n_n_0_1_116
local notation "DQ" => gather_S1000_S4096x1_S4096_n_0_n_n_0_1_1

/-- The gathered row `j`, coordinate `d`: the table's row at the start index, clamped into the table. -/
theorem gatherE_apply (E : S1000x16.Idx → α) (idx : IVec S4096x1 32) (j : Fin 4096) (d : Fin 16) :
    Host.gather DE E idx (ix2 j d) = E (ix2 ⟨min (idx (ix2 j 0)).toInt.toNat 999, by omega⟩ d) := by
  unfold Host.gather
  congr 1
  funext a
  apply Fin.ext
  match a with
  | ⟨0, _⟩ =>
    show GatherDims.start DE (ix2 j d) idx 0 + GatherDims.batchCoord DE (ix2 j d) 0 + GatherDims.offCoord DE (ix2 j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (DE).startIndexMap from List.mem_singleton.mpr rfl)]
    have hsi : (DE).siIdx (ix2 j d) ⟨List.idxOf (0 : Fin 2) (DE).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  | ⟨1, _⟩ =>
    show GatherDims.start DE (ix2 j d) idx 1 + GatherDims.batchCoord DE (ix2 j d) 1 + GatherDims.offCoord DE (ix2 j d) 1 = d.val
    rw [GatherDims.batchCoord_eq_zero _ _ _ List.not_mem_nil]
    unfold GatherDims.start
    rw [dif_neg (show (1 : Fin 2) ∉ (DE).startIndexMap from (by decide : (1 : Fin 2) ∉ [(0 : Fin 2)]))]
    unfold GatherDims.offCoord
    rw [dif_pos ((GatherDims.mem_sKept DE 1).mpr ⟨(show (1 : Fin 2) ∉ [(0 : Fin 2)] from by decide), List.not_mem_nil⟩)]
    have hx : ∀ x : Fin S4096x16.rank, x ∈ (DE).offsetDims → (ix2 j d x).val = d.val := by
      intro x hx
      have e : x = (1 : Fin 2) := List.mem_singleton.mp hx
      subst e
      rfl
    simp only [Nat.zero_add]
    exact hx _ (List.getElem_mem _)

/-- The gathered entry `j`: the vector's entry at the start index, clamped into the vector. -/
theorem gatherQ_apply (Q : S1000.Idx → α) (idx : IVec S4096x1 32) (j : Fin 4096) :
    Host.gather DQ Q idx (ix1 j) = Q (ix1 ⟨min (idx (ix2 j 0)).toInt.toNat 999, by omega⟩) := by
  unfold Host.gather
  congr 1
  funext a
  apply Fin.ext
  match a with
  | ⟨0, _⟩ =>
    show GatherDims.start DQ (ix1 j) idx 0 + GatherDims.batchCoord DQ (ix1 j) 0 + GatherDims.offCoord DQ (ix1 j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (DQ).startIndexMap from List.mem_singleton.mpr rfl)]
    have hsi : (DQ).siIdx (ix1 j) ⟨List.idxOf (0 : Fin 1) (DQ).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl

end Gather

/-! ## The contraction and the sums read at an index -/

local notation "DD" => dot_S4096x16_S16x4096_S4096x4096_1_0_0_1_n_n

/-- The product's entry `(i, j)`: the sum over the sixteen coordinates. -/
theorem dot_apply (A : FVec Ideal S4096x16 .f32) (B : FVec Ideal S16x4096 .f32) (i j : Fin 4096) :
    Host.dotGeneral DD none A B (ix2 i j) = ∑ d : Fin 16, A (ix2 i d) * B (ix2 d j) := by
  show FloatOps.dotGeneral _ none _ A B (ix2 i j) = _
  rw [Ideal.dotGeneral_apply, ← Equiv.sum_comp (contrEquiv1 DD 16 rfl rfl).symm]
  refine Finset.sum_congr rfl fun c _ => ?_
  have c2 := contrEquiv1_symm_val DD 16 rfl rfl c
  have l2 : (DD).lhsIdx (ix2 i j) ((contrEquiv1 DD 16 rfl rfl).symm c) = ix2 i c := by
    funext ax; apply Fin.ext
    match ax with
    | ⟨0, _⟩ => simp [DotDims.lhsIdx, dot_S4096x16_S16x4096_S4096x4096_1_0_0_1_n_n]; rfl
    | ⟨1, _⟩ => simp [DotDims.lhsIdx, dot_S4096x16_S16x4096_S4096x4096_1_0_0_1_n_n]; exact c2
  have r2 : (DD).rhsIdx (ix2 i j) ((contrEquiv1 DD 16 rfl rfl).symm c) = ix2 c j := by
    funext ax; apply Fin.ext
    match ax with
    | ⟨0, _⟩ => simp [DotDims.rhsIdx, dot_S4096x16_S16x4096_S4096x4096_1_0_0_1_n_n]; exact c2
    | ⟨1, _⟩ => simp [DotDims.rhsIdx, dot_S4096x16_S16x4096_S4096x4096_1_0_0_1_n_n]; rfl
  rw [l2, r2]

/-- A vector's sum: the initial value plus the sum of the entries. -/
theorem sum_vec_apply (C : FVec Ideal S1000 .f32) (init : S_.Idx → Ideal .f32) (h : S1000.ReducesTo [0] S_) (hu : 0 < S_.numel)
    (j : S_.Idx) : Host.reduceAdd C init h hu j = init ix0 + ∑ k : Fin 1000, C (ix1 k) := by
  rw [hostReduceAdd_apply, Ideal.hostReduceAdd_total h (fun b => b.elim0), ← Equiv.sum_comp idxEquiv1.symm]
  congr 1
  exact congrArg init (funext fun a => a.elim0)

/-- A square array's row sums: the initial value plus the sum over the columns. -/
theorem sum_rows_apply (X : FVec Ideal S4096x4096 .f32) (init : S_.Idx → Ideal .f32) (h : S4096x4096.ReducesTo [1] S4096)
    (hu : 0 < S_.numel) (i : Fin 4096) :
    Host.reduceAdd X init h hu (ix1 i) = init ix0 + ∑ j : Fin 4096, X (ix2 i j) := by
  have hr : S4096x4096.Reduces [1] S4096 := by decide
  rw [hostReduceAdd_apply, Ideal.hostReduceAdd_single h hr]
  congr 1
  · exact congrArg init (funext fun a => a.elim0)
  · refine Finset.sum_congr rfl fun k _ => congrArg X (funext fun a => Fin.ext ?_)
    match a with
    | ⟨0, _⟩ => rfl
    | ⟨1, _⟩ => rfl

/-! ## Real numbers among the extended reals -/

theorem ofBits_neg_inf : Ideal.ofBits .f32 0xFF800000#32 = ⊥ := by simp [Ideal.ofBits, Ideal.ieee]

/-- A finite sum of real numbers, computed among the extended reals, is the real sum. -/
theorem sum_coe {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The maximum of finitely many real numbers, at least one, folded from minus infinity, is a real number. -/
theorem fold_max_coe {ι : Type} (s : Finset ι) (hs : s.Nonempty) (f : ι → ℝ) :
    ∃ M : ℝ, s.fold (FloatOps.maximumf (F := Ideal) (φ := .f32)) (⊥ : EReal) (fun k => ((f k : ℝ) : EReal)) = (M : EReal) := by
  classical
  induction s using Finset.induction_on with
  | empty => exact absurd hs (by simp)
  | insert a s ha ih =>
    rw [Finset.fold_insert ha]
    by_cases hs' : s.Nonempty
    · obtain ⟨M, hM⟩ := ih hs'
      exact ⟨max (f a) M, by rw [hM]; show max ((f a : ℝ) : EReal) (M : EReal) = _; exact (EReal.coe_strictMono.monotone.map_max).symm⟩
    · rw [Finset.not_nonempty_iff_eq_empty.mp hs']
      exact ⟨f a, by show max ((f a : ℝ) : EReal) ⊥ = _; simp⟩

/-- A square array's row maxima, folded from minus infinity: real numbers when the entries are. -/
theorem max_rows_apply (X : FVec Ideal S4096x4096 .f32) (a : Fin 4096 → Fin 4096 → ℝ)
    (hX : ∀ i j, X (ix2 i j) = ((a i j : ℝ) : EReal)) (h : S4096x4096.ReducesTo [1] S4096) (hu : 0 < S_.numel) (i : Fin 4096) :
    ∃ M : ℝ, Host.reduce FloatOps.maximumf X (constant (F := Ideal) S_ .f32 0xFF800000#32) h hu (ix1 i) = (M : EReal) := by
  have hr : S4096x4096.Reduces [1] S4096 := by decide
  rw [Host.reduce_eq_fold_single FloatOps.maximumf X _ h hr hu (ix1 i)]
  have e : (X ∘ hr.lift (ix1 i)) = fun k : Fin 4096 => ((a i k : ℝ) : EReal) := by
    funext k
    show X (hr.lift (ix1 i) k) = _
    rw [← hX i k]
    refine congrArg X (funext fun c => Fin.ext ?_)
    match c with
    | ⟨0, _⟩ => rfl
    | ⟨1, _⟩ => rfl
  rw [show (constant (F := Ideal) S_ .f32 0xFF800000#32) (Shape.Idx.first hu) = (⊥ : EReal) from ofBits_neg_inf]
  show ∃ M : ℝ, (Finset.univ : Finset (Fin 4096)).fold _ _ (X ∘ hr.lift (ix1 i)) = _
  rw [e]
  exact fold_max_coe Finset.univ ⟨0, Finset.mem_univ _⟩ (a i)

/-! ## The stages of the result on the domain -/

open Cert.SoftmaxSpec

theorem foldl_andi_one {ι : Type} (l : List ι) (x : ι → BitVec 1) (hx : ∀ i ∈ l, x i = 1#1) :
    l.foldl (fun r i => IntOp.andi r (x i)) 1#1 = 1#1 := by
  induction l with
  | nil => rfl
  | cons a l ih =>
    rw [List.foldl_cons, hx a (List.mem_cons_self ..)]
    have e : IntOp.andi 1#1 1#1 = 1#1 := by decide
    rw [e]
    exact ih (fun i hi => hx i (List.mem_cons_of_mem _ hi))

theorem div_one (x : EReal) : Ideal.div x 1 = x := by
  unfold Ideal.div
  rw [if_neg one_ne_zero]
  simp

section Ids
variable (I : IArr)

theorem st_v2_apply (j : Fin 4096) : st_v2 I (ix1 j) = I (ix2 j 0) := col_to_vec_apply I _ j

variable (hI : ∀ j : Fin 4096, (I (ix2 j 0)).toNat < 1000)
include hI

theorem tk_v4_apply (j : Fin 4096) : tk_v4 (st_v2 I) (ix1 j) = I (ix2 j 0) := by
  unfold tk_v4
  rw [select_apply]
  have h1 : tk_v1 (st_v2 I) (ix1 j) = 0#1 := by
    unfold tk_v1
    show IntOp.cmpi .slt (st_v2 I (ix1 j)) (broadcastInDim S4096 ![] bcast_S_S4096 (constantI S_ 32 0#32) (ix1 j)) = 0#1
    rw [broadcastInDim_scalar_apply, st_v2_apply]
    exact word_slt_zero (hI j)
  rw [h1, select_zero, st_v2_apply]

theorem tk_v5_apply (j : Fin 4096) (u : Fin 1) : tk_v5 (st_v2 I) (ix2 j u) = I (ix2 j 0) := by
  unfold tk_v5
  rw [vec_to_col_apply, tk_v4_apply I hI]

theorem tk_v11_apply (j : Fin 4096) (u : Fin 1) : tk_v11 (st_v2 I) (ix2 j u) = 1#1 := by
  unfold tk_v11
  show IntOp.andi (tk_v7 (st_v2 I) (ix2 j u)) (tk_v10 (st_v2 I) (ix2 j u)) = 1#1
  have h7 : tk_v7 (st_v2 I) (ix2 j u) = 1#1 := by
    unfold tk_v7
    show IntOp.cmpi .sge (tk_v5 (st_v2 I) (ix2 j u))
      (broadcastInDim S4096x1 ![] bcast_S_S4096x1 (constantI S_ 32 0#32) (ix2 j u)) = 1#1
    rw [broadcastInDim_scalar_apply, tk_v5_apply I hI]
    exact word_sge_zero (hI j)
  have h10 : tk_v10 (st_v2 I) (ix2 j u) = 1#1 := by
    unfold tk_v10
    show IntOp.cmpi .sle (tk_v5 (st_v2 I) (ix2 j u)) (tk_v9 (ix2 j u)) = 1#1
    unfold tk_v9
    rw [one_to_col_apply, tk_v5_apply I hI]
    exact word_sle_last (hI j)
  rw [h7, h10]
  decide

theorem tk_v12_apply (j : Fin 4096) : tk_v12 (st_v2 I) (ix1 j) = 1#1 := by
  unfold tk_v12
  rw [Host.reduce_eq_foldl]
  exact foldl_andi_one _ _ (fun i _ => by rw [eq_ix2 i]; exact tk_v11_apply I hI _ _)

theorem tkE_apply (E : EArr) (j : Fin 4096) (d : Fin 16) : tkE E (st_v2 I) (ix2 j d) = E (ix2 (item I j) d) := by
  unfold tkE
  rw [select_apply]
  have h14 : tkE_v14 (st_v2 I) (ix2 j d) = 1#1 := by
    unfold tkE_v14
    rw [vec_to_rows_apply, tk_v12_apply I hI]
  rw [h14, select_one]
  unfold tkE_v13
  refine (gatherE_apply E _ j d).trans (congrArg E (congrArg (fun r => ix2 r d) (Fin.ext ?_)))
  show min (tk_v5 (st_v2 I) (ix2 j 0)).toInt.toNat 999 = (I (ix2 j 0)).toNat % 1000
  rw [tk_v5_apply I hI, word_clamp (hI j), Nat.mod_eq_of_lt (hI j)]

theorem tkQ_apply (Q : FVec Ideal S1000 .f32) (j : Fin 4096) : tkQ Q (st_v2 I) (ix1 j) = Q (ix1 (item I j)) := by
  unfold tkQ
  rw [select_apply, tk_v12_apply I hI, select_one]
  unfold tkQ_v13
  refine (gatherQ_apply Q _ j).trans (congrArg Q (congrArg (fun r => ix1 r) (Fin.ext ?_)))
  show min (tk_v5 (st_v2 I) (ix2 j 0)).toInt.toNat 999 = (I (ix2 j 0)).toNat % 1000
  rw [tk_v5_apply I hI, word_clamp (hI j), Nat.mod_eq_of_lt (hI j)]

end Ids

section Floats
variable (E : EArr) (U : UArr) (C : CArr) (I : IArr)

theorem real_of_exists {x : EReal} (h : ∃ r : ℝ, x = (r : EReal)) : x = ((x.toReal : ℝ) : EReal) := by
  obtain ⟨r, hr⟩ := h
  rw [hr, EReal.toReal_coe]

theorem st_v1_apply (i : S4096x16.Idx) : st_v1 U i = U i := by
  unfold st_v1
  rw [hostDivf_apply, broadcastInDim_scalar_apply, constant_apply, Ideal.ofBits_one_f32, div_one]

/-- The identity matrix's entries. -/
theorem st_v19_apply (i j : Fin 4096) : st_v19 (ix2 i j) = (((if i = j then (1 : ℝ) else 0) : ℝ) : EReal) := by
  show ((((IntOp.cmpi .eq (IntOp.addi (BitVec.ofNat 32 i.val)
      (broadcastInDim S4096x4096 ![] bcast_S_S4096x4096 (constantI S_ 32 0#32) (ix2 i j))) (BitVec.ofNat 32 j.val)).toNat : ℝ)) : EReal) = _
  rw [broadcastInDim_scalar_apply]
  show ((((IntOp.cmpi .eq (BitVec.ofNat 32 i.val + 0#32) (BitVec.ofNat 32 j.val)).toNat : ℝ)) : EReal) = _
  rw [BitVec.add_zero]
  by_cases hij : i = j
  · subst hij
    rw [if_pos rfl, StableHlo.Predicate.cmpi_eq_iff.mpr rfl]
    simp
  · rw [if_neg hij]
    have h0 : IntOp.cmpi .eq (BitVec.ofNat 32 i.val) (BitVec.ofNat 32 j.val) = 0#1 := by
      apply eq_zero_of_ne_one
      intro e
      have h2 := congrArg BitVec.toNat (StableHlo.Predicate.cmpi_eq_iff.mp e)
      simp only [BitVec.toNat_ofNat] at h2
      apply hij
      apply Fin.ext
      have := i.isLt
      have := j.isLt
      omega
    rw [h0]
    simp

variable (hD : Dom E U C I)
include hD

theorem total_pos : 0 < total C := by
  unfold total
  refine Finset.sum_pos' (fun k _ => EReal.toReal_nonneg (hD.c_nonneg _)) ⟨item I 0, Finset.mem_univ _, ?_⟩
  have hp := hD.c_pos 0 (item I 0) (by
    show _ = (I (ix2 0 0)).toNat % 1000
    rw [Nat.mod_eq_of_lt (hD.idx_lt 0)])
  rw [real_of_exists (hD.c_real _)] at hp
  exact EReal.coe_pos.mp hp

theorem q_pos (j : Fin 4096) : 0 < (C (ix1 (item I j))).toReal / total C := by
  refine div_pos ?_ (total_pos E U C I hD)
  have hp := hD.c_pos j (item I j) (by
    show _ = (I (ix2 j 0)).toNat % 1000
    rw [Nat.mod_eq_of_lt (hD.idx_lt j)])
  rw [real_of_exists (hD.c_real _)] at hp
  exact EReal.coe_pos.mp hp

theorem st_v5_apply (i j : Fin 4096) :
    st_v5 E U I (ix2 i j) = ((∑ d : Fin 16, (U (ix2 i d)).toReal * (E (ix2 (item I j) d)).toReal : ℝ) : EReal) := by
  unfold st_v5
  rw [dot_apply, ← sum_coe]
  refine Finset.sum_congr rfl fun d _ => ?_
  rw [st_v1_apply]
  unfold st_v4 st_v3
  rw [transpose_ix2_apply, tkE_apply I hD.idx_lt E, EReal.coe_mul, ← real_of_exists (hD.u_real _),
    ← real_of_exists (hD.e_real _)]

theorem st_v6_apply : st_v6 C ix0 = ((total C : ℝ) : EReal) := by
  unfold st_v6 total
  rw [sum_vec_apply, constant_apply, Ideal.ofBits_zero_f32, zero_add, ← sum_coe]
  exact Finset.sum_congr rfl fun k _ => real_of_exists (hD.c_real _)

theorem st_v8_apply (k : Fin 1000) : st_v8 C (ix1 k) = (((C (ix1 k)).toReal / total C : ℝ) : EReal) := by
  unfold st_v8
  rw [hostDivf_apply, broadcastInDim_scalar_apply, st_v6_apply E U C I hD,
    Ideal.div_coe (ne_of_gt (total_pos E U C I hD))]
  conv_lhs => rw [real_of_exists (hD.c_real (ix1 k))]
  rw [← EReal.coe_mul, mul_one_div]

theorem st_v10_apply (j : Fin 4096) :
    st_v10 C I (ix1 j) = ((Real.log ((C (ix1 (item I j))).toReal / total C) : ℝ) : EReal) := by
  unfold st_v10 st_v9
  show Ideal.log (tkQ (st_v8 C) (st_v2 I) (ix1 j)) = _
  rw [tkQ_apply I hD.idx_lt, st_v8_apply E U C I hD, Ideal.log_coe, if_neg (not_le.mpr (q_pos E U C I hD j))]

theorem st_v13_apply (i j : Fin 4096) : st_v13 E U C I (ix2 i j) = ((score E U C i (item I j) : ℝ) : EReal) := by
  unfold st_v13 st_v12 score
  rw [subf_apply, st_v5_apply E U C I hD, row_to_rect_apply, shapeCast_a_1a_apply, st_v10_apply E U C I hD,
    ← EReal.coe_sub]

end Floats

/-! ## The row-wise log-softmax of an array of real numbers -/

theorem ls_apply (X : FVec Ideal S4096x4096 .f32) (a : Fin 4096 → Fin 4096 → ℝ)
    (hX : ∀ i j, X (ix2 i j) = ((a i j : ℝ) : EReal)) (i : Fin 4096) :
    ∃ M : ℝ, ∀ j : Fin 4096,
      ls X (ix2 i j) = (((a i j - M) - Real.log (∑ j', Real.exp (a i j' - M)) : ℝ) : EReal) := by
  obtain ⟨M, hM⟩ := max_rows_apply X a hX reducesTo_S4096x4096_S4096_d1 h_S_ i
  refine ⟨M, fun j => ?_⟩
  have h2 : ls_v2 X (ix1 i) = (M : EReal) := by
    unfold ls_v2
    rw [maximumf_apply, hM, broadcastInDim_scalar_apply, constant_apply, ofBits_neg_inf]
    exact max_eq_right bot_le
  have h5 : ∀ j', ls_v5 X (ix2 i j') = ((a i j' - M : ℝ) : EReal) := by
    intro j'
    unfold ls_v5 ls_v4
    rw [subf_apply, col_to_rect_apply, vec_to_col_apply, h2, hX, ← EReal.coe_sub]
  have h7 : ls_v7 X (ix1 i) = ((∑ j', Real.exp (a i j' - M) : ℝ) : EReal) := by
    unfold ls_v7
    rw [sum_rows_apply, constant_apply, Ideal.ofBits_zero_f32, zero_add, ← sum_coe]
    refine Finset.sum_congr rfl fun j' _ => ?_
    show Ideal.exp (ls_v5 X (ix2 i j')) = _
    rw [h5 j', Ideal.exp_coe]
  have hpos : 0 < ∑ j', Real.exp (a i j' - M) :=
    Finset.sum_pos (fun _ _ => Real.exp_pos _) ⟨0, Finset.mem_univ _⟩
  unfold ls ls_v10
  rw [subf_apply, h5 j, col_to_rect_apply]
  show _ - Ideal.log (broadcastInDim S4096x1 ![0] bcast_S4096_S4096x1_0 (ls_v7 X) (ix2 i 0)) = _
  rw [vec_to_col_apply, h7, Ideal.log_coe, if_neg (not_le.mpr hpos), ← EReal.coe_sub]

end Stages

/-- The program's result at row `j`, on the domain: the loss of row `j`. -/
theorem result_apply [Cert.ReferenceIdeal.Facts] (E : Cert.SoftmaxSpec.EArr) (U : Cert.SoftmaxSpec.UArr) (C : Cert.SoftmaxSpec.CArr) (I : Cert.SoftmaxSpec.IArr) (hD : Cert.SoftmaxSpec.Dom E U C I) (j : Fin 4096) :
    result E U C I (ValueIdx.ix2 j 0) = Cert.SoftmaxSpec.loss E U C I j := by
  obtain ⟨M, hM⟩ := ls_apply (st_v13 E U C I) (fun i j' => Cert.SoftmaxSpec.score E U C i (Cert.SoftmaxSpec.item I j'))
    (fun i j' => st_v13_apply E U C I hD i j') j
  unfold result
  rw [vec_to_col_apply]
  show -(st_v22 E U C I (ix1 j)) = _
  have h22 : st_v22 E U C I (ix1 j)
      = ((∑ j', (if j = j' then (1 : ℝ) else 0)
          * ((Cert.SoftmaxSpec.score E U C j (Cert.SoftmaxSpec.item I j') - M)
            - Real.log (∑ j'', Real.exp (Cert.SoftmaxSpec.score E U C j (Cert.SoftmaxSpec.item I j'') - M))) : ℝ) : EReal) := by
    unfold st_v22
    rw [sum_rows_apply, constant_apply, Ideal.ofBits_zero_f32, zero_add, ← sum_coe]
    refine Finset.sum_congr rfl fun j' _ => ?_
    unfold st_v20
    rw [mulf_apply, st_v19_apply, hM j', ← EReal.coe_mul]
  rw [h22, ← EReal.coe_neg,
    Cert.SoftmaxSpec.Lse.ref_form (Cert.SoftmaxSpec.item I) (Cert.SoftmaxSpec.score E U C j) M j]
  rfl

end Cert.ReferenceIdeal.Hand

end
-- ==== Proof.KPieces.lean ====
/-
  What the two runs of the kernel body found, as the body's named values. The first grid point stores the row of
  per-item column counts and the row of per-item log-frequencies in the two scratch rows, reads them back, and stores
  its block of losses computed from them; a later point reads the two rows as it finds them and stores its block of
  losses.
-/
import proofs.«139335_g11544872092195_cont_week2b_396_3_alg».proof.Proof.KData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A rectangle's offsets that are all zero. -/
theorem hz2 : (![0, 0] : Fin 2 → Nat) = fun _ => 0 := funext fun a => by fin_cases a <;> rfl

/-- Row 0 of the [8 × 1024] tile of counts. -/
def cntRow (x4 : Vec F S8x1024 .f32) : Vec F S1x1024 .f32 := fun j => x4 (ValueIdx.ix2 0 (j 1))

/-- A load of the tile's leading [1 × 1024] rectangle reads its row 0. -/
theorem ld_cntRow (x4 : Vec F S8x1024 .f32)
    (inb : ∀ a, (![0, 0] : Fin 2 → Nat) a + (![1, 1024] : Fin 2 → Nat) a ≤ S8x1024.size a) :
    View.ld (Val := Elt F) x4 (Rect.unit (s := S8x1024) ![0, 0] ![1, 1024] inb) = cntRow x4 := by
  funext j
  show x4 _ = x4 _
  congr 1
  funext a
  apply Fin.ext
  match a with
  | ⟨0, h0⟩ =>
    have h : (j ⟨0, h0⟩).val < 1 := (j ⟨0, h0⟩).isLt
    show 0 + 1 * (j ⟨0, h0⟩).val = 0
    omega
  | ⟨1, _⟩ =>
    show 0 + 1 * (j ⟨1, _⟩).val = (j 1).val
    rw [Nat.zero_add, Nat.one_mul]
    rfl

/-- The first point's first scratch row: the row of per-item column counts. -/
theorem soutA_0_eq (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) :
    soutA_0 c i arg1 harg1 arg2 harg2 arg3 harg3 arg4 harg4 arg5 harg5 arg6 harg6 arg7 harg7 arg8 harg8 hc x0 x1 x2 x3 x4 = k0_pay2 x2 := by
  unfold soutA_0
  rw [View.read_writes_eq_canon _ _ _ (scoverA_0 c i arg1 harg1 arg2 harg2 arg3 harg3 arg4 harg4 arg5 harg5 arg6 harg6 arg7 harg7 arg8 harg8 hc x0 x1 x2 x3 x4)]
  unfold kernelRunA
  dsimp only
  sl_unfold_words
  rw [View.canon_unit_zero hz2]
  simp only [View.readAt_eq_ld, harg3.read_unread, View.ld_unit_zero (S := S4096x1) hz2]

/-- The first point's second scratch row: the row of per-item log-frequencies, from the ids and row 0 of the counts. -/
theorem soutA_1_eq (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) :
    soutA_1 c i arg1 harg1 arg2 harg2 arg3 harg3 arg4 harg4 arg5 harg5 arg6 harg6 arg7 harg7 arg8 harg8 hc x0 x1 x2 x3 x4 = k0_pay3 x2 (cntRow x4) := by
  unfold soutA_1
  rw [View.read_writes_eq_canon _ _ _ (scoverA_1 c i arg1 harg1 arg2 harg2 arg3 harg3 arg4 harg4 arg5 harg5 arg6 harg6 arg7 harg7 arg8 harg8 hc x0 x1 x2 x3 x4)]
  unfold kernelRunA
  dsimp only
  sl_unfold_words
  rw [View.canon_unit_zero hz2]
  simp only [View.readAt_eq_ld, harg3.read_unread, harg5.read_unread, View.ld_unit_zero (S := S4096x1) hz2, ld_cntRow]

/-- The first point's block of losses, from the two rows it has just stored. -/
theorem outA_5_eq (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : cond0 i) (x0 : Vec F S512x16 .f32) (x1 : Vec F S1024x16 .f32) (x2 : Vec F S4096x1 .i32) (x3 : Vec F S512x1 .i32) (x4 : Vec F S8x1024 .f32) :
    outA_5 c i arg1 harg1 arg2 harg2 arg3 harg3 arg4 harg4 arg5 harg5 arg6 harg6 arg7 harg7 arg8 harg8 hc x0 x1 x2 x3 x4 = k0_pay4 x0 x1 (k0_pay2 x2) (k0_pay3 x2 (cntRow x4)) x3 := by
  unfold outA_5
  rw [View.read_writes_eq_canon _ _ _ (coverA_5 c i arg1 harg1 arg2 harg2 arg3 harg3 arg4 harg4 arg5 harg5 arg6 harg6 arg7 harg7 arg8 harg8 hc x0 x1 x2 x3 x4)]
  unfold kernelRunA
  dsimp only
  sl_unfold_words
  rw [View.canon_unit_zero hz2]
  simp only [View.readAt_eq_ld, harg1.read_unread, harg2.read_unread, harg3.read_unread, harg4.read_unread,
    harg5.read_unread, View.ld_unit_zero (S := S512x16) hz2, View.ld_unit_zero (S := S1024x16) hz2,
    View.ld_unit_zero (S := S4096x1) hz2, View.ld_unit_zero (S := S512x1) hz2,
    View.readCov_unit_zero (S := S1x1024) _ hz2, ld_cntRow]

/-- A later point's block of losses, from the two rows as it finds them. -/
theorem outB_5_eq (c : Dev nD) (i : grid0.Coords) (arg1 : Memref sig .tc .vmem S512x16 .f32) (harg1 : arg1.IsWhole) (arg2 : Memref sig .tc .vmem S1024x16 .f32) (harg2 : arg2.IsWhole) (arg3 : Memref sig .tc .vmem S4096x1 .i32) (harg3 : arg3.IsWhole) (arg4 : Memref sig .tc .vmem S512x1 .i32) (harg4 : arg4.IsWhole) (arg5 : Memref sig .tc .vmem S8x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S1x1024 .f32) (harg8 : arg8.IsWhole) (hc : ¬cond0 i) (x0 : Vec F S512x16 .f32) (x1 : Vec F S1024x16 .f32) (x2 : Vec F S4096x1 .i32) (x3 : Vec F S512x1 .i32) (x4 : Vec F S8x1024 .f32) (xs0 xs1 : Vec F S1x1024 .f32) :
    outB_5 c i arg1 harg1 arg2 harg2 arg3 harg3 arg4 harg4 arg5 harg5 arg6 harg6 arg7 harg7 arg8 harg8 hc x0 x1 x2 x3 x4 xs0 xs1 = k0_pay4 x0 x1 xs0 xs1 x3 := by
  unfold outB_5
  rw [View.read_writes_eq_canon _ _ _ (coverB_5 c i arg1 harg1 arg2 harg2 arg3 harg3 arg4 harg4 arg5 harg5 arg6 harg6 arg7 harg7 arg8 harg8 hc x0 x1 x2 x3 x4 xs0 xs1)]
  unfold kernelRunB
  dsimp only
  sl_unfold_words
  rw [View.canon_unit_zero hz2]
  simp only [View.readAt_eq_ld, harg1.read_unread, harg2.read_unread, harg4.read_unread, harg7.read_unread,
    harg8.read_unread, View.ld_unit_zero (S := S512x16) hz2, View.ld_unit_zero (S := S1024x16) hz2,
    View.ld_unit_zero (S := S512x1) hz2, View.ld_unit_zero (S := S1x1024) hz2]

end Cert.KernelIdeal.Hand

end
-- ==== Proof.KFinal.lean ====
/-
  The kernel's result array and its input blocks, read. The output window's eight blocks of 512 rows tile the 4096 rows
  of the result, so row `512 t + y` of the array after the run is row `y` of what point `t` left in the output's staging
  buffer; the two scratch rows are stored at the first point and kept, so every point computes its losses from the
  first point's rows; and each input block is its array read at the block's offset.
-/
import proofs.«139335_g11544872092195_cont_week2b_396_3_alg».proof.Proof.KData
import proofs.«139335_g11544872092195_cont_week2b_396_3_alg».proof.Proof.KPieces
import proofs.«139335_g11544872092195_cont_week2b_396_3_alg».proof.Proof.KHost
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

/-! ## The windows' block indices over the grid -/

/-- The user vectors, the point's item ids and the losses are cut into blocks of 512 rows, block `t` at point `t`; the
    padded table, the whole column of item ids and the tiled counts are one block each. -/
theorem idx_facts : ∀ t : Fin cfg0.N,
    win0_0.index t (0 : Fin 2) = t.val ∧ win0_0.index t (1 : Fin 2) = 0 ∧
    win0_1.index t (0 : Fin 2) = 0 ∧ win0_1.index t (1 : Fin 2) = 0 ∧
    win0_2.index t (0 : Fin 2) = 0 ∧ win0_2.index t (1 : Fin 2) = 0 ∧
    win0_3.index t (0 : Fin 2) = t.val ∧ win0_3.index t (1 : Fin 2) = 0 ∧
    win0_4.index t (0 : Fin 2) = 0 ∧ win0_4.index t (1 : Fin 2) = 0 ∧
    win0_5.index t (0 : Fin 2) = t.val ∧ win0_5.index t (1 : Fin 2) = 0 :=
  (by decide +kernel : ∀ t : Fin grid0.N, _)

/-! ## The input blocks -/

/-- The block of user vectors at point `t`: rows `512 t … 512 t + 511` of the user array. -/
theorem iblk0_apply (t : Fin cfg0.N) (y : Fin 512) (d : Fin 16) (h : 512 * t.val + y.val < 4096) :
    (iblk m c 0 t : S512x16.Idx → EReal) (ix2 y d)
      = (m ((c : Thread nD τ).loc main_arg1) : S4096x16.Idx → EReal) (ix2 ⟨512 * t.val + y.val, h⟩ d) := by
  have hi := idx_facts t
  unfold iblk
  rw [View.read_apply]
  show V m c main_arg1 _ = _
  rw [V_arg1]
  congr 1
  funext a
  apply Fin.ext
  match a with
  | ⟨0, _⟩ => show win0_0.index t 0 * 512 + 1 * y.val = 512 * t.val + y.val; rw [hi.1]; omega
  | ⟨1, _⟩ => show win0_0.index t 1 * 16 + 1 * d.val = d.val; rw [hi.2.1]; omega

/-- No block of the output window overhangs the array: each is 512 rows by one column. -/
theorem xsize_facts : ∀ t : Fin cfg0.N,
    win0_5.xsize (grid0.coords t) (0 : Fin 2) = 512 ∧ win0_5.xsize (grid0.coords t) (1 : Fin 2) = 1 :=
  (by decide +kernel : ∀ t : Fin grid0.N, _)

/-- The padded embedding table, one block at every point: the table on its first 1000 rows, zero on the 24 after. -/
theorem iblk1_apply (t : Fin cfg0.N) (k : Fin 1024) (d : Fin 16) :
    (iblk m c 1 t : S1024x16.Idx → EReal) (ix2 k d)
      = if h : k.val < 1000 then (m ((c : Thread nD τ).loc main_arg0) : S1000x16.Idx → EReal) (ix2 ⟨k.val, h⟩ d) else (0 : EReal) := by
  have hi := idx_facts t
  refine Eq.trans ?_ (V_epad m c k d)
  unfold iblk
  rw [View.read_apply]
  show V m c main_call0_v0 _ = V m c main_call0_v0 _
  congr 1
  funext a
  apply Fin.ext
  match a with
  | ⟨0, _⟩ => show win0_1.index t 0 * 1024 + 1 * k.val = k.val; rw [hi.2.2.1]; omega
  | ⟨1, _⟩ => show win0_1.index t 1 * 16 + 1 * d.val = d.val; rw [hi.2.2.2.1]; omega

/-- The whole column of item ids, one block at every point. -/
theorem iblk2_apply (t : Fin cfg0.N) (j : Fin 4096) :
    (iblk m c 2 t : S4096x1.Idx → BitVec 32) (ix2 j 0)
      = (m ((c : Thread nD τ).loc main_arg3) : S4096x1.Idx → BitVec 32) (ix2 j 0) := by
  have hi := idx_facts t
  unfold iblk
  rw [View.read_apply]
  show V m c main_arg3 _ = _
  rw [V_arg3]
  congr 1
  funext a
  apply Fin.ext
  match a with
  | ⟨0, _⟩ => show win0_2.index t 0 * 4096 + 1 * j.val = j.val; rw [hi.2.2.2.2.1]; omega
  | ⟨1, _⟩ => show win0_2.index t 1 * 1 + 1 * 0 = 0; rw [hi.2.2.2.2.2.1]

/-- The block of item ids at point `t`: rows `512 t … 512 t + 511` of the column. -/
theorem iblk3_apply (t : Fin cfg0.N) (y : Fin 512) (h : 512 * t.val + y.val < 4096) :
    (iblk m c 3 t : S512x1.Idx → BitVec 32) (ix2 y 0)
      = (m ((c : Thread nD τ).loc main_arg3) : S4096x1.Idx → BitVec 32) (ix2 ⟨512 * t.val + y.val, h⟩ 0) := by
  have hi := idx_facts t
  unfold iblk
  rw [View.read_apply]
  show V m c main_arg3 _ = _
  rw [V_arg3]
  congr 1
  funext a
  apply Fin.ext
  match a with
  | ⟨0, _⟩ => show win0_3.index t 0 * 512 + 1 * y.val = 512 * t.val + y.val; rw [hi.2.2.2.2.2.2.1]; omega
  | ⟨1, _⟩ => show win0_3.index t 1 * 1 + 1 * 0 = 0; rw [hi.2.2.2.2.2.2.2.1]

/-- The tiled counts, one block at every point: in each of its eight rows the counts, zero on the 24 columns after them. -/
theorem iblk4_apply (t : Fin cfg0.N) (r : Fin 8) (k : Fin 1024) :
    (iblk m c 4 t : S8x1024.Idx → EReal) (ix2 r k)
      = if h : k.val < 1000 then (m ((c : Thread nD τ).loc main_arg2) : S1000.Idx → EReal) (ix1 ⟨k.val, h⟩) else (0 : EReal) := by
  have hi := idx_facts t
  refine Eq.trans ?_ (V_cnt2d m c r k)
  unfold iblk
  rw [View.read_apply]
  show V m c main_call0_v5 _ = V m c main_call0_v5 _
  congr 1
  funext a
  apply Fin.ext
  match a with
  | ⟨0, _⟩ => show win0_4.index t 0 * 8 + 1 * r.val = r.val; rw [hi.2.2.2.2.2.2.2.2.1]; omega
  | ⟨1, _⟩ => show win0_4.index t 1 * 1024 + 1 * k.val = k.val; rw [hi.2.2.2.2.2.2.2.2.2.1]; omega

/-- The row of counts the body reads: the first row of the tiled counts. -/
theorem cntRow4_apply (t : Fin cfg0.N) (k : Fin 1024) :
    (cntRow (iblk m c 4 t) : S1x1024.Idx → EReal) (ix2 0 k)
      = if h : k.val < 1000 then (m ((c : Thread nD τ).loc main_arg2) : S1000.Idx → EReal) (ix1 ⟨k.val, h⟩) else (0 : EReal) :=
  iblk4_apply m c t 0 k

/-! ## The two scratch rows: stored at the first point, kept afterwards -/

/-- The first grid point. -/
def t0 : Fin cfg0.N := ⟨0, by rw [show cfg0.N = 8 from N_0]; decide⟩

/-- The column counts and the log-frequencies the first point stores. -/
abbrev row0 : Vec Ideal S1x1024 .f32 := k0_pay2 (F := Ideal) (iblk m c 2 t0)
abbrev row1 : Vec Ideal S1x1024 .f32 := k0_pay3 (F := Ideal) (iblk m c 2 t0) (cntRow (iblk m c 4 t0))

/-- After every point the scratch rows hold what the first point stored. -/
theorem rows_eq : ∀ (n : ℕ) (hn : n < cfg0.N),
    (outsAt m c n hn).2.1 = row0 m c ∧ (outsAt m c n hn).2.2 = row1 m c := by
  intro n
  induction n with
  | zero =>
    intro hn
    rw [outsAt_A m c ⟨0, hn⟩ rfl]
    dsimp only
    exact ⟨soutA_0_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      soutA_1_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩)⟩
  | succ n ih =>
    intro hn
    rw [outsAt_B m c ⟨n + 1, hn⟩ (Nat.succ_ne_zero n)]
    dsimp only
    exact ih (Nat.lt_of_succ_lt hn)

/-- What point `t` leaves in the output's staging buffer: its block of losses, from its blocks and the first point's rows. -/
theorem out_block (t : Fin cfg0.N) :
    (outsAt m c t.val t.isLt).1
      = k0_pay4 (F := Ideal) (iblk m c 0 t) (iblk m c 1 t) (row0 m c) (row1 m c) (iblk m c 3 t) := by
  by_cases h0 : t.val = 0
  · obtain rfl : t = t0 := Fin.ext h0
    rw [outsAt_A m c t0 rfl]
    dsimp only
    exact outA_5_eq (F := Ideal) c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0 (Memref.isWhole_whole _) scM1 (Memref.isWhole_whole _) ((hcond0 t0).mpr rfl) (iblk m c 0 t0) (iblk m c 1 t0) (iblk m c 2 t0) (iblk m c 3 t0) (iblk m c 4 t0)
  · have hp : t.val - 1 < cfg0.N := Nat.lt_of_le_of_lt (Nat.sub_le _ _) t.isLt
    rw [outsAt_B m c t h0]
    dsimp only
    refine (outB_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => h0 ((hcond0 t).mp h)) (iblk m c 0 t) (iblk m c 1 t) (iblk m c 2 t) (iblk m c 3 t) (iblk m c 4 t)
      (outsAt m c (t.val - 1) hp).2.1 (outsAt m c (t.val - 1) hp).2.2).trans ?_
    rw [(rows_eq m c (t.val - 1) hp).1, (rows_eq m c (t.val - 1) hp).2]

/-! ## The result array from its blocks -/

theorem outsAt_congr (n n' : ℕ) (h : n < cfg0.N) (h' : n' < cfg0.N) (e : n = n') :
    outsAt m c n h = outsAt m c n' h' := by
  subst e; rfl

/-- The result array: row `r` is row `r % 512` of what point `r / 512` left in the output's staging buffer. -/
def lossArr : S4096x1.Idx → EReal := fun i =>
  ((outsAt m c ((i 0).val / 512) (by have := idx2_lt0 i; rw [show cfg0.N = 8 from N_0]; omega)).1 : S512x1.Idx → EReal)
    (ix2 ⟨(i 0).val % 512, Nat.mod_lt _ (by decide)⟩ (0 : Fin 1))

theorem lossArr_apply (i : S4096x1.Idx) (t : Fin cfg0.N) (y : S512x1.Idx) (h0 : (i 0).val = 512 * t.val + (y 0).val) :
    lossArr m c i = ((outsAt m c t.val t.isLt).1 : S512x1.Idx → EReal) y := by
  unfold lossArr
  have hy := idx2_lt0 y
  have e1 : (i 0).val / 512 = t.val := by omega
  have e2 : (i 0).val % 512 = (y 0).val := by omega
  have hy1 := idx2_lt1 y
  have e3 : (ix2 ⟨(i 0).val % 512, Nat.mod_lt _ (by decide)⟩ (0 : Fin 1) : S512x1.Idx) = y := funext fun a =>
    match a with
    | ⟨0, _⟩ => Fin.ext e2
    | ⟨1, _⟩ => Fin.ext (by show 0 = (y 1).val; omega)
  rw [outsAt_congr m c _ t.val _ t.isLt e1, e3]

/-- What the write-back at point `t` writes is block `t` of that array. -/
theorem flushed_eq (t : Fin cfg0.N) (hf : (cfg0.win 5).flush t = true) :
    (dats m 0 c).flushed 5 t = ((cfg0.win 5).blk t).view.read (Elt Ideal) (lossArr m c) := by
  have hi := idx_facts t
  show (cfg0.win 5).cut (grid0.coords t) ((dats m 0 c).after 5 t) = _
  rw [after0_5]
  funext y
  rw [View.read_apply]
  refine (lossArr_apply m c _ t y ?_).symm
  show win0_5.index t 0 * 512 + 1 * (y 0).val = 512 * t.val + (y 0).val
  rw [hi.2.2.2.2.2.2.2.2.2.2.1]; omega

/-- The eight blocks tile the 4096 rows, so the result array ends holding it. -/
theorem arr_eq : (dats m 0 c).arrAt 5 cfg0.N = lossArr m c :=
  (dats m 0 c).arrAt_eq_of_cover 5 (lossArr m c) (flushed_eq m c) fun i => by
    have h0 := idx2_lt0 i
    have h1 := idx2_lt1 i
    obtain ⟨t, ht⟩ : ∃ t : Fin cfg0.N, t.val = (i 0).val / 512 :=
      ⟨⟨(i 0).val / 512, by rw [show cfg0.N = 8 from N_0]; omega⟩, rfl⟩
    have hi := idx_facts t
    refine ⟨t, flush0_5 t, ?_⟩
    show i ∈ ((View.whole main_v0).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + win0_5.xsize (grid0.coords t) 0
      rw [hi.2.2.2.2.2.2.2.2.2.2.1, show win0_5.xsize (grid0.coords t) 0 = 512 from (xsize_facts t).1]; omega
    | ⟨1, _⟩ =>
      show win0_5.index t 1 * 1 ≤ (i 1 : Nat) ∧ (i 1 : Nat) < win0_5.index t 1 * 1 + win0_5.xsize (grid0.coords t) 1
      rw [hi.2.2.2.2.2.2.2.2.2.2.2, show win0_5.xsize (grid0.coords t) 1 = 1 from (xsize_facts t).2]; omega

/-- Row `512 t + y` of the result array after the run: row `y` of point `t`'s block of losses. -/
theorem out_point (t : Fin cfg0.N) (y : Fin 512) (h : 512 * t.val + y.val < 4096) :
    ((dats (F := Ideal) m 0 c).arrAt 5 cfg0.N : S4096x1.Idx → EReal) (ix2 ⟨512 * t.val + y.val, h⟩ 0)
      = k0_pay4 (F := Ideal) (iblk m c 0 t) (iblk m c 1 t) (k0_pay2 (F := Ideal) (iblk m c 2 t0))
          (k0_pay3 (F := Ideal) (iblk m c 2 t0) (cntRow (iblk m c 4 t0))) (iblk m c 3 t) (ix2 y 0) := by
  refine (congrFun (arr_eq m c) (ix2 ⟨512 * t.val + y.val, h⟩ 0)).trans ?_
  refine (lossArr_apply m c (ix2 ⟨512 * t.val + y.val, h⟩ 0) t (ix2 y 0) rfl).trans ?_
  exact congrFun (out_block m c t) (ix2 y 0)

end Cert.KernelIdeal.Hand

end
-- ==== Proof.KernelPoint.lean ====
/-
  One row of one block of the kernel's output, as a real number: the payload the body stores, read at row `y` of the
  block at grid point `t`, is the loss of batch row `512 t + y`.

  The road: each product is read at an index as a plain sum; the count of a bin is the number of batch columns that carry
  it; the padded row of counts sums to the total count; the smoothing term of a sampled item is the log of its frequency;
  every entry of the row's scores is a real number, and at the bin of a batch column it is the specification's score; the
  row maximum of real numbers is a real number; so the stored value is the shifted, count-weighted log-sum-exp less the
  one-hot pick, which the log-sum-exp law turns into the loss.
-/
import proofs.«139335_g11544872092195_cont_week2b_396_3_alg».proof.Proof.Gen.KernelIdeal.Skeleton
import proofs.«139335_g11544872092195_cont_week2b_396_3_alg».proof.Proof.Spec
import proofs.«139335_g11544872092195_cont_week2b_396_3_alg».proof.Proof.LseMath
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Point

open Idealize.ShloMosaic Idealize.ShloMosaic.ValueIdx Cert.KernelIdeal Cert.KernelIdeal.Gen Cert.SoftmaxSpec

variable [Cert.KernelIdeal.Facts]

namespace Row

/-! ## The two products' operand indices, axis by axis -/

theorem lhs_cnt_0 (i : S1x1024.Idx) (q : dot_S1x4096_S4096x1024_S1x1024_1_0_0_1_n_n.contr.Idx) :
    (dot_S1x4096_S4096x1024_S1x1024_1_0_0_1_n_n.lhsIdx i q 0).val = (i 0).val := by
  unfold DotDims.lhsIdx
  rw [dif_neg (show ¬(0 : Fin S1x4096.rank) ∈ dot_S1x4096_S4096x1024_S1x1024_1_0_0_1_n_n.lhsBatch by decide), dif_pos (show (0 : Fin S1x4096.rank) ∈ dot_S1x4096_S4096x1024_S1x1024_1_0_0_1_n_n.lhsNonContracting by decide)]
  rfl
theorem lhs_cnt_1 (i : S1x1024.Idx) (q : dot_S1x4096_S4096x1024_S1x1024_1_0_0_1_n_n.contr.Idx) :
    (dot_S1x4096_S4096x1024_S1x1024_1_0_0_1_n_n.lhsIdx i q 1).val = (q ⟨0, by decide⟩).val :=
  dot_S1x4096_S4096x1024_S1x1024_1_0_0_1_n_n.lhsIdx_val_of_single rfl i q
theorem rhs_cnt_0 (i : S1x1024.Idx) (q : dot_S1x4096_S4096x1024_S1x1024_1_0_0_1_n_n.contr.Idx) :
    (dot_S1x4096_S4096x1024_S1x1024_1_0_0_1_n_n.rhsIdx i q 0).val = (q ⟨0, by decide⟩).val :=
  dot_S1x4096_S4096x1024_S1x1024_1_0_0_1_n_n.rhsIdx_val_of_single rfl i q
theorem rhs_cnt_1 (i : S1x1024.Idx) (q : dot_S1x4096_S4096x1024_S1x1024_1_0_0_1_n_n.contr.Idx) :
    (dot_S1x4096_S4096x1024_S1x1024_1_0_0_1_n_n.rhsIdx i q 1).val = (i 1).val := by
  unfold DotDims.rhsIdx
  rw [dif_neg (show ¬(1 : Fin S4096x1024.rank) ∈ dot_S1x4096_S4096x1024_S1x1024_1_0_0_1_n_n.rhsBatch by decide), dif_pos (show (1 : Fin S4096x1024.rank) ∈ dot_S1x4096_S4096x1024_S1x1024_1_0_0_1_n_n.rhsNonContracting by decide)]
  rfl

theorem lhs_sc_0 (i : S512x1024.Idx) (q : dot_S512x16_S1024x16_S512x1024_1_1_0_0_n_n.contr.Idx) :
    (dot_S512x16_S1024x16_S512x1024_1_1_0_0_n_n.lhsIdx i q 0).val = (i 0).val := by
  unfold DotDims.lhsIdx
  rw [dif_neg (show ¬(0 : Fin S512x16.rank) ∈ dot_S512x16_S1024x16_S512x1024_1_1_0_0_n_n.lhsBatch by decide), dif_pos (show (0 : Fin S512x16.rank) ∈ dot_S512x16_S1024x16_S512x1024_1_1_0_0_n_n.lhsNonContracting by decide)]
  rfl
theorem lhs_sc_1 (i : S512x1024.Idx) (q : dot_S512x16_S1024x16_S512x1024_1_1_0_0_n_n.contr.Idx) :
    (dot_S512x16_S1024x16_S512x1024_1_1_0_0_n_n.lhsIdx i q 1).val = (q ⟨0, by decide⟩).val :=
  dot_S512x16_S1024x16_S512x1024_1_1_0_0_n_n.lhsIdx_val_of_single rfl i q
theorem rhs_sc_0 (i : S512x1024.Idx) (q : dot_S512x16_S1024x16_S512x1024_1_1_0_0_n_n.contr.Idx) :
    (dot_S512x16_S1024x16_S512x1024_1_1_0_0_n_n.rhsIdx i q 0).val = (i 1).val := by
  unfold DotDims.rhsIdx
  rw [dif_neg (show ¬(0 : Fin S1024x16.rank) ∈ dot_S512x16_S1024x16_S512x1024_1_1_0_0_n_n.rhsBatch by decide), dif_pos (show (0 : Fin S1024x16.rank) ∈ dot_S512x16_S1024x16_S512x1024_1_1_0_0_n_n.rhsNonContracting by decide)]
  rfl
theorem rhs_sc_1 (i : S512x1024.Idx) (q : dot_S512x16_S1024x16_S512x1024_1_1_0_0_n_n.contr.Idx) :
    (dot_S512x16_S1024x16_S512x1024_1_1_0_0_n_n.rhsIdx i q 1).val = (q ⟨0, by decide⟩).val :=
  dot_S512x16_S1024x16_S512x1024_1_1_0_0_n_n.rhsIdx_val_of_single rfl i q

/-- The count product at bin `k`: the sum over the batch's columns of the two operands' entries. -/
theorem matmul_cnt_apply (l : FVec Ideal S1x4096 .f32) (r : FVec Ideal S4096x1024 .f32) (k : Fin 1024) :
    matmul (F := Ideal) dot_S1x4096_S4096x1024_S1x1024_1_0_0_1_n_n none l r (constant (F := Ideal) S1x1024 .f32 0x00000000#32) (ix2 0 k)
      = ∑ j : Fin 4096, l (ix2 0 j) * r (ix2 j k) := by
  simp only [matmul]
  rw [Ideal.matmul_constant_zero_apply, ← Equiv.sum_comp (contrEquiv1 dot_S1x4096_S4096x1024_S1x1024_1_0_0_1_n_n 4096 rfl rfl).symm]
  refine Finset.sum_congr rfl fun j _ => ?_
  have hk := contrEquiv1_symm_val dot_S1x4096_S4096x1024_S1x1024_1_0_0_1_n_n 4096 rfl rfl j
  have el : dot_S1x4096_S4096x1024_S1x1024_1_0_0_1_n_n.lhsIdx (ix2 0 k) ((contrEquiv1 dot_S1x4096_S4096x1024_S1x1024_1_0_0_1_n_n 4096 rfl rfl).symm j) = ix2 0 j := funext fun a => Fin.ext (by
    match a with
    | ⟨0, _⟩ => exact lhs_cnt_0 _ _
    | ⟨1, _⟩ => exact (lhs_cnt_1 _ _).trans hk)
  have er : dot_S1x4096_S4096x1024_S1x1024_1_0_0_1_n_n.rhsIdx (ix2 0 k) ((contrEquiv1 dot_S1x4096_S4096x1024_S1x1024_1_0_0_1_n_n 4096 rfl rfl).symm j) = ix2 j k := funext fun a => Fin.ext (by
    match a with
    | ⟨0, _⟩ => exact (rhs_cnt_0 _ _).trans hk
    | ⟨1, _⟩ => exact rhs_cnt_1 _ _)
  rw [el, er]

/-- The score product at row `y` and bin `k`: the inner product of the row's user vector with the bin's item vector. -/
theorem matmul_sc_apply (l : FVec Ideal S512x16 .f32) (r : FVec Ideal S1024x16 .f32) (y : Fin 512) (k : Fin 1024) :
    matmul (F := Ideal) dot_S512x16_S1024x16_S512x1024_1_1_0_0_n_n none l r (constant (F := Ideal) S512x1024 .f32 0x00000000#32) (ix2 y k)
      = ∑ d : Fin 16, l (ix2 y d) * r (ix2 k d) := by
  simp only [matmul]
  rw [Ideal.matmul_constant_zero_apply, ← Equiv.sum_comp (contrEquiv1 dot_S512x16_S1024x16_S512x1024_1_1_0_0_n_n 16 rfl rfl).symm]
  refine Finset.sum_congr rfl fun j _ => ?_
  have hk := contrEquiv1_symm_val dot_S512x16_S1024x16_S512x1024_1_1_0_0_n_n 16 rfl rfl j
  have el : dot_S512x16_S1024x16_S512x1024_1_1_0_0_n_n.lhsIdx (ix2 y k) ((contrEquiv1 dot_S512x16_S1024x16_S512x1024_1_1_0_0_n_n 16 rfl rfl).symm j) = ix2 y j := funext fun a => Fin.ext (by
    match a with
    | ⟨0, _⟩ => exact lhs_sc_0 _ _
    | ⟨1, _⟩ => exact (lhs_sc_1 _ _).trans hk)
  have er : dot_S512x16_S1024x16_S512x1024_1_1_0_0_n_n.rhsIdx (ix2 y k) ((contrEquiv1 dot_S512x16_S1024x16_S512x1024_1_1_0_0_n_n 16 rfl rfl).symm j) = ix2 k j := funext fun a => Fin.ext (by
    match a with
    | ⟨0, _⟩ => exact rhs_sc_0 _ _
    | ⟨1, _⟩ => exact (rhs_sc_1 _ _).trans hk)
  rw [el, er]

/-! ## Two keepdims layout forms read at an index -/

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The bin counts -/

/-- The word that says whether the id word `w` is bin `k`, as a float: one or zero. -/
def hot (w : BitVec 32) (k : ℕ) : EReal :=
  FloatOps.sitofp (F := Ideal) .f32 ((IntOp.cmpi .eq w (BitVec.ofNat 32 k)).setWidth 32)

/-- The count of bin `k`, as the kernel forms it: over the batch's columns, one times the column's indicator. -/
theorem pay1_at (If : Vec Ideal S4096x1 .i32) (k : Fin 1024) :
    k0_pay1 (F := Ideal) If (ix2 0 k) = ∑ j : Fin 4096, Ideal.ofBits .f32 0x3F800000#32 * hot (If (ix2 j 0)) k.val := by
  unfold k0_pay1
  rw [matmul_cnt_apply]
  refine Finset.sum_congr rfl fun j _ => ?_
  rw [broadcast_apply, sitofp_apply, extui_apply]
  show _ * FloatOps.sitofp (F := Ideal) .f32 ((IntOp.cmpi .eq (broadcastTo S4096x1024 If broadcasts_S4096x1_S4096x1024 (ix2 j k))
    (iota .tc S4096x1024 32 [1] iota_S4096x1024_d1_w32 (ix2 j k))).setWidth 32) = _
  rw [iota_single_apply, broadcastTo_a1_ab_apply]
  rfl

/-- The indicator is one when the id word is the bin's number and zero otherwise. -/
theorem hot_eq (w : BitVec 32) (k : ℕ) (hk : k < 2 ^ 32) :
    hot w k = ((if w.toNat = k then (1 : ℝ) else 0 : ℝ) : EReal) := by
  unfold hot
  show (((BitVec.setWidth 32 (BitVec.ofBool (w == BitVec.ofNat 32 k))).toInt : ℝ) : EReal) = _
  by_cases h : w.toNat = k
  · have hw : w = BitVec.ofNat 32 k := BitVec.eq_of_toNat_eq (by rw [BitVec.toNat_ofNat, Nat.mod_eq_of_lt hk]; exact h)
    rw [if_pos h, hw]
    simp
  · have hw : (w == BitVec.ofNat 32 k) = false := by
      rw [beq_eq_false_iff_ne]
      intro e
      apply h
      rw [e, BitVec.toNat_ofNat, Nat.mod_eq_of_lt hk]
    rw [if_neg h, hw]
    simp

/-- A finite sum of real numbers, read as an extended real, is the sum of the numbers read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The bin of batch column `j`: its item id, as one of the 1024 bins (reduced so that it is total). -/
def bin (I : IArr) (j : Fin 4096) : Fin 1024 := ⟨(I (ix2 j 0)).toNat % 1024, Nat.mod_lt _ (by decide)⟩

theorem bin_val (I : IArr) (hI : ∀ j : Fin 4096, (I (ix2 j 0)).toNat < 1000) (j : Fin 4096) :
    (bin I j).val = (I (ix2 j 0)).toNat := by
  show (I (ix2 j 0)).toNat % 1024 = _
  exact Nat.mod_eq_of_lt (by have := hI j; omega)

/-- The count of bin `k` is the number of batch columns whose item is `k`. -/
theorem pay1_eq (I : IArr) (hI : ∀ j : Fin 4096, (I (ix2 j 0)).toNat < 1000) (If : Vec Ideal S4096x1 .i32)
    (hIf : ∀ j : Fin 4096, If (ix2 j 0) = I (ix2 j 0)) (k : Fin 1024) :
    k0_pay1 (F := Ideal) If (ix2 0 k) = ((Lse.count (bin I) k : ℝ) : EReal) := by
  rw [pay1_at]
  have e : ∀ j : Fin 4096, Ideal.ofBits .f32 0x3F800000#32 * hot (If (ix2 j 0)) k.val
      = (((if bin I j = k then (1 : ℝ) else 0) : ℝ) : EReal) := fun j => by
    rw [Ideal.ofBits_one_f32, one_mul, hot_eq _ _ (by have := k.isLt; omega), hIf j]
    congr 1
    refine if_congr ?_ rfl rfl
    rw [← bin_val I hI j]
    exact (Fin.ext_iff).symm
  rw [Finset.sum_congr rfl fun j _ => e j, ← coe_sum]
  congr 1
  unfold Lse.count
  rw [Finset.sum_boole]

/-! ## The total count -/

/-- The index set of a `[1, 1, 1024]` array is its last coordinate's range. -/
def idxEquiv11n : S1x1x1024.Idx ≃ Fin 1024 where
  toFun i := i 2
  invFun k := ix3 (0 : Fin 1) (0 : Fin 1) k
  left_inv i := by
    obtain ⟨a, b, c, rfl⟩ : ∃ (a : Fin 1) (b : Fin 1) (c : Fin 1024), i = ix3 a b c := ⟨i 0, i 1, i 2, eq_ix3 i⟩
    obtain rfl : a = 0 := Subsingleton.elim _ _
    obtain rfl : b = 0 := Subsingleton.elim _ _
    rfl
  right_inv k := rfl

/-- The sum over every entry of the row of counts cast to `[1, 1, 1024]`, read out as a scalar, is the sum over the bins. -/
theorem total_at (cr : Vec Ideal S1x1024 .f32) :
    extractAt ![0, 0, 0] (shapeCast S1x1x1 (multiReduction (F := Ideal) .add [1, 2] S1
      (shapeCast S1x1x1024 cr shapeCasts_S1x1024_S1x1x1024) 0x00000000#32 reduces_S1x1x1024_S1 (.inl rfl) rfl) shapeCasts_S1_S1x1x1)
      inpos_S1x1x1_p0_0_0 = ∑ k : Fin 1024, cr (ix2 0 k) := by
  have h47 : multiReduction (F := Ideal) .add [1, 2] S1
      (shapeCast S1x1x1024 cr shapeCasts_S1x1024_S1x1x1024) 0x00000000#32 reduces_S1x1x1024_S1 (.inl rfl) rfl
      = fun _ => ∑ k : Fin 1024, cr (ix2 0 k) := funext fun j => by
    refine (Ideal.multiReduction_add_total _ _ reduces_S1x1x1024_S1 (fun b => by
      match b with | ⟨0, _⟩ => rfl) (.inl rfl) rfl j).trans ?_
    refine Fintype.sum_equiv idxEquiv11n _ _ fun i => ?_
    obtain ⟨a, b, c, rfl⟩ : ∃ (a : Fin 1) (b : Fin 1) (c : Fin 1024), i = ix3 a b c := ⟨i 0, i 1, i 2, eq_ix3 i⟩
    rw [shapeCast_ab_1ab_apply]
    obtain rfl : b = 0 := Subsingleton.elim _ _
    rfl
  rw [h47]
  rfl

/-! ## The smoothing term -/

/-- The log-frequency term of bin `k`, as the kernel forms it: for a bin with a count above one half, the log of its
    frequency count less the log of the total; otherwise the large constant. -/
theorem pay3_at (If : Vec Ideal S4096x1 .i32) (cr : Vec Ideal S1x1024 .f32) (k : Fin 1024) :
    k0_pay3 (F := Ideal) If cr (ix2 0 k)
      = Scalar.select (Ideal.cmp .ogt (k0_pay1 (F := Ideal) If (ix2 0 k)) (Ideal.ofBits .f32 0x3F000000#32))
          (Ideal.log (cr (ix2 0 k)) - Ideal.log (∑ k' : Fin 1024, cr (ix2 0 k'))) (Ideal.ofBits .f32 0x7149F2CA#32) := by
  unfold k0_pay3
  simp only [shapeCast_self]
  rw [select_apply, cmpf_apply, subf_apply, broadcast_apply, broadcast_apply, broadcast_apply, total_at]
  rfl

/-! ## One row's reductions -/

theorem lift_row (y : Fin 512) (k : Fin 1024) :
    reduces_S512x1024_S512.lift (ix1 y) k = ix2 y k := by
  funext a
  apply Fin.ext
  match a with
  | ⟨0, _⟩ => rfl
  | ⟨1, _⟩ => rfl

/-- A row's lane sum is the sum over the bins. -/
theorem rowsum_apply (src : FVec Ideal S512x1024 .f32) (y : Fin 512) :
    multiReduction (F := Ideal) .add [1] S512 src 0x00000000#32 reduces_S512x1024_S512 (.inl rfl) rfl (ix1 y)
      = ∑ k : Fin 1024, src (ix2 y k) := by
  refine (Ideal.multiReduction_add_single src 0x00000000#32 reduces_S512x1024_S512 (.inl rfl) rfl (ix1 y)).trans ?_
  exact Finset.sum_congr rfl fun k _ => congrArg src (lift_row y k)

/-- A row's lane maximum is the greatest entry over the bins, from `⊥`. -/
theorem rowmax_apply (src : FVec Ideal S512x1024 .f32) (y : Fin 512) :
    multiReduction (F := Ideal) .maximumf [1] S512 src 0xFF800000#32 reduces_S512x1024_S512 (.inl rfl) rfl (ix1 y)
      = (Finset.univ : Finset (Fin 1024)).fold max ⊥ (fun k => src (ix2 y k)) := by
  refine (Ideal.multiReduction_maximumf_single src 0xFF800000#32 reduces_S512x1024_S512 (.inl rfl) rfl (ix1 y)).trans ?_
  have hb : FloatOps.ofBits (F := Ideal) .f32 0xFF800000#32 = ⊥ := by simp [Ideal.ofBits, Ideal.ieee]
  have hf : (src ∘ reduces_S512x1024_S512.lift (ix1 y)) = fun k : Fin 1024 => src (ix2 y k) :=
    funext fun k => congrArg src (lift_row y k)
  rw [hb, hf]
  rfl

/-! ## The stored value from the score matrix -/

/-- The score matrix: the product of the block's user vectors with the item vectors, less the smoothing term of each bin. -/
def scoreMat (ub : FVec Ideal S512x16 .f32) (ep : FVec Ideal S1024x16 .f32) (lq : FVec Ideal S1x1024 .f32) : FVec Ideal S512x1024 .f32 :=
  subf (matmul (F := Ideal) dot_S512x16_S1024x16_S512x1024_1_1_0_0_n_n none ub
      (shapeCast S1024x16 ep shapeCasts_S1024x16_S1024x16) (constant (F := Ideal) S512x1024 .f32 0x00000000#32))
    (broadcastTo S512x1024 lq broadcasts_S1x1024_S512x1024)

theorem scoreMat_apply (ub : FVec Ideal S512x16 .f32) (ep : FVec Ideal S1024x16 .f32) (lq : FVec Ideal S1x1024 .f32)
    (y : Fin 512) (k : Fin 1024) :
    scoreMat ub ep lq (ix2 y k) = (∑ d : Fin 16, ub (ix2 y d) * ep (ix2 k d)) - lq (ix2 0 k) := by
  unfold scoreMat
  rw [subf_apply, shapeCast_self, matmul_sc_apply, broadcastTo_1b_ab_apply]

/-- What the body stores, as a function of the score matrix `s`, the counts `c` and the block's own ids: the row maximum
    plus the log of the count-weighted sum of the shifted exponentials, less the row's own score picked by a one-hot row. -/
def stored (s : FVec Ideal S512x1024 .f32) (c : FVec Ideal S1x1024 .f32) (ib : Vec Ideal S512x1 .i32) : FVec Ideal S512x1 .f32 :=
  have v11 : FVec Ideal S512 .f32 := multiReduction .maximumf [1] S512 s 0xFF800000#32 reduces_S512x1024_S512 (.inl rfl) rfl
  have v12 : FVec Ideal S512x1 .f32 := shapeCast S512x1 v11 shapeCasts_S512_S512x1
  have v13 : FVec Ideal S512x1024 .f32 := broadcastTo S512x1024 v12 broadcasts_S512x1_S512x1024
  have v14 : FVec Ideal S512x1024 .f32 := subf s v13
  have v15 : FVec Ideal S512x1024 .f32 := exp v14
  have v16 : FVec Ideal S512x1024 .f32 := broadcastTo S512x1024 c broadcasts_S1x1024_S512x1024
  have v17 : FVec Ideal S512x1024 .f32 := mulf v16 v15
  have v18 : FVec Ideal S512 .f32 := multiReduction .add [1] S512 v17 0x00000000#32 reduces_S512x1024_S512 (.inl rfl) rfl
  have v19 : FVec Ideal S512x1 .f32 := shapeCast S512x1 v18 shapeCasts_S512_S512x1
  have v20 : FVec Ideal S512x1 .f32 := log v19
  have v21 : FVec Ideal S512x1 .f32 := addf v12 v20
  have v23 : IVec S512x1024 32 := iota .tc S512x1024 32 [1] iota_S512x1024_d1_w32
  have v24 : IVec S512x1024 32 := broadcastTo S512x1024 ib broadcasts_S512x1_S512x1024
  have v25 : IVec S512x1024 1 := cmpi .eq v24 v23
  have v26 : IVec S512x1024 32 := extui 32 v25 natLt_1_32
  have v27 : FVec Ideal S512x1024 .f32 := sitofp .f32 v26
  have v28 : FVec Ideal S512x1024 .f32 := mulf s v27
  have v29 : FVec Ideal S512 .f32 := multiReduction .add [1] S512 v28 0x00000000#32 reduces_S512x1024_S512 (.inl rfl) rfl
  have v30 : FVec Ideal S512x1 .f32 := shapeCast S512x1 v29 shapeCasts_S512_S512x1
  subf v21 v30

set_option maxRecDepth 65536 in
theorem pay4_split (ub : Vec Ideal S512x16 .f32) (ep : Vec Ideal S1024x16 .f32) (c lq : Vec Ideal S1x1024 .f32)
    (ib : Vec Ideal S512x1 .i32) :
    k0_pay4 (F := Ideal) ub ep c lq ib = stored (scoreMat ub ep lq) c ib := rfl

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : ℕ} (p : CmpIPredicate) (a b : IVec s w) (i : s.Idx) : cmpi p a b i = IntOp.cmpi p (a i) (b i) := rfl

/-- The stored value at row `y`. -/
theorem stored_at (s : FVec Ideal S512x1024 .f32) (c : FVec Ideal S1x1024 .f32) (ib : Vec Ideal S512x1 .i32) (y : Fin 512) :
    stored s c ib (ix2 y 0)
      = ((Finset.univ : Finset (Fin 1024)).fold max ⊥ (fun k => s (ix2 y k))
          + Ideal.log (∑ k : Fin 1024, c (ix2 0 k) * Ideal.exp (s (ix2 y k)
              - (Finset.univ : Finset (Fin 1024)).fold max ⊥ (fun k => s (ix2 y k)))))
        - ∑ k : Fin 1024, s (ix2 y k) * hot (ib (ix2 y 0)) k.val := by
  unfold stored
  rw [subf_apply, addf_apply, log_apply, shapeCast_a_a1_apply, shapeCast_a_a1_apply, shapeCast_a_a1_apply,
    rowmax_apply, rowsum_apply, rowsum_apply]
  congr 1
  · congr 2
    refine Finset.sum_congr rfl fun k _ => ?_
    rw [mulf_apply, exp_apply, subf_apply, broadcastTo_1b_ab_apply, broadcastTo_a1_ab_apply, shapeCast_a_a1_apply, rowmax_apply]
  · refine Finset.sum_congr rfl fun k _ => ?_
    rw [mulf_apply, sitofp_apply, extui_apply, cmpi_apply, iota_single_apply, broadcastTo_a1_ab_apply]
    rfl

/-! ## The constants -/

/-- The word `0x3F000000` is one half. -/
theorem ofBits_half : Ideal.ofBits .f32 0x3F000000#32 = (((1 : ℝ) / 2 : ℝ) : EReal) := by
  simp [Ideal.ofBits, Ideal.ieee, -EReal.coe_mul]; norm_num

/-- The word `0x7149F2CA` is a real number. -/
theorem ofBits_big : ∃ b : ℝ, Ideal.ofBits .f32 0x7149F2CA#32 = (b : EReal) := by
  unfold Ideal.ofBits Ideal.ieee
  simp only []
  rw [if_neg (by decide), if_neg (by decide)]
  exact ⟨_, rfl⟩

/-! ## Maxima and sums of real numbers read as extended reals -/

/-- The greatest of finitely many real numbers, at least one, is a real number. -/
theorem fold_max_real {ι : Type} (a : ι → ℝ) (s : Finset ι) (hs : s.Nonempty) :
    ∃ m : ℝ, s.fold max (⊥ : EReal) (fun k => (a k : EReal)) = (m : EReal) := by
  classical
  induction s using Finset.induction_on with
  | empty => exact absurd hs (by simp)
  | insert b s hb ih =>
    rw [Finset.fold_insert hb]
    rcases s.eq_empty_or_nonempty with rfl | hne
    · exact ⟨a b, by rw [Finset.fold_empty]; exact max_eq_left bot_le⟩
    · obtain ⟨m, hm⟩ := ih hne
      exact ⟨max (a b) m, by rw [hm]; exact (EReal.coe_strictMono.monotone.map_max).symm⟩

/-- The stored value when the scores, the counts and the one-hot row are real numbers and the weighted sum is positive. -/
theorem stored_real (s : FVec Ideal S512x1024 .f32) (c : FVec Ideal S1x1024 .f32) (ib : Vec Ideal S512x1 .i32) (y : Fin 512)
    (a cnt w : Fin 1024 → ℝ)
    (hs : ∀ k, s (ix2 y k) = (a k : EReal)) (hc : ∀ k, c (ix2 0 k) = (cnt k : EReal))
    (hw : ∀ k : Fin 1024, hot (ib (ix2 y 0)) k.val = (w k : EReal))
    (hpos : ∀ m : ℝ, 0 < ∑ k, cnt k * Real.exp (a k - m)) :
    ∃ m : ℝ, stored s c ib (ix2 y 0)
      = (((m + Real.log (∑ k, cnt k * Real.exp (a k - m))) - ∑ k, a k * w k : ℝ) : EReal) := by
  have hfun : (fun k : Fin 1024 => s (ix2 y k)) = fun k => (a k : EReal) := funext hs
  obtain ⟨m, hm⟩ := fold_max_real a (Finset.univ : Finset (Fin 1024)) ⟨0, Finset.mem_univ _⟩
  refine ⟨m, ?_⟩
  rw [stored_at, hfun, hm]
  have e1 : ∀ k : Fin 1024, c (ix2 0 k) * Ideal.exp (s (ix2 y k) - (m : EReal))
      = ((cnt k * Real.exp (a k - m) : ℝ) : EReal) := fun k => by
    rw [hs k, hc k, ← EReal.coe_sub, Ideal.exp_coe, ← EReal.coe_mul]
  have e2 : ∀ k : Fin 1024, s (ix2 y k) * hot (ib (ix2 y 0)) k.val = ((a k * w k : ℝ) : EReal) := fun k => by
    rw [hs k, hw k, ← EReal.coe_mul]
  rw [Finset.sum_congr rfl fun k _ => e1 k, Finset.sum_congr rfl fun k _ => e2 k, ← coe_sum, ← coe_sum,
    Ideal.log_coe, if_neg (not_le.mpr (hpos m)), ← EReal.coe_add, ← EReal.coe_sub]

/-! ## On the domain -/

/-- An extended real that is a real number is its real part. -/
theorem eq_coe_toReal {x : EReal} (h : ∃ r : ℝ, x = (r : EReal)) : x = ((x.toReal : ℝ) : EReal) := by
  obtain ⟨r, rfl⟩ := h
  rw [EReal.toReal_coe]

theorem select_ofBool_true {α : Type} (a b : α) : Scalar.select (BitVec.ofBool true) a b = a := select_one a b
theorem select_ofBool_false {α : Type} (a b : α) : Scalar.select (BitVec.ofBool false) a b = b := select_zero a b

/-- The count of item number `n`, zero past the table. -/
def padCount (C : CArr) (n : ℕ) : ℝ := if h : n < 1000 then (C (ix1 ⟨n, h⟩)).toReal else 0

theorem item_val {E : EArr} {U : UArr} {C : CArr} {I : IArr} (hD : Dom E U C I) (j : Fin 4096) :
    (item I j).val = (I (ix2 j 0)).toNat := Nat.mod_eq_of_lt (hD.idx_lt j)

/-- The count of a sampled item is a positive real number. -/
theorem c_pos' {E : EArr} {U : UArr} {C : CArr} {I : IArr} (hD : Dom E U C I) (j : Fin 4096) :
    0 < (C (ix1 (item I j))).toReal := by
  have h := hD.c_pos j (item I j) (item_val hD j).symm
  obtain ⟨r, hr⟩ := hD.c_real (ix1 (item I j))
  rw [hr] at h ⊢
  rw [EReal.toReal_coe]
  exact EReal.coe_pos.mp h

/-- The total count is positive. -/
theorem total_pos {E : EArr} {U : UArr} {C : CArr} {I : IArr} (hD : Dom E U C I) : 0 < total C := by
  unfold total
  exact Finset.sum_pos' (fun k _ => EReal.toReal_nonneg (hD.c_nonneg _)) ⟨item I 0, Finset.mem_univ _, c_pos' hD 0⟩

/-- The padded row of counts sums to the total count. -/
theorem sum_cr {E : EArr} {U : UArr} {C : CArr} {I : IArr} (hD : Dom E U C I) (cr : FVec Ideal S1x1024 .f32)
    (hcr : ∀ k : Fin 1024, cr (ix2 0 k) = if h : k.val < 1000 then C (ix1 ⟨k.val, h⟩) else 0) :
    ∑ k : Fin 1024, cr (ix2 0 k) = ((total C : ℝ) : EReal) := by
  have e : ∀ k : Fin 1024, cr (ix2 0 k) = ((padCount C k.val : ℝ) : EReal) := fun k => by
    rw [hcr k]
    unfold padCount
    by_cases h : k.val < 1000
    · rw [dif_pos h, dif_pos h]
      exact eq_coe_toReal (hD.c_real _)
    · rw [dif_neg h, dif_neg h]
      exact EReal.coe_zero.symm
  rw [Finset.sum_congr rfl fun k _ => e k, ← coe_sum]
  refine congrArg Real.toEReal ?_
  rw [Fin.sum_univ_eq_sum_range (padCount C) 1024]
  unfold total
  have e' : ∑ k : Fin 1000, (C (ix1 k)).toReal = ∑ k : Fin 1000, padCount C k.val :=
    Finset.sum_congr rfl fun k _ => by
      unfold padCount
      rw [dif_pos k.isLt]
  rw [e', Fin.sum_univ_eq_sum_range (padCount C) 1000]
  symm
  refine Finset.sum_subset (Finset.range_mono (by norm_num : (1000 : ℕ) ≤ 1024)) fun n _ hn => ?_
  unfold padCount
  rw [dif_neg (by simpa using hn)]

/-! ## The counts of the bins -/

theorem one_le_count (I : IArr) (j : Fin 4096) : (1 : ℝ) ≤ Lse.count (bin I) (bin I j) := by
  unfold Lse.count
  exact Nat.one_le_cast.mpr (Finset.card_pos.mpr ⟨j, by simp⟩)

theorem exists_of_count (I : IArr) (k : Fin 1024) (h : (1 : ℝ) / 2 < Lse.count (bin I) k) : ∃ j, bin I j = k := by
  by_contra hne
  push Not at hne
  have h0 : (Finset.univ.filter fun j => bin I j = k) = ∅ := Finset.filter_eq_empty_iff.mpr fun j _ => hne j
  unfold Lse.count at h
  rw [h0, Finset.card_empty, Nat.cast_zero] at h
  linarith

/-! ## The smoothing term on the domain -/

section Smoothing
variable {E : EArr} {U : UArr} {C : CArr} {I : IArr} (hD : Dom E U C I)
  (If : Vec Ideal S4096x1 .i32) (cr : FVec Ideal S1x1024 .f32)
  (hIf : ∀ j : Fin 4096, If (ix2 j 0) = I (ix2 j 0))
  (hcr : ∀ k : Fin 1024, cr (ix2 0 k) = if h : k.val < 1000 then C (ix1 ⟨k.val, h⟩) else 0)
include hD hIf hcr

/-- At the bin of a batch column the smoothing term is the log of the item's frequency. -/
theorem lq_sampled (j : Fin 4096) :
    k0_pay3 (F := Ideal) If cr (ix2 0 (bin I j)) = ((Real.log ((C (ix1 (item I j))).toReal / total C) : ℝ) : EReal) := by
  have hk : (bin I j).val < 1000 := by rw [bin_val I hD.idx_lt j]; exact hD.idx_lt j
  have hitem : (⟨(bin I j).val, hk⟩ : Fin 1000) = item I j := Fin.ext (by
    show (bin I j).val = (item I j).val
    rw [bin_val I hD.idx_lt j, item_val hD j])
  rw [pay3_at, pay1_eq I hD.idx_lt If hIf, ofBits_half, sum_cr hD cr hcr, hcr, dif_pos hk, hitem,
    eq_coe_toReal (hD.c_real (ix1 (item I j)))]
  have hlt : (((1 : ℝ) / 2 : ℝ) : EReal) < ((Lse.count (bin I) (bin I j) : ℝ) : EReal) :=
    EReal.coe_lt_coe_iff.mpr (by have := one_le_count I j; linarith)
  show Scalar.select (BitVec.ofBool (decide (_ < _))) _ _ = _
  rw [decide_eq_true hlt, select_ofBool_true, Ideal.log_coe, Ideal.log_coe, if_neg (not_le.mpr (c_pos' hD j)),
    if_neg (not_le.mpr (total_pos hD)), ← EReal.coe_sub, EReal.toReal_coe, Real.log_div (c_pos' hD j).ne' (total_pos hD).ne']

/-- At every bin the smoothing term is a real number. -/
theorem lq_real (k : Fin 1024) : ∃ r : ℝ, k0_pay3 (F := Ideal) If cr (ix2 0 k) = (r : EReal) := by
  by_cases h : (1 : ℝ) / 2 < Lse.count (bin I) k
  · obtain ⟨j, rfl⟩ := exists_of_count I k h
    exact ⟨_, lq_sampled hD If cr hIf hcr j⟩
  · obtain ⟨b, hb⟩ := ofBits_big
    refine ⟨b, ?_⟩
    rw [pay3_at, pay1_eq I hD.idx_lt If hIf, ofBits_half, hb]
    have hlt : ¬ ((((1 : ℝ) / 2 : ℝ) : EReal) < ((Lse.count (bin I) k : ℝ) : EReal)) :=
      fun hh => h (EReal.coe_lt_coe_iff.mp hh)
    show Scalar.select (BitVec.ofBool (decide (_ < _))) _ _ = _
    rw [decide_eq_false hlt, select_ofBool_false]

end Smoothing

/-! ## The score matrix on the domain -/

section Scores
variable {E : EArr} {U : UArr} {C : CArr} {I : IArr} (hD : Dom E U C I)
  (ub : FVec Ideal S512x16 .f32) (ep : FVec Ideal S1024x16 .f32) (If : Vec Ideal S4096x1 .i32) (cr : FVec Ideal S1x1024 .f32)
  (i : Fin 4096) (y : Fin 512)
  (hub : ∀ d : Fin 16, ub (ix2 y d) = U (ix2 i d))
  (hep : ∀ (k : Fin 1024) (d : Fin 16), ep (ix2 k d) = if h : k.val < 1000 then E (ix2 ⟨k.val, h⟩ d) else 0)
  (hIf : ∀ j : Fin 4096, If (ix2 j 0) = I (ix2 j 0))
  (hcr : ∀ k : Fin 1024, cr (ix2 0 k) = if h : k.val < 1000 then C (ix1 ⟨k.val, h⟩) else 0)
include hD hub hep hIf hcr

/-- Every entry of the row's scores is a real number. -/
theorem score_real (k : Fin 1024) :
    ∃ r : ℝ, scoreMat ub ep (k0_pay3 (F := Ideal) If cr) (ix2 y k) = (r : EReal) := by
  obtain ⟨l, hl⟩ := lq_real hD If cr hIf hcr k
  have hepr : ∀ d : Fin 16, ∃ r : ℝ, ep (ix2 k d) = (r : EReal) := fun d => by
    rw [hep k d]
    by_cases h : k.val < 1000
    · rw [dif_pos h]; exact hD.e_real _
    · rw [dif_neg h]; exact ⟨0, EReal.coe_zero.symm⟩
  choose er her using hepr
  choose ur hur using fun d : Fin 16 => hD.u_real (ix2 i d)
  refine ⟨(∑ d : Fin 16, ur d * er d) - l, ?_⟩
  rw [scoreMat_apply, hl, EReal.coe_sub, coe_sum]
  refine congrArg (fun x : EReal => x - (l : EReal)) ?_
  refine Finset.sum_congr rfl fun d _ => ?_
  rw [hub d, hur d, her d, EReal.coe_mul]

/-- At the bin of a batch column the row's score is the specification's score against the column's item. -/
theorem score_item (j : Fin 4096) :
    scoreMat ub ep (k0_pay3 (F := Ideal) If cr) (ix2 y (bin I j)) = ((score E U C i (item I j) : ℝ) : EReal) := by
  have hk : (bin I j).val < 1000 := by rw [bin_val I hD.idx_lt j]; exact hD.idx_lt j
  have hitem : (⟨(bin I j).val, hk⟩ : Fin 1000) = item I j := Fin.ext (by
    show (bin I j).val = (item I j).val
    rw [bin_val I hD.idx_lt j, item_val hD j])
  rw [scoreMat_apply, lq_sampled hD If cr hIf hcr j]
  unfold score
  rw [EReal.coe_sub, coe_sum]
  refine congrArg (fun x : EReal => x - _) ?_
  refine Finset.sum_congr rfl fun d _ => ?_
  rw [hub d, hep _ d, dif_pos hk, hitem, EReal.coe_mul, ← eq_coe_toReal (hD.u_real _), ← eq_coe_toReal (hD.e_real _)]

end Scores

end Row

open Row

/-! ## The stored value is the loss -/

theorem pay4_eq (E : EArr) (U : UArr) (C : CArr) (I : IArr) (hD : Dom E U C I)
    (ub : Vec Ideal S512x16 .f32) (ep : Vec Ideal S1024x16 .f32) (If : Vec Ideal S4096x1 .i32)
    (cr : Vec Ideal S1x1024 .f32) (ib : Vec Ideal S512x1 .i32) (t : Fin 8)
    (hub : ∀ (y : Fin 512) (d : Fin 16), ub (ix2 y d) = U (ix2 ⟨512 * t.val + y.val, by omega⟩ d))
    (hep : ∀ (k : Fin 1024) (d : Fin 16), ep (ix2 k d) = if h : k.val < 1000 then E (ix2 ⟨k.val, h⟩ d) else 0)
    (hIf : ∀ j : Fin 4096, If (ix2 j 0) = I (ix2 j 0))
    (hcr : ∀ k : Fin 1024, cr (ix2 0 k) = if h : k.val < 1000 then C (ix1 ⟨k.val, h⟩) else 0)
    (hib : ∀ y : Fin 512, ib (ix2 y 0) = I (ix2 ⟨512 * t.val + y.val, by omega⟩ 0))
    (y : Fin 512) :
    k0_pay4 (F := Ideal) ub ep (k0_pay2 (F := Ideal) If) (k0_pay3 (F := Ideal) If cr) ib (ix2 y 0)
      = loss E U C I ⟨512 * t.val + y.val, by omega⟩ := by
  have hsr := score_real hD ub ep If cr ⟨512 * t.val + y.val, by omega⟩ y (hub y) hep hIf hcr
  choose a ha using hsr
  have ha_item : ∀ j : Fin 4096, a (bin I j) = score E U C ⟨512 * t.val + y.val, by omega⟩ (item I j) := fun j =>
    EReal.coe_eq_coe_iff.mp ((ha _).symm.trans (score_item hD ub ep If cr ⟨512 * t.val + y.val, by omega⟩ y (hub y) hep hIf hcr j))
  have hc : ∀ k : Fin 1024, k0_pay2 (F := Ideal) If (ix2 0 k) = ((Lse.count (bin I) k : ℝ) : EReal) := fun k => by
    unfold k0_pay2
    rw [shapeCast_self]
    exact pay1_eq I hD.idx_lt If hIf k
  have hw : ∀ k : Fin 1024, hot (ib (ix2 y 0)) k.val
      = (((if bin I ⟨512 * t.val + y.val, by omega⟩ = k then (1 : ℝ) else 0) : ℝ) : EReal) := fun k => by
    rw [hot_eq _ _ (by have := k.isLt; omega), hib y]
    congr 1
    refine if_congr ?_ rfl rfl
    rw [← bin_val I hD.idx_lt]
    exact (Fin.ext_iff).symm
  have hpos : ∀ m : ℝ, 0 < ∑ k, Lse.count (bin I) k * Real.exp (a k - m) := fun m =>
    Finset.sum_pos' (fun k _ => mul_nonneg (Nat.cast_nonneg _) (Real.exp_pos _).le)
      ⟨bin I ⟨512 * t.val + y.val, by omega⟩, Finset.mem_univ _,
        mul_pos (by have := one_le_count I ⟨512 * t.val + y.val, by omega⟩; linarith) (Real.exp_pos _)⟩
  obtain ⟨m, hm⟩ := stored_real _ _ ib y a (Lse.count (bin I))
    (fun k => if bin I ⟨512 * t.val + y.val, by omega⟩ = k then (1 : ℝ) else 0) ha hc hw hpos
  rw [pay4_split, hm]
  unfold loss
  refine congrArg _ ?_
  rw [Lse.kernel_form (bin I) a (Lse.count (bin I)) (fun _ => rfl) m ⟨512 * t.val + y.val, by omega⟩, ha_item]
  have hsum : (∑ j, Real.exp (a (bin I j))) = ∑ j, Real.exp (score E U C ⟨512 * t.val + y.val, by omega⟩ (item I j)) :=
    Finset.sum_congr rfl fun j _ => by rw [ha_item j]
  rw [hsum]

end Cert.KernelIdeal.Point

end
-- ==== Proof.KLoss.lean ====
/-
  Every entry of the kernel's result array, after the run, is the loss of its batch row. Batch row `j` lies in block
  `j / 512` of the output at row `j % 512` of the block; what that point stored there is the body's value computed from
  the point's blocks of user vectors and item ids, the padded embedding table, and the two rows the first point built
  from the whole column of ids and the padded counts; and that value, on the domain, is the loss.
-/
import proofs.«139335_g11544872092195_cont_week2b_396_3_alg».proof.Proof.KFinal
import proofs.«139335_g11544872092195_cont_week2b_396_3_alg».proof.Proof.KernelPoint

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.SoftmaxSpec

variable (m : (ℓ : Loc nD τ sig) → Buf (Elt Ideal) ℓ) (c : Dev nD)

/-- The result array at batch row `512 q + r`, row `r` of block `q`. -/
theorem out_eq_loss_at (hD : Dom (m ((c : Thread nD τ).loc main_arg0)) (m ((c : Thread nD τ).loc main_arg1)) (m ((c : Thread nD τ).loc main_arg2)) (m ((c : Thread nD τ).loc main_arg3))) (q : ℕ) (hq : q < 8) (r : ℕ) (hr : r < 512) (h : 512 * q + r < 4096) :
    ((dats (F := Ideal) m 0 c).arrAt 5 cfg0.N : S4096x1.Idx → EReal) (ix2 ⟨512 * q + r, h⟩ 0) = loss (m ((c : Thread nD τ).loc main_arg0)) (m ((c : Thread nD τ).loc main_arg1)) (m ((c : Thread nD τ).loc main_arg2)) (m ((c : Thread nD τ).loc main_arg3)) ⟨512 * q + r, h⟩ := by
  have hqN : q < cfg0.N := by show q < grid0.N; rw [N_0]; exact hq
  refine (out_point m c ⟨q, hqN⟩ ⟨r, hr⟩ h).trans ?_
  exact Cert.KernelIdeal.Point.pay4_eq (m ((c : Thread nD τ).loc main_arg0)) (m ((c : Thread nD τ).loc main_arg1)) (m ((c : Thread nD τ).loc main_arg2)) (m ((c : Thread nD τ).loc main_arg3)) hD
    (iblk m c 0 ⟨q, hqN⟩) (iblk m c 1 ⟨q, hqN⟩) (iblk m c 2 t0) (cntRow (iblk m c 4 t0)) (iblk m c 3 ⟨q, hqN⟩) ⟨q, hq⟩
    (fun y d => iblk0_apply m c ⟨q, hqN⟩ y d _) (fun k d => iblk1_apply m c ⟨q, hqN⟩ k d) (fun j => iblk2_apply m c t0 j)
    (fun k => cntRow4_apply m c t0 k) (fun y => iblk3_apply m c ⟨q, hqN⟩ y _) ⟨r, hr⟩

/-- Every entry of the result array is the loss of its batch row. -/
theorem out_eq_loss (hD : Dom (m ((c : Thread nD τ).loc main_arg0)) (m ((c : Thread nD τ).loc main_arg1)) (m ((c : Thread nD τ).loc main_arg2)) (m ((c : Thread nD τ).loc main_arg3))) (j : Fin 4096) :
    ((dats (F := Ideal) m 0 c).arrAt 5 cfg0.N : S4096x1.Idx → EReal) (ix2 j 0)
      = loss (m ((c : Thread nD τ).loc main_arg0)) (m ((c : Thread nD τ).loc main_arg1)) (m ((c : Thread nD τ).loc main_arg2)) (m ((c : Thread nD τ).loc main_arg3)) j := by
  have hj := j.isLt
  have key := out_eq_loss_at m c hD (j.val / 512) (by omega) (j.val % 512) (by omega) (by omega)
  have e : (⟨512 * (j.val / 512) + j.val % 512, by omega⟩ : Fin 4096) = j :=
    Fin.ext (by show 512 * (j.val / 512) + j.val % 512 = j.val; omega)
  rw [e] at key
  exact key

end Cert.KernelIdeal.Hand

end
-- ==== Proof.RefRun.lean ====
/-
  The reference program's run. Its @main is a straight line of 86 host operations once its three outlined
  functions (two index-clamped gathers, each with a nested select, and a row-wise log-softmax) are unfolded at
  their calls: the list below, in program order, each callee's operations over the buffers of its call. Every weakly
  fair execution terminates with each buffer at the fold of the operations' results over the launch contents; the
  result buffer then holds the composed pure term of the four arguments, and the arguments are unchanged.
-/
import proofs.«139335_g11544872092195_cont_week2b_396_3_alg».proof.Proof.Gen.ReferenceIdeal
import proofs.«139335_g11544872092195_cont_week2b_396_3_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's 86 operations in order, the three calls (and the select nested in each gather) unfolded. -/
abbrev ops : List (HloOp τ sig (Elt F)) :=
  [ StableHlo.nullary main_cst (constant S_ .f32 0x3F800000#32),
    StableHlo.unary main_cst main_v0 (broadcastInDim S4096x16 ![] bcast_S_S4096x16 : (⟨S_, .f32⟩ : BufTy).Contents (Elt F) → (⟨S4096x16, .f32⟩ : BufTy).Contents (Elt F)),
    StableHlo.binary main_arg1 main_v0 main_v1 (Host.divf : (⟨S4096x16, .f32⟩ : BufTy).Contents (Elt F) → (⟨S4096x16, .f32⟩ : BufTy).Contents (Elt F) → (⟨S4096x16, .f32⟩ : BufTy).Contents (Elt F)),
    StableHlo.reshape main_arg3 main_v2 rfl shapeCasts_S4096x1_S4096,
    StableHlo.TRef.nullary main_call0.c (constantI S_ 32 0#32),
    StableHlo.TRef.unary main_call0.c main_call0.v0 (broadcastInDim S4096 ![] bcast_S_S4096),
    StableHlo.TRef.binary (.of main_v2 : StableHlo.TRef sig ⟨S4096, .i32⟩) main_call0.v0 main_call0.v1 (cmpi .slt),
    StableHlo.TRef.nullary main_call0.c_0 (constantI S_ 32 1000#32),
    StableHlo.TRef.unary main_call0.c_0 main_call0.v2 (broadcastInDim S4096 ![] bcast_S_S4096),
    StableHlo.TRef.binary (.of main_v2 : StableHlo.TRef sig ⟨S4096, .i32⟩) main_call0.v2 main_call0.v3 addi,
    StableHlo.TRef.ternary main_call0.v1 main_call0.v3 (.of main_v2 : StableHlo.TRef sig ⟨S4096, .i32⟩) main_call0.call0.v0 select,
    StableHlo.TRef.unary main_call0.call0.v0 main_call0.v5 (broadcastInDim S4096x1 ![0] bcast_S4096_S4096x1_0),
    StableHlo.TRef.nullary main_call0.c_1 (constantI S1 32 999#32),
    StableHlo.TRef.nullary main_call0.c_2 (constantI S_ 32 0#32),
    StableHlo.TRef.unary main_call0.c_2 main_call0.v6 (broadcastInDim S4096x1 ![] bcast_S_S4096x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S4096x1 ![0, 1] bcast_S1x1_S4096x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x1_S4096_d1 h_S_),
    StableHlo.TRef.binary (.of main_arg0 : StableHlo.TRef sig ⟨S1000x16, .f32⟩) main_call0.v5 main_call0.v13 (fun x i => Host.gather gather_S1000x16_S4096x1_S4096x16_1_0_n_n_0_1_116 x i),
    StableHlo.TRef.unary main_call0.v12 main_call0.v14 (broadcastInDim S4096x16 ![0] bcast_S4096_S4096x16_0),
    StableHlo.TRef.nullary main_call0.cst (constant S_ .f32 0x7FC00000#32),
    StableHlo.TRef.unary main_call0.cst main_call0.v15 (broadcastInDim S4096x16 ![] bcast_S_S4096x16),
    StableHlo.TRef.ternary main_call0.v14 main_call0.v13 main_call0.v15 main_call0.v16 select,
    StableHlo.unary main_v3 main_v4 ((transpose S16x4096 [1, 0] · transposes_S4096x16_S16x4096_1_0) : (⟨S4096x16, .f32⟩ : BufTy).Contents (Elt F) → (⟨S16x4096, .f32⟩ : BufTy).Contents (Elt F)),
    StableHlo.binary main_v1 main_v4 main_v5 ((fun l r => Host.dotGeneral dot_S4096x16_S16x4096_S4096x4096_1_0_0_1_n_n none l r) : (⟨S4096x16, .f32⟩ : BufTy).Contents (Elt F) → (⟨S16x4096, .f32⟩ : BufTy).Contents (Elt F) → (⟨S4096x4096, .f32⟩ : BufTy).Contents (Elt F)),
    StableHlo.nullary main_cst_0 (constant S_ .f32 0x00000000#32),
    StableHlo.binary main_arg2 main_cst_0 main_v6 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    StableHlo.unary main_v6 main_v7 (broadcastInDim S1000 ![] bcast_S_S1000 : (⟨S_, .f32⟩ : BufTy).Contents (Elt F) → (⟨S1000, .f32⟩ : BufTy).Contents (Elt F)),
    StableHlo.binary main_arg2 main_v7 main_v8 (Host.divf : (⟨S1000, .f32⟩ : BufTy).Contents (Elt F) → (⟨S1000, .f32⟩ : BufTy).Contents (Elt F) → (⟨S1000, .f32⟩ : BufTy).Contents (Elt F)),
    StableHlo.TRef.nullary main_call1.c (constantI S_ 32 0#32),
    StableHlo.TRef.unary main_call1.c main_call1.v0 (broadcastInDim S4096 ![] bcast_S_S4096),
    StableHlo.TRef.binary (.of main_v2 : StableHlo.TRef sig ⟨S4096, .i32⟩) main_call1.v0 main_call1.v1 (cmpi .slt),
    StableHlo.TRef.nullary main_call1.c_0 (constantI S_ 32 1000#32),
    StableHlo.TRef.unary main_call1.c_0 main_call1.v2 (broadcastInDim S4096 ![] bcast_S_S4096),
    StableHlo.TRef.binary (.of main_v2 : StableHlo.TRef sig ⟨S4096, .i32⟩) main_call1.v2 main_call1.v3 addi,
    StableHlo.TRef.ternary main_call1.v1 main_call1.v3 (.of main_v2 : StableHlo.TRef sig ⟨S4096, .i32⟩) main_call1.call0.v0 select,
    StableHlo.TRef.unary main_call1.call0.v0 main_call1.v5 (broadcastInDim S4096x1 ![0] bcast_S4096_S4096x1_0),
    StableHlo.TRef.nullary main_call1.c_1 (constantI S1 32 999#32),
    StableHlo.TRef.nullary main_call1.c_2 (constantI S_ 32 0#32),
    StableHlo.TRef.unary main_call1.c_2 main_call1.v6 (broadcastInDim S4096x1 ![] bcast_S_S4096x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S4096x1 ![0, 1] bcast_S1x1_S4096x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4096x1_S4096_d1 h_S_),
    StableHlo.TRef.binary (.of main_v8 : StableHlo.TRef sig ⟨S1000, .f32⟩) main_call1.v5 main_call1.v13 (fun x i => Host.gather gather_S1000_S4096x1_S4096_n_0_n_n_0_1_1 x i),
    StableHlo.TRef.nullary main_call1.cst (constant S_ .f32 0x7FC00000#32),
    StableHlo.TRef.unary main_call1.cst main_call1.v14 (broadcastInDim S4096 ![] bcast_S_S4096),
    StableHlo.TRef.ternary main_call1.v12 main_call1.v13 main_call1.v14 main_call1.v15 select,
    StableHlo.unary main_v9 main_v10 (Host.log : (⟨S4096, .f32⟩ : BufTy).Contents (Elt F) → (⟨S4096, .f32⟩ : BufTy).Contents (Elt F)),
    StableHlo.reshape main_v10 main_v11 rfl shapeCasts_S4096_S1x4096,
    StableHlo.unary main_v11 main_v12 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v5 main_v12 main_v13 (subf : (⟨S4096x4096, .f32⟩ : BufTy).Contents (Elt F) → (⟨S4096x4096, .f32⟩ : BufTy).Contents (Elt F) → (⟨S4096x4096, .f32⟩ : BufTy).Contents (Elt F)),
    StableHlo.nullary main_v14 (iotaInDim S4096x4096 32 0),
    StableHlo.nullary main_v15 (iotaInDim S4096x4096 32 1),
    StableHlo.nullary main_c (constantI S_ 32 0#32),
    StableHlo.unary main_c main_v16 (broadcastInDim S4096x4096 ![] bcast_S_S4096x4096 : (⟨S_, .i32⟩ : BufTy).Contents (Elt F) → (⟨S4096x4096, .i32⟩ : BufTy).Contents (Elt F)),
    StableHlo.binary main_v14 main_v16 main_v17 (addi : (⟨S4096x4096, .i32⟩ : BufTy).Contents (Elt F) → (⟨S4096x4096, .i32⟩ : BufTy).Contents (Elt F) → (⟨S4096x4096, .i32⟩ : BufTy).Contents (Elt F)),
    StableHlo.binary main_v17 main_v15 main_v18 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v18 main_v19 (uitofp .f32 : (⟨S4096x4096, .i1⟩ : BufTy).Contents (Elt F) → (⟨S4096x4096, .f32⟩ : BufTy).Contents (Elt F)),
    StableHlo.TRef.nullary main_call2.cst (constant S_ .f32 0xFF800000#32),
    StableHlo.TRef.binary (.of main_v13 : StableHlo.TRef sig ⟨S4096x4096, .f32⟩) main_call2.cst main_call2.v0 (fun x v => Host.reduce FloatOps.maximumf x v reducesTo_S4096x4096_S4096_d1 h_S_),
    StableHlo.TRef.nullary main_call2.cst_0 (constant S_ .f32 0xFF800000#32),
    StableHlo.TRef.unary main_call2.cst_0 main_call2.v1 (broadcastInDim S4096 ![] bcast_S_S4096),
    StableHlo.TRef.binary main_call2.v1 main_call2.v0 main_call2.v2 maximumf,
    StableHlo.TRef.unary main_call2.v2 main_call2.v3 (broadcastInDim S4096x1 ![0] bcast_S4096_S4096x1_0),
    StableHlo.TRef.unary main_call2.v3 main_call2.v4 (broadcastInDim S4096x4096 ![0, 1] bcast_S4096x1_S4096x4096_0_1),
    StableHlo.TRef.binary (.of main_v13 : StableHlo.TRef sig ⟨S4096x4096, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S4096x4096_S4096_d1 h_S_),
    StableHlo.TRef.unary main_call2.v7 main_call2.v8 (broadcastInDim S4096x1 ![0] bcast_S4096_S4096x1_0),
    StableHlo.TRef.unary main_call2.v8 main_call2.v9 Host.log,
    StableHlo.TRef.unary main_call2.v9 main_call2.v10 (broadcastInDim S4096x4096 ![0, 1] bcast_S4096x1_S4096x4096_0_1),
    StableHlo.TRef.binary main_call2.v5 main_call2.v10 main_call2.v11 subf,
    StableHlo.binary main_v19 main_v20 main_v21 (mulf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x00000000#32),
    StableHlo.binary main_v21 main_cst_1 main_v22 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v22 main_v23 (Host.negf : (⟨S4096, .f32⟩ : BufTy).Contents (Elt F) → (⟨S4096, .f32⟩ : BufTy).Contents (Elt F)),
    StableHlo.unary main_v23 main_v24 (broadcastInDim S4096x1 ![0] bcast_S4096_S4096x1_0 : (⟨S4096, .f32⟩ : BufTy).Contents (Elt F) → (⟨S4096x1, .f32⟩ : BufTy).Contents (Elt F)) ]

/-- The first stretch: the user vectors, the ids, and the gather of the item vectors (through %3). -/
abbrev opsA : List (HloOp τ sig (Elt F)) :=
  [ StableHlo.nullary main_cst (constant S_ .f32 0x3F800000#32),
    StableHlo.unary main_cst main_v0 (broadcastInDim S4096x16 ![] bcast_S_S4096x16 : (⟨S_, .f32⟩ : BufTy).Contents (Elt F) → (⟨S4096x16, .f32⟩ : BufTy).Contents (Elt F)),
    StableHlo.binary main_arg1 main_v0 main_v1 (Host.divf : (⟨S4096x16, .f32⟩ : BufTy).Contents (Elt F) → (⟨S4096x16, .f32⟩ : BufTy).Contents (Elt F) → (⟨S4096x16, .f32⟩ : BufTy).Contents (Elt F)),
    StableHlo.reshape main_arg3 main_v2 rfl shapeCasts_S4096x1_S4096,
    StableHlo.TRef.nullary main_call0.c (constantI S_ 32 0#32),
    StableHlo.TRef.unary main_call0.c main_call0.v0 (broadcastInDim S4096 ![] bcast_S_S4096),
    StableHlo.TRef.binary (.of main_v2 : StableHlo.TRef sig ⟨S4096, .i32⟩) main_call0.v0 main_call0.v1 (cmpi .slt),
    StableHlo.TRef.nullary main_call0.c_0 (constantI S_ 32 1000#32),
    StableHlo.TRef.unary main_call0.c_0 main_call0.v2 (broadcastInDim S4096 ![] bcast_S_S4096),
    StableHlo.TRef.binary (.of main_v2 : StableHlo.TRef sig ⟨S4096, .i32⟩) main_call0.v2 main_call0.v3 addi,
    StableHlo.TRef.ternary main_call0.v1 main_call0.v3 (.of main_v2 : StableHlo.TRef sig ⟨S4096, .i32⟩) main_call0.call0.v0 select,
    StableHlo.TRef.unary main_call0.call0.v0 main_call0.v5 (broadcastInDim S4096x1 ![0] bcast_S4096_S4096x1_0),
    StableHlo.TRef.nullary main_call0.c_1 (constantI S1 32 999#32),
    StableHlo.TRef.nullary main_call0.c_2 (constantI S_ 32 0#32),
    StableHlo.TRef.unary main_call0.c_2 main_call0.v6 (broadcastInDim S4096x1 ![] bcast_S_S4096x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S4096x1 ![0, 1] bcast_S1x1_S4096x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x1_S4096_d1 h_S_),
    StableHlo.TRef.binary (.of main_arg0 : StableHlo.TRef sig ⟨S1000x16, .f32⟩) main_call0.v5 main_call0.v13 (fun x i => Host.gather gather_S1000x16_S4096x1_S4096x16_1_0_n_n_0_1_116 x i),
    StableHlo.TRef.unary main_call0.v12 main_call0.v14 (broadcastInDim S4096x16 ![0] bcast_S4096_S4096x16_0),
    StableHlo.TRef.nullary main_call0.cst (constant S_ .f32 0x7FC00000#32),
    StableHlo.TRef.unary main_call0.cst main_call0.v15 (broadcastInDim S4096x16 ![] bcast_S_S4096x16),
    StableHlo.TRef.ternary main_call0.v14 main_call0.v13 main_call0.v15 main_call0.v16 select ]

/-- The second stretch: the logits less the log-frequencies, and the identity matrix (%4 through %19). -/
abbrev opsB : List (HloOp τ sig (Elt F)) :=
  [ StableHlo.unary main_v3 main_v4 ((transpose S16x4096 [1, 0] · transposes_S4096x16_S16x4096_1_0) : (⟨S4096x16, .f32⟩ : BufTy).Contents (Elt F) → (⟨S16x4096, .f32⟩ : BufTy).Contents (Elt F)),
    StableHlo.binary main_v1 main_v4 main_v5 ((fun l r => Host.dotGeneral dot_S4096x16_S16x4096_S4096x4096_1_0_0_1_n_n none l r) : (⟨S4096x16, .f32⟩ : BufTy).Contents (Elt F) → (⟨S16x4096, .f32⟩ : BufTy).Contents (Elt F) → (⟨S4096x4096, .f32⟩ : BufTy).Contents (Elt F)),
    StableHlo.nullary main_cst_0 (constant S_ .f32 0x00000000#32),
    StableHlo.binary main_arg2 main_cst_0 main_v6 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    StableHlo.unary main_v6 main_v7 (broadcastInDim S1000 ![] bcast_S_S1000 : (⟨S_, .f32⟩ : BufTy).Contents (Elt F) → (⟨S1000, .f32⟩ : BufTy).Contents (Elt F)),
    StableHlo.binary main_arg2 main_v7 main_v8 (Host.divf : (⟨S1000, .f32⟩ : BufTy).Contents (Elt F) → (⟨S1000, .f32⟩ : BufTy).Contents (Elt F) → (⟨S1000, .f32⟩ : BufTy).Contents (Elt F)),
    StableHlo.TRef.nullary main_call1.c (constantI S_ 32 0#32),
    StableHlo.TRef.unary main_call1.c main_call1.v0 (broadcastInDim S4096 ![] bcast_S_S4096),
    StableHlo.TRef.binary (.of main_v2 : StableHlo.TRef sig ⟨S4096, .i32⟩) main_call1.v0 main_call1.v1 (cmpi .slt),
    StableHlo.TRef.nullary main_call1.c_0 (constantI S_ 32 1000#32),
    StableHlo.TRef.unary main_call1.c_0 main_call1.v2 (broadcastInDim S4096 ![] bcast_S_S4096),
    StableHlo.TRef.binary (.of main_v2 : StableHlo.TRef sig ⟨S4096, .i32⟩) main_call1.v2 main_call1.v3 addi,
    StableHlo.TRef.ternary main_call1.v1 main_call1.v3 (.of main_v2 : StableHlo.TRef sig ⟨S4096, .i32⟩) main_call1.call0.v0 select,
    StableHlo.TRef.unary main_call1.call0.v0 main_call1.v5 (broadcastInDim S4096x1 ![0] bcast_S4096_S4096x1_0),
    StableHlo.TRef.nullary main_call1.c_1 (constantI S1 32 999#32),
    StableHlo.TRef.nullary main_call1.c_2 (constantI S_ 32 0#32),
    StableHlo.TRef.unary main_call1.c_2 main_call1.v6 (broadcastInDim S4096x1 ![] bcast_S_S4096x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S4096x1 ![0, 1] bcast_S1x1_S4096x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4096x1_S4096_d1 h_S_),
    StableHlo.TRef.binary (.of main_v8 : StableHlo.TRef sig ⟨S1000, .f32⟩) main_call1.v5 main_call1.v13 (fun x i => Host.gather gather_S1000_S4096x1_S4096_n_0_n_n_0_1_1 x i),
    StableHlo.TRef.nullary main_call1.cst (constant S_ .f32 0x7FC00000#32),
    StableHlo.TRef.unary main_call1.cst main_call1.v14 (broadcastInDim S4096 ![] bcast_S_S4096),
    StableHlo.TRef.ternary main_call1.v12 main_call1.v13 main_call1.v14 main_call1.v15 select,
    StableHlo.unary main_v9 main_v10 (Host.log : (⟨S4096, .f32⟩ : BufTy).Contents (Elt F) → (⟨S4096, .f32⟩ : BufTy).Contents (Elt F)),
    StableHlo.reshape main_v10 main_v11 rfl shapeCasts_S4096_S1x4096,
    StableHlo.unary main_v11 main_v12 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v5 main_v12 main_v13 (subf : (⟨S4096x4096, .f32⟩ : BufTy).Contents (Elt F) → (⟨S4096x4096, .f32⟩ : BufTy).Contents (Elt F) → (⟨S4096x4096, .f32⟩ : BufTy).Contents (Elt F)),
    StableHlo.nullary main_v14 (iotaInDim S4096x4096 32 0),
    StableHlo.nullary main_v15 (iotaInDim S4096x4096 32 1),
    StableHlo.nullary main_c (constantI S_ 32 0#32),
    StableHlo.unary main_c main_v16 (broadcastInDim S4096x4096 ![] bcast_S_S4096x4096 : (⟨S_, .i32⟩ : BufTy).Contents (Elt F) → (⟨S4096x4096, .i32⟩ : BufTy).Contents (Elt F)),
    StableHlo.binary main_v14 main_v16 main_v17 (addi : (⟨S4096x4096, .i32⟩ : BufTy).Contents (Elt F) → (⟨S4096x4096, .i32⟩ : BufTy).Contents (Elt F) → (⟨S4096x4096, .i32⟩ : BufTy).Contents (Elt F)),
    StableHlo.binary main_v17 main_v15 main_v18 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v18 main_v19 (uitofp .f32 : (⟨S4096x4096, .i1⟩ : BufTy).Contents (Elt F) → (⟨S4096x4096, .f32⟩ : BufTy).Contents (Elt F)) ]

/-- The last stretch: the row-wise log-softmax and the negated diagonal (%20 through %24). -/
abbrev opsC : List (HloOp τ sig (Elt F)) :=
  [ StableHlo.TRef.nullary main_call2.cst (constant S_ .f32 0xFF800000#32),
    StableHlo.TRef.binary (.of main_v13 : StableHlo.TRef sig ⟨S4096x4096, .f32⟩) main_call2.cst main_call2.v0 (fun x v => Host.reduce FloatOps.maximumf x v reducesTo_S4096x4096_S4096_d1 h_S_),
    StableHlo.TRef.nullary main_call2.cst_0 (constant S_ .f32 0xFF800000#32),
    StableHlo.TRef.unary main_call2.cst_0 main_call2.v1 (broadcastInDim S4096 ![] bcast_S_S4096),
    StableHlo.TRef.binary main_call2.v1 main_call2.v0 main_call2.v2 maximumf,
    StableHlo.TRef.unary main_call2.v2 main_call2.v3 (broadcastInDim S4096x1 ![0] bcast_S4096_S4096x1_0),
    StableHlo.TRef.unary main_call2.v3 main_call2.v4 (broadcastInDim S4096x4096 ![0, 1] bcast_S4096x1_S4096x4096_0_1),
    StableHlo.TRef.binary (.of main_v13 : StableHlo.TRef sig ⟨S4096x4096, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S4096x4096_S4096_d1 h_S_),
    StableHlo.TRef.unary main_call2.v7 main_call2.v8 (broadcastInDim S4096x1 ![0] bcast_S4096_S4096x1_0),
    StableHlo.TRef.unary main_call2.v8 main_call2.v9 Host.log,
    StableHlo.TRef.unary main_call2.v9 main_call2.v10 (broadcastInDim S4096x4096 ![0, 1] bcast_S4096x1_S4096x4096_0_1),
    StableHlo.TRef.binary main_call2.v5 main_call2.v10 main_call2.v11 subf,
    StableHlo.binary main_v19 main_v20 main_v21 (mulf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x00000000#32),
    StableHlo.binary main_v21 main_cst_1 main_v22 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v22 main_v23 (Host.negf : (⟨S4096, .f32⟩ : BufTy).Contents (Elt F) → (⟨S4096, .f32⟩ : BufTy).Contents (Elt F)),
    StableHlo.unary main_v23 main_v24 (broadcastInDim S4096x1 ![0] bcast_S4096_S4096x1_0 : (⟨S4096, .f32⟩ : BufTy).Contents (Elt F) → (⟨S4096x1, .f32⟩ : BufTy).Contents (Elt F)) ]

/-- @main is that straight line: each call is its callee's body at the call's buffers, and sequencing in the free
    program monad reassociates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., reshape_bufs_sub .., unary_bufs_sub .., binary_bufs_sub .., nullary_bufs_sub .., nullary_bufs_sub .., nullary_bufs_sub .., unary_bufs_sub .., binary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., unary_bufs_sub .., unary_bufs_sub ..⟩

/-- Every weakly fair execution of @main terminates, each TensorCore buffer at the operations' fold over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! The transports of a typed reference: inverse to each other, and the identity at the literal references where a call's
    argument or result meets an operation of @main. -/
theorem ofBuf_toBuf {Val : EltTy → Type} {T : BufTy} (x : TRef sig T) (v : T.Contents Val) : x.ofBuf (x.toBuf v) = v := by
  obtain ⟨r, h, a, b⟩ := x
  subst h
  rfl
theorem ofBuf_main_arg0 {Val : EltTy → Type} (p1 p2 p3) (v : (⟨S1000x16, .f32⟩ : BufTy).Contents Val) :
    (TRef.of (T := ⟨S1000x16, .f32⟩) main_arg0 p1 p2 p3).ofBuf v = v := rfl
theorem ofBuf_main_v2 {Val : EltTy → Type} (p1 p2 p3) (v : (⟨S4096, .i32⟩ : BufTy).Contents Val) :
    (TRef.of (T := ⟨S4096, .i32⟩) main_v2 p1 p2 p3).ofBuf v = v := rfl
theorem ofBuf_main_v8 {Val : EltTy → Type} (p1 p2 p3) (v : (⟨S1000, .f32⟩ : BufTy).Contents Val) :
    (TRef.of (T := ⟨S1000, .f32⟩) main_v8 p1 p2 p3).ofBuf v = v := rfl
theorem ofBuf_main_v13 {Val : EltTy → Type} (p1 p2 p3) (v : (⟨S4096x4096, .f32⟩ : BufTy).Contents Val) :
    (TRef.of (T := ⟨S4096x4096, .f32⟩) main_v13 p1 p2 p3).ofBuf v = v := rfl
theorem toBuf_main_v3 {Val : EltTy → Type} (p1 p2 p3) (v : (⟨S4096x16, .f32⟩ : BufTy).Contents Val) :
    (TRef.of (T := ⟨S4096x16, .f32⟩) main_v3 p1 p2 p3).toBuf v = v := rfl
theorem toBuf_main_v9 {Val : EltTy → Type} (p1 p2 p3) (v : (⟨S4096, .f32⟩ : BufTy).Contents Val) :
    (TRef.of (T := ⟨S4096, .f32⟩) main_v9 p1 p2 p3).toBuf v = v := rfl
theorem toBuf_main_v20 {Val : EltTy → Type} (p1 p2 p3) (v : (⟨S4096x4096, .f32⟩ : BufTy).Contents Val) :
    (TRef.of (T := ⟨S4096x4096, .f32⟩) main_v20 p1 p2 p3).toBuf v = v := rfl

theorem ops_eq : (ops : List (HloOp τ sig (Elt F))) = opsA ++ (opsB ++ opsC) := rfl

/-- The fold over two stretches run one after the other is the second's over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The three stretches' results

Each stretch is read at the buffers the next one takes, from any contents `W`: the fold's result at a buffer is its
operation's function of the results at the operands' buffers, the typed references' transports cancel, and what is left is
the stage of the result term by unfolding. The reductions and the gathers are kept folded while the two sides are compared. -/

section Stretches
variable (W : Valuation τ sig (Elt Ideal))

theorem A_v1 : after (opsA (F := Ideal)) W (main_v1 : DevRef τ sig) = st_v1 (W (main_arg1 : DevRef τ sig)) := by
  after_results_simp
  rfl
theorem A_v2 : after (opsA (F := Ideal)) W (main_v2 : DevRef τ sig) = st_v2 (W (main_arg3 : DevRef τ sig)) := by
  after_results_simp
  rfl
theorem A_arg2 : after (opsA (F := Ideal)) W (main_arg2 : DevRef τ sig) = (W (main_arg2 : DevRef τ sig)) := by
  after_results_simp

attribute [local irreducible] Host.reduce Host.gather Host.reduceAdd in
theorem A_v3 : after (opsA (F := Ideal)) W (main_v3 : DevRef τ sig) = st_v3 (W (main_arg0 : DevRef τ sig)) (W (main_arg3 : DevRef τ sig)) := by
  after_results_simp
  simp only [ofBuf_toBuf, ofBuf_main_arg0, ofBuf_main_v2, ofBuf_main_v8, ofBuf_main_v13, toBuf_main_v3, toBuf_main_v9, toBuf_main_v20]
  rfl

theorem B_v19 : after (opsB (F := Ideal)) W (main_v19 : DevRef τ sig) = st_v19 := by
  after_results_simp
  rfl

attribute [local irreducible] Host.reduce Host.gather Host.reduceAdd in
theorem B_v13 (x1 x3 : FVec Ideal S4096x16 .f32) (c : FVec Ideal S1000 .f32) (i2 : IVec S4096 32)
    (h1 : W (main_v1 : DevRef τ sig) = x1) (h3 : W (main_v3 : DevRef τ sig) = x3)
    (hc : W (main_arg2 : DevRef τ sig) = c) (h2 : W (main_v2 : DevRef τ sig) = i2) :
    after (opsB (F := Ideal)) W (main_v13 : DevRef τ sig)
    = subf (Host.dotGeneral dot_S4096x16_S16x4096_S4096x4096_1_0_0_1_n_n none x1
              (transpose S16x4096 [1, 0] x3 transposes_S4096x16_S16x4096_1_0))
        (broadcastInDim S4096x4096 ![0, 1] bcast_S1x4096_S4096x4096_0_1
          (shapeCast S1x4096 (Host.log (tkQ (st_v8 c) i2)) shapeCasts_S4096_S1x4096)) := by
  subst h1 h3 hc h2
  after_results_simp
  simp only [ofBuf_toBuf, ofBuf_main_arg0, ofBuf_main_v2, ofBuf_main_v8, ofBuf_main_v13, toBuf_main_v3, toBuf_main_v9, toBuf_main_v20]
  rfl

attribute [local irreducible] Host.reduce Host.gather Host.reduceAdd in
theorem C_v24 (x19 x13 : FVec Ideal S4096x4096 .f32)
    (h19 : W (main_v19 : DevRef τ sig) = x19) (h13 : W (main_v13 : DevRef τ sig) = x13) :
    after (opsC (F := Ideal)) W (main_v24 : DevRef τ sig)
    = broadcastInDim S4096x1 ![0] bcast_S4096_S4096x1_0
        (Host.negf (Host.reduceAdd (mulf x19 (ls x13)) (constant (F := Ideal) S_ .f32 0x00000000#32)
          reducesTo_S4096x4096_S4096_d1 h_S_)) := by
  subst h19 h13
  after_results_simp
  simp only [ofBuf_toBuf, ofBuf_main_arg0, ofBuf_main_v2, ofBuf_main_v8, ofBuf_main_v13, toBuf_main_v3, toBuf_main_v9, toBuf_main_v20]
  rfl

end Stretches

/-- The result buffer after the whole line: the result term of the four arguments' contents. -/
theorem v24_eq (V : Valuation τ sig (Elt Ideal)) :
    after (ops (F := Ideal)) V (main_v24 : DevRef τ sig)
      = result (V (main_arg0 : DevRef τ sig)) (V (main_arg1 : DevRef τ sig)) (V (main_arg2 : DevRef τ sig)) (V (main_arg3 : DevRef τ sig)) := by
  rw [ops_eq, after_app, after_app]
  exact C_v24 _ _ _ (B_v19 _)
    (B_v13 _ _ _ _ _ (A_v1 V) (A_v3 V) (A_arg2 V) (A_v2 V))

theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp

/-- On every device, from any memory with zero counters: every weakly fair execution of @main terminates with the
    result buffer at the result term of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v24).trans (v24_eq _),
      (h c main_arg0).trans (arg0_eq _), (h c main_arg1).trans (arg1_eq _),
      (h c main_arg2).trans (arg2_eq _), (h c main_arg3).trans (arg3_eq _)⟩)
    (run_after m ρ)

end Cert.ReferenceIdeal.Hand

end
-- ==== Proof.lean ====
/-
  A sampled-softmax loss over a batch of 4096 (user, item) pairs: for every row the log of the sum, over the batch's
  columns, of the exponentiated frequency-corrected scores, less the row's own score.

  The reference gathers the 4096 item vectors, forms the 4096 × 4096 matrix of logits, subtracts the log-frequency of
  each column's item, takes a row-wise log-softmax and reads its diagonal. The kernel never forms that matrix: columns
  that carry the same item contribute equal terms, so it counts how many columns carry each of the (padded) 1024 items
  and sums, over the items, count × exp(score); items absent from the batch get a huge finite log-frequency in place
  of their own, and count zero, so they drop out of both the sum and the one-hot pick of the row's own score. Over the
  extended reals the two agree wherever every float input is a real number, every item id indexes the table
  (0 ≤ id < 1000), every count is non-negative and the count of every sampled item is positive: then every
  intermediate is a real number, log (c / Σc) = log c − log Σc, the shift by the row maximum cancels in the
  log-sum-exp, and regrouping the column sum by item turns one side into the other.

  The kernel's frame is proved once for any float instance and read at both; the kernel's result after the run is
  the stored block of losses, point by point; the reference's run ends at the composed term of its operations,
  which at every index is the same real number.
-/
import proofs.«139335_g11544872092195_cont_week2b_396_3_alg».proof.Defs
import proofs.«139335_g11544872092195_cont_week2b_396_3_alg».proof.Proof.Gen.Kernel
import proofs.«139335_g11544872092195_cont_week2b_396_3_alg».proof.Proof.Gen.KernelIdeal
import proofs.«139335_g11544872092195_cont_week2b_396_3_alg».proof.Proof.Gen.ReferenceIdeal
import proofs.«139335_g11544872092195_cont_week2b_396_3_alg».proof.Proof.Gen.Pre_finite_inputs
import proofs.«139335_g11544872092195_cont_week2b_396_3_alg».proof.Proof.BLaunch
import proofs.«139335_g11544872092195_cont_week2b_396_3_alg».proof.Proof.KLaunch
import proofs.«139335_g11544872092195_cont_week2b_396_3_alg».proof.Proof.PreFacts
import proofs.«139335_g11544872092195_cont_week2b_396_3_alg».proof.Proof.RefPoint
import proofs.«139335_g11544872092195_cont_week2b_396_3_alg».proof.Proof.KLoss
import proofs.«139335_g11544872092195_cont_week2b_396_3_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end and leaves its arguments as they were: the frame proved for any float
    instance, read at the word-level one. -/
theorem frame_kernel : Cert.frame_Kernel := fun m ρ _ => Cert.Kernel.Hand.frame m ρ

/-- The same frame at the extended reals. -/
theorem frame_kernel_ideal : Cert.frame_KernelIdeal := fun m ρ _ => Cert.KernelIdeal.Hand.frame m ρ

/-- The reference runs to the end and leaves its arguments as they were: its run, the result dropped. -/
theorem frame_reference : Cert.frame_ReferenceIdeal := fun m ρ _ =>
  (θ_run (Cert.ReferenceIdeal.defs (F := Ideal)) _ _).mono (fun _ h c => (h c).2) (Cert.ReferenceIdeal.Hand.run m ρ)

/-- On the domain the kernel's result array and the reference's hold, at every row, the same real number: the loss. -/
theorem algebraic : Cert.algebraic_KernelIdeal_ReferenceIdeal := by
  intro m ρ m' ρ' hpre hagree
  have hD : ∀ c : Dev Cert.KernelIdeal.nD, Cert.SoftmaxSpec.Dom
      (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)) :=
    fun c => Cert.SoftmaxSpec.dom_of_pre _ _ _ _ (hpre c)
  refine ⟨fun c => (Cert.KernelIdeal.Hand.dats (F := Ideal) m 0 c).arrAt 5 Cert.KernelIdeal.cfg0.N, Cert.KernelIdeal.Hand.run_value m ρ, ?_⟩
  refine (θ_run (Cert.ReferenceIdeal.defs (F := Ideal)) _ _).mono (fun _ h c => ⟨(h c).1.trans ?_, (h c).2⟩) (Cert.ReferenceIdeal.Hand.run m' ρ')
  rw [(hagree c).1, (hagree c).2.1, (hagree c).2.2.1, (hagree c).2.2.2]
  funext i
  obtain ⟨j, q, rfl⟩ : ∃ (j : Fin 4096) (q : Fin 1), i = ix2 j q := ⟨i 0, i 1, eq_ix2 i⟩
  obtain rfl : q = 0 := Subsingleton.elim _ _
  exact (Cert.ReferenceIdeal.Hand.result_apply _ _ _ _ (hD c) j).trans (Cert.KernelIdeal.Hand.out_eq_loss m c (hD c) j).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
